-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x256x256 : Shape := ⟨4, ![32, 16, 256, 256]⟩
abbrev S32x512x2 : Shape := ⟨3, ![32, 512, 2]⟩
abbrev S32x512 : Shape := ⟨2, ![32, 512]⟩
abbrev S2 : Shape := ⟨1, ![2]⟩
abbrev S1x1x2 : Shape := ⟨3, ![1, 1, 2]⟩
abbrev S_ : Shape := ⟨0, ![]⟩

class Facts : Prop where
  bcast_S2_S1x1x2_2 : S2.BroadcastsInDim S1x1x2 (![2] : Fin 1 → Fin S1x1x2.rank)
  bcast_S1x1x2_S32x512x2_0_1_2 : S1x1x2.BroadcastsInDim S32x512x2 (![0, 1, 2] : Fin 3 → Fin S32x512x2.rank)
  bcast_S_S32x16x256x256 : S_.BroadcastsInDim S32x16x256x256 (![] : Fin 0 → Fin S32x16x256x256.rank)
  reducesTo_S32x16x256x256_S_d0_1_2_3 : S32x16x256x256.ReducesTo [0, 1, 2, 3] S_
  h_S_ : 0 < S_.numel
  bcast_S_S32x512x2 : S_.BroadcastsInDim S32x512x2 (![] : Fin 0 → Fin S32x512x2.rank)
  reducesTo_S32x512x2_S_d0_1_2 : S32x512x2.ReducesTo [0, 1, 2] S_

variable [Facts]

def fn_part1 {F : FTy → Type} [FloatOps F] (main_v4 : IVec S32x512x2 32) (main_v13 : IVec S_ 1) (main_v16 : IVec S_ 1) : IVec S_ 1 :=
  let main_v17 : IVec S_ 1 := andi main_v13 main_v16
  let main_c_5 : IVec S_ 32 := constantI S_ 32 256#32
  let main_v18 : IVec S32x512x2 32 := broadcastInDim S32x512x2 ![] bcast_S_S32x512x2 main_c_5
  let main_v19 : IVec S32x512x2 1 := cmpi .slt main_v4 main_v18
  let main_c_6 : IVec S_ 1 := constantI S_ 1 1#1
  let main_v20 : IVec S_ 1 := (fun x v => Host.reduce IntOp.andi x v reducesTo_S32x512x2_S_d0_1_2 h_S_) main_v19 main_c_6
  let main_v21 : IVec S_ 1 := andi main_v17 main_v20
  main_v21

def fn {F : FTy → Type} [FloatOps F] (main_arg0 : FVec F S32x16x256x256 .f32) (main_arg1 : FVec F S32x512x2 .f32) (main_arg2 : IVec S32x512 32) (main_arg3 : IVec S32x512 32) : IVec S_ 1 :=
  let main_cst : FVec F S2 .f32 := constant S2 .f32 0x43800000#32
  let main_v0 : FVec F S1x1x2 .f32 := broadcastInDim S1x1x2 ![2] bcast_S2_S1x1x2_2 main_cst
  let main_v1 : FVec F S32x512x2 .f32 := broadcastInDim S32x512x2 ![0, 1, 2] bcast_S1x1x2_S32x512x2_0_1_2 main_v0
  let main_v2 : FVec F S32x512x2 .f32 := mulf main_arg1 main_v1
  let main_v3 : FVec F S32x512x2 .f32 := Host.floor main_v2
  let main_v4 : IVec S32x512x2 32 := fptosi 32 main_v3
  let main_v5 : FVec F S32x16x256x256 .f32 := Host.absf main_arg0
  let main_cst_0 : FVec F S_ .f32 := constant S_ .f32 0x7F800000#32
  let main_v6 : FVec F S32x16x256x256 .f32 := broadcastInDim S32x16x256x256 ![] bcast_S_S32x16x256x256 main_cst_0
  let main_v7 : IVec S32x16x256x256 1 := cmpf .olt main_v5 main_v6
  let main_c : IVec S_ 1 := constantI S_ 1 1#1
  let main_v8 : IVec S_ 1 := (fun x v => Host.reduce IntOp.andi x v reducesTo_S32x16x256x256_S_d0_1_2_3 h_S_) main_v7 main_c
  let main_v9 : FVec F S32x512x2 .f32 := Host.absf main_arg1
  let main_cst_1 : FVec F S_ .f32 := constant S_ .f32 0x7F800000#32
  let main_v10 : FVec F S32x512x2 .f32 := broadcastInDim S32x512x2 ![] bcast_S_S32x512x2 main_cst_1
  let main_v11 : IVec S32x512x2 1 := cmpf .olt main_v9 main_v10
  let main_c_2 : IVec S_ 1 := constantI S_ 1 1#1
  let main_v12 : IVec S_ 1 := (fun x v => Host.reduce IntOp.andi x v reducesTo_S32x512x2_S_d0_1_2 h_S_) main_v11 main_c_2
  let main_v13 : IVec S_ 1 := andi main_v8 main_v12
  let main_c_3 : IVec S_ 32 := constantI S_ 32 0#32
  let main_v14 : IVec S32x512x2 32 := broadcastInDim S32x512x2 ![] bcast_S_S32x512x2 main_c_3
  let main_v15 : IVec S32x512x2 1 := cmpi .sge main_v4 main_v14
  let main_c_4 : IVec S_ 1 := constantI S_ 1 1#1
  let main_v16 : IVec S_ 1 := (fun x v => Host.reduce IntOp.andi x v reducesTo_S32x512x2_S_d0_1_2 h_S_) main_v15 main_c_4
  fn_part1 (F := F) main_v4 main_v13 main_v16
-- ==== Kernel.lean ====
abbrev S32x16x256x256 : Shape := ⟨4, ![32, 16, 256, 256]⟩
abbrev S32x512x2 : Shape := ⟨3, ![32, 512, 2]⟩
abbrev S32x512 : Shape := ⟨2, ![32, 512]⟩
abbrev S2 : Shape := ⟨1, ![2]⟩
abbrev S1x1x2 : Shape := ⟨3, ![1, 1, 2]⟩
abbrev S32x512x1 : Shape := ⟨3, ![32, 512, 1]⟩
abbrev S_ : Shape := ⟨0, ![]⟩
abbrev S32x16x65536 : Shape := ⟨3, ![32, 16, 65536]⟩
abbrev S32x1x512 : Shape := ⟨3, ![32, 1, 512]⟩
abbrev S32x16x512 : Shape := ⟨3, ![32, 16, 512]⟩
abbrev S1x16x4096 : Shape := ⟨3, ![1, 16, 4096]⟩
abbrev S1x1x512 : Shape := ⟨3, ![1, 1, 512]⟩
abbrev S1x16x512 : Shape := ⟨3, ![1, 16, 512]⟩
abbrev S16x512 : Shape := ⟨2, ![16, 512]⟩
abbrev S4096x1 : Shape := ⟨2, ![4096, 1]⟩
abbrev S1x512 : Shape := ⟨2, ![1, 512]⟩
abbrev S4096x512 : Shape := ⟨2, ![4096, 512]⟩
abbrev S16x4096 : Shape := ⟨2, ![16, 4096]⟩
abbrev S32x1x1 : Shape := ⟨3, ![32, 1, 1]⟩
abbrev S1x512x1 : Shape := ⟨3, ![1, 512, 1]⟩
abbrev S1x1x1 : Shape := ⟨3, ![1, 1, 1]⟩
abbrev S512 : Shape := ⟨1, ![512]⟩
abbrev S512x1 : Shape := ⟨2, ![512, 1]⟩
abbrev S512x512 : Shape := ⟨2, ![512, 512]⟩
abbrev S1 : Shape := ⟨1, ![1]⟩
abbrev S1x1 : Shape := ⟨2, ![1, 1]⟩
abbrev S32 : Shape := ⟨1, ![32]⟩

abbrev nBuf : Space → Nat
  | .hbm => 35
  | .vmem => 19
  | .smem => 0
  | _ => 0

abbrev bufTy : (tb : Table) → Fin (tcTables nBuf tb) → BufTy
  | .hbm, ⟨0, _⟩ => ⟨S32x16x256x256, .f32⟩
  | .hbm, ⟨1, _⟩ => ⟨S32x512x2, .f32⟩
  | .hbm, ⟨2, _⟩ => ⟨S32x512, .i32⟩
  | .hbm, ⟨3, _⟩ => ⟨S32x512, .i32⟩
  | .hbm, ⟨4, _⟩ => ⟨S2, .f32⟩
  | .hbm, ⟨5, _⟩ => ⟨S1x1x2, .f32⟩
  | .hbm, ⟨6, _⟩ => ⟨S32x512x2, .f32⟩
  | .hbm, ⟨7, _⟩ => ⟨S32x512x2, .f32⟩
  | .hbm, ⟨8, _⟩ => ⟨S32x512x2, .f32⟩
  | .hbm, ⟨9, _⟩ => ⟨S32x512x2, .i32⟩
  | .hbm, ⟨10, _⟩ => ⟨S32x512x1, .i32⟩
  | .hbm, ⟨11, _⟩ => ⟨S32x512, .i32⟩
  | .hbm, ⟨12, _⟩ => ⟨S32x512x1, .i32⟩
  | .hbm, ⟨13, _⟩ => ⟨S32x512, .i32⟩
  | .hbm, ⟨14, _⟩ => ⟨S_, .i32⟩
  | .hbm, ⟨15, _⟩ => ⟨S32x512, .i32⟩
  | .hbm, ⟨16, _⟩ => ⟨S32x512, .i32⟩
  | .hbm, ⟨17, _⟩ => ⟨S32x512, .i32⟩
  | .hbm, ⟨18, _⟩ => ⟨S32x16x65536, .f32⟩
  | .hbm, ⟨19, _⟩ => ⟨S32x1x512, .i32⟩
  | .hbm, ⟨20, _⟩ => ⟨S32x16x512, .f32⟩
  | .hbm, ⟨21, _⟩ => ⟨S_, .i32⟩
  | .hbm, ⟨22, _⟩ => ⟨S32x512, .i32⟩
  | .hbm, ⟨23, _⟩ => ⟨S32x512, .i1⟩
  | .hbm, ⟨24, _⟩ => ⟨S32x512, .f32⟩
  | .hbm, ⟨25, _⟩ => ⟨S32x1x512, .f32⟩
  | .hbm, ⟨26, _⟩ => ⟨S32x512x1, .f32⟩
  | .hbm, ⟨27, _⟩ => ⟨S32x1x512, .i32⟩
  | .hbm, ⟨28, _⟩ => ⟨S32x512x1, .i32⟩
  | .hbm, ⟨29, _⟩ => ⟨S32x1x1, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x16x4096, .f32⟩
  | .local _ .vmem, ⟨1, _⟩ => ⟨S1x16x4096, .f32⟩
  | .local _ .vmem, ⟨2, _⟩ => ⟨S1x1x512, .i32⟩
  | .local _ .vmem, ⟨3, _⟩ => ⟨S1x1x512, .i32⟩
  | .local _ .vmem, ⟨4, _⟩ => ⟨S1x16x512, .f32⟩
  | .local _ .vmem, ⟨5, _⟩ => ⟨S1x16x512, .f32⟩
  | .local _ .vmem, ⟨6, _⟩ => ⟨S16x512, .f32⟩
  | .local _ .vmem, ⟨7, _⟩ => ⟨S1x16x512, .f32⟩
  | .local _ .vmem, ⟨8, _⟩ => ⟨S1x16x512, .f32⟩
  | .local _ .vmem, ⟨9, _⟩ => ⟨S1x1x512, .f32⟩
  | .local _ .vmem, ⟨10, _⟩ => ⟨S1x1x512, .f32⟩
  | .local _ .vmem, ⟨11, _⟩ => ⟨S1x512x1, .f32⟩
  | .local _ .vmem, ⟨12, _⟩ => ⟨S1x512x1, .f32⟩
  | .local _ .vmem, ⟨13, _⟩ => ⟨S1x1x512, .i32⟩
  | .local _ .vmem, ⟨14, _⟩ => ⟨S1x1x512, .i32⟩
  | .local _ .vmem, ⟨15, _⟩ => ⟨S1x512x1, .i32⟩
  | .local _ .vmem, ⟨16, _⟩ => ⟨S1x512x1, .i32⟩
  | .local _ .vmem, ⟨17, _⟩ => ⟨S1x1x1, .f32⟩
  | .local _ .vmem, ⟨18, _⟩ => ⟨S1x1x1, .f32⟩
  | _, _ => ⟨S32x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_10 : BitVec 32 := 0#32
  let v24 : BitVec 1 := Scalar.cmpi .ne v23 c0_i32_10
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S2_S1x1x2_2 : S2.BroadcastsInDim S1x1x2 (![2] : Fin 1 → Fin S1x1x2.rank)
  bcast_S1x1x2_S32x512x2_0_1_2 : S1x1x2.BroadcastsInDim S32x512x2 (![0, 1, 2] : Fin 3 → Fin S32x512x2.rank)
  slices_S32x512x2_S32x512x1_0_0_0 : S32x512x2.Slices ![0, 0, 0] S32x512x1
  shapeCasts_S32x512x1_S32x512 : S32x512x1.ShapeCasts S32x512
  slices_S32x512x2_S32x512x1_0_0_1 : S32x512x2.Slices ![0, 0, 1] S32x512x1
  bcast_S_S32x512 : S_.BroadcastsInDim S32x512 (![] : Fin 0 → Fin S32x512.rank)
  shapeCasts_S32x16x256x256_S32x16x65536 : S32x16x256x256.ShapeCasts S32x16x65536
  shapeCasts_S32x512_S32x1x512 : S32x512.ShapeCasts S32x1x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  iota_S4096x1_d0_w32 : S4096x1.Iotas .tc 32 [0]
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S4096x1_S4096x512 : S4096x1.Broadcasts S4096x512
  broadcasts_S1x512_S4096x512 : S1x512.Broadcasts S4096x512
  natLt_1_32 : 1 < 32
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  shapeCasts_S32x512_S32x512x1 : S32x512.ShapeCasts S32x512x1
  bitsLt_bf16_f32 : FTy.bits .bf16 < FTy.bits .f32
  reduces_S16x512_S512 : S16x512.Reduces [0] S512
  shapeCasts_S512_S1x512 : S512.ShapeCasts S1x512
  transposes_S1x512_p1_0_S512x1 : S1x512.Transposes [1, 0] S512x1
  broadcasts_S512x1_S512x512 : S512x1.Broadcasts S512x512
  broadcasts_S1x512_S512x512 : S1x512.Broadcasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  reduces_S512x512_S512 : S512x512.Reduces [1] S512
  shapeCasts_S512_S512x1 : S512.ShapeCasts S512x1
  reduces_S512x1_S1 : S512x1.Reduces [0] S1
  shapeCasts_S1_S1x1 : S1.ShapeCasts S1x1
  reduces_S1x512_S1 : S1x512.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S32x1x1_S32 : S32x1x1.ShapeCasts S32
  reducesTo_S32_S_d0 : S32.ReducesTo [0] S_
  h_S_ : 0 < S_.numel
  dot_S16x4096_S4096x512_S16x512_1_0_0_1_n_n_wf : DotDims.WF S16x4096 S4096x512 S16x512 [1] [0] [0] [1] [] []
  dot_S16x512_S16x512_S512x512_0_0_1_1_n_n_wf : DotDims.WF S16x512 S16x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x4096.size a ≤ S32x16x65536.size a
  hwx0_0 : ∀ i : grid0.Coords, EltTy.bits .f32 = 32 ∨ (Rect.block (s := S32x16x65536) S1x16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .i32 = 32 ∨ (Rect.block (s := S32x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S32x16x512.size a
  hwx0_2 : ∀ i : grid0.Coords, EltTy.bits .f32 = 32 ∨ (Rect.block (s := S32x16x512) S1x16x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x512.size a ≤ S32x16x512.size a
  hwx1_0 : ∀ i : grid1.Coords, EltTy.bits .f32 = 32 ∨ (Rect.block (s := S32x16x512) S1x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S32x1x512.size a
  hwx1_1 : ∀ i : grid1.Coords, EltTy.bits .f32 = 32 ∨ (Rect.block (s := S32x1x512) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S32x512x1.size a
  hwx1_2 : ∀ i : grid1.Coords, EltTy.bits .f32 = 32 ∨ (Rect.block (s := S32x512x1) S1x512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S32x1x512.size a
  hwx1_3 : ∀ i : grid1.Coords, EltTy.bits .i32 = 32 ∨ (Rect.block (s := S32x1x512) S1x1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1.size a ≤ S32x512x1.size a
  hwx1_4 : ∀ i : grid1.Coords, EltTy.bits .i32 = 32 ∨ (Rect.block (s := S32x512x1) S1x512x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S32x1x1.size a
  hwx1_5 : ∀ i : grid1.Coords, EltTy.bits .f32 = 32 ∨ (Rect.block (s := S32x1x1) S1x1x1.size (cc1_transform_5 i) (hinb1_5 i)).WholeWords (EltTy.packing .f32)

variable [Facts₀]

def dot_S16x4096_S4096x512_S16x512_1_0_0_1_n_n : DotDims S16x4096 S4096x512 S16x512 where
  lhsContracting := [1]
  rhsContracting := [0]
  lhsNonContracting := [0]
  rhsNonContracting := [1]
  lhsBatch := []
  rhsBatch := []
  wf := dot_S16x4096_S4096x512_S16x512_1_0_0_1_n_n_wf
def dot_S16x512_S16x512_S512x512_0_0_1_1_n_n : DotDims S16x512 S16x512 S512x512 where
  lhsContracting := [0]
  rhsContracting := [0]
  lhsNonContracting := [1]
  rhsNonContracting := [1]
  lhsBatch := []
  rhsBatch := []
  wf := dot_S16x512_S16x512_S512x512_0_0_1_1_n_n_wf

abbrev win0_0 : Pipeline.Window sig grid0 :=
  Pipeline.Window.ofSpec (Memref.whole main_v12) S1x16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v14) S1x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x16x256x256 : Shape := ⟨4, ![32, 16, 256, 256]⟩
abbrev S32x512x2 : Shape := ⟨3, ![32, 512, 2]⟩
abbrev S32x512 : Shape := ⟨2, ![32, 512]⟩
abbrev S2 : Shape := ⟨1, ![2]⟩
abbrev S1x1x2 : Shape := ⟨3, ![1, 1, 2]⟩
abbrev S32x512x1 : Shape := ⟨3, ![32, 512, 1]⟩
abbrev S_ : Shape := ⟨0, ![]⟩
abbrev S32x16x512 : Shape := ⟨3, ![32, 16, 512]⟩
abbrev S32x1x512 : Shape := ⟨3, ![32, 1, 512]⟩
abbrev S32x512x512 : Shape := ⟨3, ![32, 512, 512]⟩
abbrev S32 : Shape := ⟨1, ![32]⟩

abbrev nBuf : Space → Nat
  | .hbm => 102
  | .vmem => 0
  | .smem => 0
  | _ => 0

abbrev bufTy : (tb : Table) → Fin (tcTables nBuf tb) → BufTy
  | .hbm, ⟨0, _⟩ => ⟨S32x16x256x256, .f32⟩
  | .hbm, ⟨1, _⟩ => ⟨S32x512x2, .f32⟩
  | .hbm, ⟨2, _⟩ => ⟨S32x512, .i32⟩
  | .hbm, ⟨3, _⟩ => ⟨S32x512, .i32⟩
  | .hbm, ⟨4, _⟩ => ⟨S2, .f32⟩
  | .hbm, ⟨5, _⟩ => ⟨S1x1x2, .f32⟩
  | .hbm, ⟨6, _⟩ => ⟨S32x512x2, .f32⟩
  | .hbm, ⟨7, _⟩ => ⟨S32x512x2, .f32⟩
  | .hbm, ⟨8, _⟩ => ⟨S32x512x2, .f32⟩
  | .hbm, ⟨9, _⟩ => ⟨S32x512x2, .i32⟩
  | .hbm, ⟨10, _⟩ => ⟨S32x512x1, .i32⟩
  | .hbm, ⟨11, _⟩ => ⟨S32x512, .i32⟩
  | .hbm, ⟨12, _⟩ => ⟨S32x512x1, .i32⟩
  | .hbm, ⟨13, _⟩ => ⟨S32x512, .i32⟩
  | .hbm, ⟨14, _⟩ => ⟨S_, .i32⟩
  | .hbm, ⟨15, _⟩ => ⟨S32x512, .i32⟩
  | .hbm, ⟨16, _⟩ => ⟨S32x512, .i1⟩
  | .hbm, ⟨17, _⟩ => ⟨S_, .i32⟩
  | .hbm, ⟨18, _⟩ => ⟨S32x512, .i32⟩
  | .hbm, ⟨19, _⟩ => ⟨S32x512, .i32⟩
  | .hbm, ⟨20, _⟩ => ⟨S32x512, .i32⟩
  | .hbm, ⟨21, _⟩ => ⟨S_, .i32⟩
  | .hbm, ⟨22, _⟩ => ⟨S32x512, .i32⟩
  | .hbm, ⟨23, _⟩ => ⟨S32x512, .i1⟩
  | .hbm, ⟨24, _⟩ => ⟨S_, .i32⟩
  | .hbm, ⟨25, _⟩ => ⟨S32x512, .i32⟩
  | .hbm, ⟨26, _⟩ => ⟨S32x512, .i32⟩
  | .hbm, ⟨27, _⟩ => ⟨S32x512, .i32⟩
  | .hbm, ⟨28, _⟩ => ⟨S32x512x1, .i32⟩
  | .hbm, ⟨29, _⟩ => ⟨S32x512x1, .i32⟩
  | .hbm, ⟨30, _⟩ => ⟨S32x512x2, .i32⟩
  | .hbm, ⟨31, _⟩ => ⟨S32x16x512, .f32⟩
  | .hbm, ⟨32, _⟩ => ⟨S_, .i32⟩
  | .hbm, ⟨33, _⟩ => ⟨S32x512, .i32⟩
  | .hbm, ⟨34, _⟩ => ⟨S32x512, .i1⟩
  | .hbm, ⟨35, _⟩ => ⟨S32x512, .f32⟩
  | .hbm, ⟨36, _⟩ => ⟨S32x512x1, .f32⟩
  | .hbm, ⟨37, _⟩ => ⟨S32x1x512, .f32⟩
  | .hbm, ⟨38, _⟩ => ⟨S32x512x512, .f32⟩
  | .hbm, ⟨39, _⟩ => ⟨S32x512x512, .f32⟩
  | .hbm, ⟨40, _⟩ => ⟨S32x512x512, .f32⟩
  | .hbm, ⟨41, _⟩ => ⟨S32x512x1, .i32⟩
  | .hbm, ⟨42, _⟩ => ⟨S32x1x512, .i32⟩
  | .hbm, ⟨43, _⟩ => ⟨S32x512x512, .i32⟩
  | .hbm, ⟨44, _⟩ => ⟨S32x512x512, .i32⟩
  | .hbm, ⟨45, _⟩ => ⟨S32x512x512, .i1⟩
  | .hbm, ⟨46, _⟩ => ⟨S32x512x512, .f32⟩
  | .hbm, ⟨47, _⟩ => ⟨S32x16x512, .f32⟩
  | .hbm, ⟨48, _⟩ => ⟨S_, .f32⟩
  | .hbm, ⟨49, _⟩ => ⟨S32x512, .f32⟩
  | .hbm, ⟨50, _⟩ => ⟨S_, .f32⟩
  | .hbm, ⟨51, _⟩ => ⟨S32x512, .f32⟩
  | .hbm, ⟨52, _⟩ => ⟨S32x512, .f32⟩
  | .hbm, ⟨53, _⟩ => ⟨S32x512x512, .f32⟩
  | .hbm, ⟨54, _⟩ => ⟨S_, .f32⟩
  | .hbm, ⟨55, _⟩ => ⟨S32x512x512, .f32⟩
  | .hbm, ⟨56, _⟩ => ⟨S32x512x512, .f32⟩
  | .hbm, ⟨57, _⟩ => ⟨S32x512x1, .f32⟩
  | .hbm, ⟨58, _⟩ => ⟨S32x1x512, .f32⟩
  | .hbm, ⟨59, _⟩ => ⟨S32x512x512, .f32⟩
  | .hbm, ⟨60, _⟩ => ⟨S32x512x512, .f32⟩
  | .hbm, ⟨61, _⟩ => ⟨S32x512x512, .f32⟩
  | .hbm, ⟨62, _⟩ => ⟨S_, .f32⟩
  | .hbm, ⟨63, _⟩ => ⟨S32x512x512, .f32⟩
  | .hbm, ⟨64, _⟩ => ⟨S32x512x512, .f32⟩
  | .hbm, ⟨65, _⟩ => ⟨S32x512x512, .f32⟩
  | .hbm, ⟨66, _⟩ => ⟨S32x512x512, .f32⟩
  | .hbm, ⟨67, _⟩ => ⟨S_, .f32⟩
  | .hbm, ⟨68, _⟩ => ⟨S32x512x512, .f32⟩
  | .hbm, ⟨69, _⟩ => ⟨S32x512x512, .f32⟩
  | .hbm, ⟨70, _⟩ => ⟨S_, .f32⟩
  | .hbm, ⟨71, _⟩ => ⟨S32x512x512, .f32⟩
  | .hbm, ⟨72, _⟩ => ⟨S32x512x512, .f32⟩
  | .hbm, ⟨73, _⟩ => ⟨S_, .f32⟩
  | .hbm, ⟨74, _⟩ => ⟨S32x512x512, .f32⟩
  | .hbm, ⟨75, _⟩ => ⟨S32x512x512, .i1⟩
  | .hbm, ⟨76, _⟩ => ⟨S_, .f32⟩
  | .hbm, ⟨77, _⟩ => ⟨S32x512x512, .f32⟩
  | .hbm, ⟨78, _⟩ => ⟨S32x512x512, .i1⟩
  | .hbm, ⟨79, _⟩ => ⟨S32x512x512, .i1⟩
  | .hbm, ⟨80, _⟩ => ⟨S_, .f32⟩
  | .hbm, ⟨81, _⟩ => ⟨S_, .f32⟩
  | .hbm, ⟨82, _⟩ => ⟨S32x512x512, .f32⟩
  | .hbm, ⟨83, _⟩ => ⟨S32x512x512, .f32⟩
  | .hbm, ⟨84, _⟩ => ⟨S32x512x512, .f32⟩
  | .hbm, ⟨85, _⟩ => ⟨S32x512x512, .f32⟩
  | .hbm, ⟨86, _⟩ => ⟨S32x512x512, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S32x512x512, .f32⟩
  | .hbm, ⟨94, _⟩ => ⟨S32x512x512, .f32⟩
  | .hbm, ⟨95, _⟩ => ⟨S_, .f32⟩
  | .hbm, ⟨96, _⟩ => ⟨S32, .f32⟩
  | .hbm, ⟨97, _⟩ => ⟨S32, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S32x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_cst_13 : Ref sig .tc := ⟨.hbm, 81, rfl⟩
abbrev main_call0_v0 : Ref sig .tc := ⟨.hbm, 82, rfl⟩
abbrev main_call0_v1 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S32x512x2_0_1_2 : S1x1x2.BroadcastsInDim S32x512x2 (![0, 1, 2] : Fin 3 → Fin S32x512x2.rank)
  slices_S32x512x2_S32x512x1_0_0_0 : S32x512x2.Slices ![0, 0, 0] S32x512x1
  shapeCasts_S32x512x1_S32x512 : S32x512x1.ShapeCasts S32x512
  slices_S32x512x2_S32x512x1_0_0_1 : S32x512x2.Slices ![0, 0, 1] S32x512x1
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  concatenates_S32x512x1_S32x512x1_S32x512x2_d2 : Shape.Concatenates [S32x512x1, S32x512x1] S32x512x2 2
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  reducesTo_S32x16x512_S32x512_d1 : S32x16x512.ReducesTo [1] S32x512
  h_S_ : 0 < S_.numel
  bcast_S_S32x512x512 : S_.BroadcastsInDim S32x512x512 (![] : Fin 0 → Fin S32x512x512.rank)
  reducesTo_S32x512_S32_d1 : S32x512.ReducesTo [1] S32
  bcast_S_S32 : S_.BroadcastsInDim S32 (![] : Fin 0 → Fin S32.rank)
  reducesTo_S32x512x512_S32_d1_2 : S32x512x512.ReducesTo [1, 2] S32
  reducesTo_S32_S_d0 : S32.ReducesTo [0] S_
  gather_S32x16x256x256_S32x512x2_S32x16x512_1_23_0_0_23_2_11611_wf : GatherDims.WF S32x16x256x256 S32x512x2 S32x16x512 [1] [2, 3] [0] [2, 3] [0] 2 ![1, 16, 1, 1]
  dot_S32x16x512_S32x16x512_S32x512x512_1_1_2_2_0_0_wf : DotDims.WF S32x16x512 S32x16x512 S32x512x512 [1] [1] [2] [2] [0] [0]

variable [Facts₀]

def gather_S32x16x256x256_S32x512x2_S32x16x512_1_23_0_0_23_2_11611 : GatherDims S32x16x256x256 S32x512x2 S32x16x512 where
  offsetDims := [1]
  collapsedSliceDims := [2, 3]
  operandBatchingDims := [0]
  startIndicesBatchingDims := [0]
  startIndexMap := [2, 3]
  indexVectorDim := 2
  sliceSizes := ![1, 16, 1, 1]
  wf := gather_S32x16x256x256_S32x512x2_S32x16x512_1_23_0_0_23_2_11611_wf
def dot_S32x16x512_S32x16x512_S32x512x512_1_1_2_2_0_0 : DotDims S32x16x512 S32x16x512 S32x512x512 where
  lhsContracting := [1]
  rhsContracting := [1]
  lhsNonContracting := [2]
  rhsNonContracting := [2]
  lhsBatch := [0]
  rhsBatch := [0]
  wf := dot_S32x16x512_S32x16x512_S32x512x512_1_1_2_2_0_0_wf

class Facts : Prop extends Facts₀ where

variable [Facts]
-- ==== Proof.K.R0Body.lean ====
/- Region 0 (the one-hot gather kernel) on the pipeline: the scratch accumulator carried from point to point, the body's triple per control case, the proof data. -/
import proofs.«126018_j80238579023903_1_alg».proof.Proof.Gen.Kernel.Launch
import proofs.«126018_j80238579023903_1_alg».proof.Proof.Gen.Kernel.Skeleton
import proofs.«126018_j80238579023903_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, in closed form over the grid -/

/-- The first conditional of the body (the accumulator's reset): the tile coordinate is 0. -/
abbrev cond0_0 (i : grid0.Coords) : Prop := (Scalar.cmpi .ne (Scalar.extui (Scalar.cmpi .eq (BitVec.ofNat 32 (i 1).val) 0#32)) 0#32) = 1#1
/-- It holds exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional of the body (the output's store): the tile coordinate is 15. -/
abbrev cond0_1 (i : grid0.Coords) : Prop := k0_cond2 i = 1#1
/-- It holds exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two input windows are never idle. -/
theorem liveAt0_0 (i : grid0.Coords) : cfg0.idle 0 i = false := rfl
theorem liveAt0_1 (i : grid0.Coords) : cfg0.idle 1 i = false := rfl
/-- The output window is idle exactly where the second conditional fails, -/
theorem idleAt0_2 (i : grid0.Coords) (h : ¬cond0_1 i) : cfg0.idle 2 i = true := by
  show (!(k0_cond2 i == 1#1)) = true
  rw [Bool.not_eq_true', beq_eq_false_iff_ne]; exact h
/-- live where it holds, -/
theorem liveAt0_2 (i : grid0.Coords) (h : cond0_1 i) : cfg0.idle 2 i = false := by
  show (!(k0_cond2 i == 1#1)) = false
  rw [Bool.not_eq_false', beq_iff_eq]; exact h
/-- and not written back at a point that is not the last tile of its sample. -/
theorem noFlush0_2 (t : Fin cfg0.N) (h : ¬t.val % 16 = 15) : (cfg0.win 2).flush t = false :=
  Bool.eq_false_iff.mpr fun hf => h ((flush0_2 t).mp hf)

/-! ## The staging memrefs and the scratch accumulator -/

/-- Each window's current staging memref at point `t`, as the pipeline passes it to the body, and its wholeness. -/
abbrev ms0_0 (t : Fin cfg0.N) : Memref sig .tc .vmem S1x16x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x512 .f32 := win0_2.stage (cfg0.slots t 2)
abbrev hs0_2 (t : Fin cfg0.N) : (ms0_2 t).IsWhole := hstage0_2 ((cfg0.slots t 2).cast nbuf0_2)
/-- The scratch accumulator: a whole scoped buffer of the kernel's own, passed beside the windows. -/
abbrev scM0 : Memref sig .tc .vmem S16x512 .f32 := Memref.whole cc0_scratch0

/-- The zero offsets of the body's whole-shape loads and stores, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The other scoped buffers of the core that are no staging buffer of this kernel (the twelve staging buffers of
    the second kernel), each whole at some contents: the body never touches them. -/
def rest12 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region, with the scratch accumulator as a memref owned at some contents. -/
theorem PhiA0_eq (c : Dev nD) :
    (Pipeline.ΦA spec0 c : sProp 𝕄)
      = iprop(iprop((∃ d, owns (c : Thread nD τ) scM0 fullShare d) ∗ rest12 (F := F) c) ∗ (∃ r, prngReg c r)) := by
  unfold Pipeline.ΦA rest12; rw [scopedRest0_eq]; simp only [scM0, owns_whole]; try rfl

/-! ## The body's triple, case by case -/

set_option maxHeartbeats 1000000 in
/-- CASE A (the first tile of a sample: the reset taken, the output's store not taken). On whole memrefs — the two
    inputs' at their contents, the output's at contents handed back untouched, the accumulator at anything — the body
    runs to the continuation holding the inputs' and the output's as they were and the accumulator with the pieces
    `LS0` written (last first): the pieces are what the run finds. -/
noncomputable def kernelRun0_A (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : cond0_0 i) (hc1 : ¬cond0_1 i)
    (x0 : Vec F S1x16x4096 .f32) (x1 : Vec F S1x1x512 .i32) :
    { LS0 : List (View.Piece (Elt F) S16x512 .f32) //
      ∀ (xi2 : Vec F S1x16x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (tiles 1 to 14: neither conditional taken). The accumulator is handed in at the contents `xs0` the point
    before left; otherwise as case A. -/
noncomputable def kernelRun0_B (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : ¬cond0_1 i)
    (x0 : Vec F S1x16x4096 .f32) (x1 : Vec F S1x1x512 .i32) (xs0 : Vec F S16x512 .f32) :
    { LS0 : List (View.Piece (Elt F) S16x512 .f32) //
      ∀ (xi2 : Vec F S1x16x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (the last tile of a sample: the reset not taken, the output's store taken). The output's memref is handed in
    at anything and comes back with the pieces `L2` written; the accumulator as in case B. -/
noncomputable def kernelRun0_C (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) :
    Σ' (L2 : List (View.Piece (Elt F) S1x16x512 .f32)), { LS0 : List (View.Piece (Elt F) S16x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## The pieces the runs found cover their buffers -/

theorem scover0_A (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : cond0_0 i) (hc1 : ¬cond0_1 i)
    (x0 : Vec F S1x16x4096 .f32) (x1 : Vec F S1x1x512 .i32) (y : S16x512.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S16x512.size (by sl_kernel_rfl) y

theorem scover0_B (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : ¬cond0_1 i)
    (x0 : Vec F S1x16x4096 .f32) (x1 : Vec F S1x1x512 .i32) (xs0 : Vec F S16x512 .f32) (y : S16x512.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S16x512.size (by sl_kernel_rfl) y

theorem scover0_C (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) (y : S16x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S16x512.size (by sl_kernel_rfl) y

theorem cover0_C_2 (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) (y : S1x16x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x16x512.size (by sl_kernel_rfl) y

/-! ## The pieces read as the body's payloads -/

/-- Case A leaves in the accumulator the tile's product added to the reset value (the load after the reset store
    reads the reset value back). -/
theorem pieceA (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : cond0_0 i) (hc1 : ¬cond0_1 i)
    (x0 : Vec F S1x16x4096 .f32) (x1 : Vec F S1x1x512 .i32) (f : arg5.view.ty.Contents (Elt F)) :
    arg5.view.read (Elt F) (arg5.view.writes (Elt F) f (kernelRun0_A c i arg2 harg2 arg3 harg3 arg4 harg4 arg5 harg5 hc0 hc1 x0 x1).1)
      = k0_pay2 i x1 x0 (k0_pay1 (F := F)) := by
  rw [View.read_writes_eq_canon _ _ _ (scover0_A c i arg2 harg2 arg3 harg3 arg4 harg4 arg5 harg5 hc0 hc1 x0 x1)]
  unfold kernelRun0_A; dsimp only; sl_unfold_words
  rw [View.canon_cons_unit_zero (S := S16x512) hz2, View.readCov_unit_zero (S := S16x512) _ hz2]
  simp only [View.readAt_eq_ld, harg2.read_unread, harg3.read_unread, View.ld_unit_zero (S := S1x1x512) hz3, View.ld_unit_zero (S := S1x16x4096) hz3]

/-- Case B leaves in the accumulator the tile's product added to what the point before left. -/
theorem pieceB (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : ¬cond0_1 i)
    (x0 : Vec F S1x16x4096 .f32) (x1 : Vec F S1x1x512 .i32) (xs0 : Vec F S16x512 .f32) (f : arg5.view.ty.Contents (Elt F)) :
    arg5.view.read (Elt F) (arg5.view.writes (Elt F) f (kernelRun0_B c i arg2 harg2 arg3 harg3 arg4 harg4 arg5 harg5 hc0 hc1 x0 x1 xs0).1)
      = k0_pay2 i x1 x0 xs0 := by
  rw [View.read_writes_eq_canon _ _ _ (scover0_B c i arg2 harg2 arg3 harg3 arg4 harg4 arg5 harg5 hc0 hc1 x0 x1 xs0)]
  unfold kernelRun0_B; dsimp only; sl_unfold_words
  rw [View.canon_unit_zero (S := S16x512) hz2]
  simp only [View.readAt_eq_ld, harg2.read_unread, harg3.read_unread, harg5.read_unread, View.ld_unit_zero (S := S1x1x512) hz3, View.ld_unit_zero (S := S1x16x4096) hz3, View.ld_unit_zero (S := S16x512) hz2]

/-- Case C leaves the same in the accumulator, -/
theorem pieceC (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) (f : arg5.view.ty.Contents (Elt F)) :
    arg5.view.read (Elt F) (arg5.view.writes (Elt F) f (kernelRun0_C c i arg2 harg2 arg3 harg3 arg4 harg4 arg5 harg5 hc0 hc1 x0 x1 xs0).2.1)
      = k0_pay2 i x1 x0 xs0 := by
  rw [View.read_writes_eq_canon _ _ _ (scover0_C c i arg2 harg2 arg3 harg3 arg4 harg4 arg5 harg5 hc0 hc1 x0 x1 xs0)]
  unfold kernelRun0_C; dsimp only; sl_unfold_words
  rw [View.canon_unit_zero (S := S16x512) hz2]
  simp only [View.readAt_eq_ld, harg2.read_unread, harg3.read_unread, harg5.read_unread, View.ld_unit_zero (S := S1x1x512) hz3, View.ld_unit_zero (S := S1x16x4096) hz3, View.ld_unit_zero (S := S16x512) hz2]

/-- and in the output's staging buffer the accumulator just stored, read back and reshaped. -/
theorem pieceC_2 (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) (f : arg4.view.ty.Contents (Elt F)) :
    arg4.view.read (Elt F) (arg4.view.writes (Elt F) f (kernelRun0_C c i arg2 harg2 arg3 harg3 arg4 harg4 arg5 harg5 hc0 hc1 x0 x1 xs0).1)
      = k0_pay3 (k0_pay2 i x1 x0 xs0) := by
  rw [View.read_writes_eq_canon _ _ _ (cover0_C_2 c i arg2 harg2 arg3 harg3 arg4 harg4 arg5 harg5 hc0 hc1 x0 x1 xs0)]
  unfold kernelRun0_C; dsimp only; sl_unfold_words
  rw [View.canon_unit_zero (S := S1x16x512) hz3]
  simp only [View.readAt_eq_ld, harg2.read_unread, harg3.read_unread, harg5.read_unread, View.readCov_unit_zero (S := S16x512) _ hz2, View.ld_unit_zero (S := S1x1x512) hz3, View.ld_unit_zero (S := S1x16x4096) hz3, View.ld_unit_zero (S := S16x512) hz2]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch accumulator holds after point `n`: at the first tile of a sample the tile's product added to
    the reset value, at every other tile the tile's product added to what the point before left. -/
def acc0 (c : Dev nD) : (n : ℕ) → n < cfg0.N → Vec F S16x512 .f32
  | 0, hn => k0_pay2 (grid0.coords ⟨0, hn⟩) (iblk0 V c 1 ⟨0, hn⟩) (iblk0 V c 0 ⟨0, hn⟩) (k0_pay1 (F := F))
  | n + 1, hn =>
    if (n + 1) % 16 = 0 then
      k0_pay2 (grid0.coords ⟨n + 1, hn⟩) (iblk0 V c 1 ⟨n + 1, hn⟩) (iblk0 V c 0 ⟨n + 1, hn⟩) (k0_pay1 (F := F))
    else
      k0_pay2 (grid0.coords ⟨n + 1, hn⟩) (iblk0 V c 1 ⟨n + 1, hn⟩) (iblk0 V c 0 ⟨n + 1, hn⟩) (acc0 c n (Nat.lt_of_succ_lt hn))

/-- At the first tile of a sample (points ≡ 0 mod 16) the accumulator is reset, then the tile's product added. -/
theorem acc0_reset (c : Dev nD) (t : Fin cfg0.N) (h : t.val % 16 = 0) :
    acc0 V c t.val t.isLt = k0_pay2 (grid0.coords t) (iblk0 V c 1 t) (iblk0 V c 0 t) (k0_pay1 (F := F)) := by
  obtain ⟨n, hn⟩ := t
  cases n with
  | zero => rfl
  | succ n => exact if_pos h
/-- At every other tile the tile's product is added to what the point before left. -/
theorem acc0_step (c : Dev nD) (t : Fin cfg0.N) (h : t.val % 16 ≠ 0) :
    acc0 V c t.val t.isLt = k0_pay2 (grid0.coords t) (iblk0 V c 1 t) (iblk0 V c 0 t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- The region invariant before position `n`: before the first point what the launch hands the region (the scratch
    accumulator and the other scoped buffers at some contents, the generator register at some state); afterwards the
    same with the accumulator owned at what the point before left in it. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ rest12 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc0 V c n hn) ∗ rest12 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (acc0 V c (n - 1) (by omega)) ∗ rest12 (F := F) c) ∗ (∃ r, prngReg c r)) := by
  cases n with
  | zero => exact absurd rfl hz
  | succ n => rfl

/-- The proof data of pipeline 0 on core `c`: the arrays as the region finds them; after the body at point `t` each
    input's buffer at its block and the output's at the accumulator reshaped (consulted only at the last tile of a
    sample, the one place the output is stored); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q0_eq (c : Dev nD) (w : Fin cfg0.W) : (dat0 V c).q w = fullShare := rfl
theorem owed0_eq (c : Dev nD) (t : Fin (cfg0.N + 1)) : (dat0 V c).owed t = 0 := rfl
theorem recorded0_eq (c : Dev nD) (t : Fin (cfg0.N + 1)) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
/-- At the last tile of a sample (points ≡ 15 mod 16), the one place the output window is stored and written back, its
    staging buffer holds the accumulator. -/
theorem after0_2 (c : Dev nD) (t : Fin cfg0.N) (h : t.val % 16 = 15) :
    (dat0 V c).after 2 t = k0_pay3 (acc0 V c t.val t.isLt) := by dsimp only [dat0]

/-- Each input's current staging buffer holds its block at every point, fetched there or not: unfetched, the index map
    has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t` (the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks (`before0_0`, `before0_1`); the closed forms say which
    case the point is in; so that case's run applies. The invariant hands the body the accumulator at what the point
    before left (at anything before the first point) and takes it back at this point's contents, read off the pieces the
    run found; the other scoped buffers and the generator register pass through; the core owes nothing throughout. -/
theorem sound_body0 (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0], after0_0]
  rw [show (dat0 V c).leavesExact 1 t = owns (c : Thread nD τ) (ms0_1 t) fullShare ((dat0 V c).after 1 t) from by
    unfold Dat.leavesExact; rw [liveAt0_1], after0_1]
  have hN : t.val < 512 := lt_of_lt_of_eq t.isLt (show cfg0.N = 512 from N_0)
  by_cases h0 : t.val % 16 = 0
  · -- case A: the first tile of a sample
    have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 _ hc1) (noFlush0_2 t h1)]
    rw [acc0_reset V c t h0]
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) hc0 hc1 (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact pieceA c (grid0.coords t) (ms0_0 t) (hs0_0 t) (ms0_1 t) (hs0_1 t) (ms0_2 t) (hs0_2 t) scM0 (Memref.isWhole_whole _) hc0 hc1 (iblk0 V c 0 t) (iblk0 V c 1 t) es0
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hr⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) hc0 hc1 (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact pieceA c (grid0.coords t) (ms0_0 t) (hs0_0 t) (ms0_1 t) (hs0_1 t) (ms0_2 t) (hs0_2 t) scM0 (Memref.isWhole_whole _) hc0 hc1 (iblk0 V c 0 t) (iblk0 V c 1 t) es0
          iexact Hr
        iexact Hg
      isplitl [Ho]; · iexact Ho
      isplitl [H0]; · iexact H0
      isplitl [H1]; · iexact H1
      iexists _; iexact H2
  · have hz : t.val ≠ 0 := fun hz => h0 (by rw [hz])
    have hc0 : ¬cond0_0 (grid0.coords t) := fun h => h0 ((hcond0_0 t).mp h)
    rw [acc0_step V c t h0]
    rw [PhiS_castSucc V c t, PhiS_pos V c _ _ hz]
    by_cases h1 : t.val % 16 = 15
    · -- case C: the last tile of a sample
      have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 _ hc1], after0_2 V c t h1, acc0_step V c t h0]
      iintro ⟨⟨⟨HS0, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact pieceC c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt)) es0
          iexact Hr
        iexact Hg
      isplitl [Ho]; · iexact Ho
      isplitl [H0]; · iexact H0
      isplitl [H1]; · iexact H1
      unfold owns; iexists _; isplitr
      swap; · iexact H2
      ipureintro; exact pieceC_2 c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt)) e2
    · -- case B: the tiles between
      have hc1 : ¬cond0_1 (grid0.coords t) := fun h => h1 ((hcond0_1 t).mp h)
      rw [Dat.leavesExact_idle (dat0 V c) 2 t (idleAt0_2 _ hc1) (noFlush0_2 t h1)]
      iintro ⟨⟨⟨HS0, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt))).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact pieceB c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt)) es0
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- after any point but the first the invariant gives it back, the accumulator's named contents forgotten; -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- so after the last point. -/
theorem hout0 (c : Dev nD) : (dat0 V c).Φ (Fin.last cfg0.N) ⊢ Pipeline.ΦA spec0 c :=
  Phi_out0 V c _ (by rw [Fin.val_last]; have : cfg0.N = 512 := N_0; omega)

end Cert.Kernel.Hand

end
-- ==== Proof.K.R1Body.lean ====
/- Region 1 (the pairwise-loss kernel) on the pipeline: what its one store leaves, the body's triple, the proof data. -/
import proofs.«126018_j80238579023903_1_alg».proof.Proof.Gen.Kernel.Launch
import proofs.«126018_j80238579023903_1_alg».proof.Proof.Gen.Kernel.Skeleton
import proofs.«126018_j80238579023903_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's buffer holds its block

Every input window of this pipeline is whole (never cut at its array's end) and never idle, and the body leaves
each input buffer as it found it. So at every point the window's current staging buffer holds the window's block
there, whether the point fetched it or found it in place from the point before
(`Dat.before_in_eq_fetched`). Stated for ANY proof data with these arrays and these kept blocks, so that the
lemma comes before the proof data's definition. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
    (fun t => by rw [hafter]; unfold Dat.blockOf iblk1; rw [hA]; try rfl) t d).trans
    (by unfold Dat.fetched Dat.blockOf iblk1; rw [hA]; try rfl)

/-! ## The body's accesses: each buffer as a whole

Every load and the one store of the body go through the rectangle that starts at the origin and has the buffer's
own extents — the whole buffer. Four shapes occur: the sample's 16 × 512 block of gathered rows, a 1 × 512 row
(twice: a real row and an integer row), a 512 × 1 column (twice likewise), and the single cell of the result. -/

/-- The origin of a rank-three buffer, as the constant-zero offset. -/
theorem origin3 : (![0, 0, 0] : Fin 3 → Nat) = fun _ => 0 := funext fun a => by fin_cases a <;> rfl

abbrev whole16x512 : Rect S1x16x512 := Rect.unit (s := S1x16x512) ![0, 0, 0] S1x16x512.size inb_S1x16x512_S1x16x512_0_0_0
abbrev wholeRow : Rect S1x1x512 := Rect.unit (s := S1x1x512) ![0, 0, 0] S1x1x512.size inb_S1x1x512_S1x1x512_0_0_0
abbrev wholeCol : Rect S1x512x1 := Rect.unit (s := S1x512x1) ![0, 0, 0] S1x512x1.size inb_S1x512x1_S1x512x1_0_0_0
abbrev wholeCell : Rect S1x1x1 := Rect.unit (s := S1x1x1) ![0, 0, 0] S1x1x1.size inb_S1x1x1_S1x1x1_0_0_0

/-! ## What the body leaves in the output window's buffer -/

/-- The output buffer after the body, from the five input buffers' contents: its one store, over the whole
    cell, of the loss of the loaded blocks (window 1, the real row, is loaded twice, and both loads
    read the same contents). The arithmetic stays folded in the payload names. -/
def out1_5 (x0 : Vec F S1x16x512 .f32) (x1 : Vec F S1x1x512 .f32) (x2 : Vec F S1x512x1 .f32)
    (x3 : Vec F S1x1x512 .i32) (x4 : Vec F S1x512x1 .i32) : Vec F S1x1x1 .f32 :=
  View.canon [⟨wholeCell, k1_pay1 (k1_pay2 (View.ld x0 whole16x512)) (k1_pay3 (View.ld x4 wholeCol) (View.ld x3 wholeRow))
    (k1_pay4 (View.ld x1 wholeRow)) (k1_pay5 (View.ld x2 wholeCol)) (View.ld x1 wholeRow)⟩]

/-- The one store covers the buffer: every index lies in the whole-buffer rectangle. -/
theorem cover1_5 (p : Vec F S1x1x1 .f32) (y : S1x1x1.Idx) :
    ∃ pc ∈ ([⟨wholeCell, p⟩] : List (View.Piece (Elt F) S1x1x1 .f32)), y ∈ pc.1.set :=
  ⟨_, List.mem_singleton_self _, View.mem_set_unit_zero origin3 inb_S1x1x1_S1x1x1_0_0_0 y⟩

/-- With every rectangle the whole buffer, a load reads the contents and the store leaves its payload:
    the output buffer holds the loss of the input buffers' contents themselves. -/
theorem out1_5_eq (x0 : Vec F S1x16x512 .f32) (x1 : Vec F S1x1x512 .f32) (x2 : Vec F S1x512x1 .f32)
    (x3 : Vec F S1x1x512 .i32) (x4 : Vec F S1x512x1 .i32) :
    out1_5 x0 x1 x2 x3 x4 = k1_pay1 (k1_pay2 x0) (k1_pay3 x4 x3) (k1_pay4 x1) (k1_pay5 x2) x1 := by
  unfold out1_5
  rw [View.canon_unit_zero origin3]
  simp only [View.ld_unit_zero (S := S1x16x512) origin3, View.ld_unit_zero (S := S1x1x512) origin3,
    View.ld_unit_zero (S := S1x512x1) origin3]

/-! ## The body's triple -/

set_option maxHeartbeats 1000000 in
/-- The kernel body on whole staging memrefs, the five inputs' at read contents `x0 … x4` and the output's at
    anything, runs to the continuation holding the inputs' as they were and the output's at `out1_5` of them:
    six loads (five in the first part, then the real row again), a load of the output buffer that nothing
    reads, and the one covering store. -/
theorem sound_kernel1 (c : Dev nD) (E : Set ℕ) (i : grid1.Coords)
    (arg1 : Memref sig .tc .vmem S1x16x512 .f32) (harg1 : arg1.IsWhole)
    (arg2 : Memref sig .tc .vmem S1x1x512 .f32) (harg2 : arg2.IsWhole)
    (arg3 : Memref sig .tc .vmem S1x512x1 .f32) (harg3 : arg3.IsWhole)
    (arg4 : Memref sig .tc .vmem S1x1x512 .i32) (harg4 : arg4.IsWhole)
    (arg5 : Memref sig .tc .vmem S1x512x1 .i32) (harg5 : arg5.IsWhole)
    (arg6 : Memref sig .tc .vmem S1x1x1 .f32) (harg6 : arg6.IsWhole)
    (x0 : Vec F S1x16x512 .f32) (x1 : Vec F S1x1x512 .f32) (x2 : Vec F S1x512x1 .f32)
    (x3 : Vec F S1x1x512 .i32) (x4 : Vec F S1x512x1 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__pairwise_kernel i arg1 harg1 arg2 harg2 arg3 harg3 arg4 harg4 arg5 harg5 arg6 harg6) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi1_eq (c : Dev nD) (t : Fin (cfg1.N + 1)) : (dat1 V c).Φ t = Pipeline.ΦA spec1 c := by
  dsimp only [dat1]
theorem q1_eq (c : Dev nD) (w : Fin cfg1.W) : (dat1 V c).q w = fullShare := by
  dsimp only [dat1]
theorem owed1_eq (c : Dev nD) (t : Fin (cfg1.N + 1)) : (dat1 V c).owed t = 0 := by
  dsimp only [dat1]
theorem recorded1_eq (c : Dev nD) (t : Fin (cfg1.N + 1)) : (dat1 V c).recorded t = Set.univ := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5_out (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- What point `t` leaves in the output window's staging buffer: the kernel's one stored value, of the point's input blocks. -/
theorem after1_5 (c : Dev nD) (t : Fin cfg1.N) :
    (dat1 V c).after 5 t = k1_pay1 (k1_pay2 (iblk1 V c 0 t)) (k1_pay3 (iblk1 V c 4 t) (iblk1 V c 3 t)) (k1_pay4 (iblk1 V c 1 t)) (k1_pay5 (iblk1 V c 2 t)) (iblk1 V c 1 t) := by
  rw [after1_5_out]; exact out1_5_eq _ _ _ _ _

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current
    staging buffer at what the pipeline put or left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5_out]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/- The whole run of @main, generic in the float family: the buffer contents at each boundary between @main's five
   items (host operations, the gather kernel's region, host operations, the pairwise kernel's region, host operations) as a
   fold from the launch memory, each region a segment entered from the contents the item before it left, and the launch:
   every weakly fair execution terminates with every unscoped buffer at the last boundary's contents. -/
import proofs.«126018_j80238579023903_1_alg».proof.Proof.Gen.Kernel.Launch
import proofs.«126018_j80238579023903_1_alg».proof.Proof.Gen.Kernel.Skeleton
import proofs.«126018_j80238579023903_1_alg».proof.Proof.Gen.Kernel.Points
import proofs.«126018_j80238579023903_1_alg».proof.Proof.Gen.Kernel.Regions
import proofs.«126018_j80238579023903_1_alg».proof.Proof.K.R0Body
import proofs.«126018_j80238579023903_1_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the first host stretch (the gather region's entry). -/
abbrev B1 : Dev nD → Valuation τ sig (Elt F) := fun c => StableHlo.after hostOps0 (B0 m c)
/-- The same at the TensorCore's references. -/
abbrev E1 : (c : Dev nD) → (b : Ref sig .tc) → Buf (Elt F) ((c : Thread nD τ).loc b) := fun c b => B1 m c b
/-- At the gather region's exit: its arrays at what its write-backs leave, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second host stretch (the pairwise region's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the pairwise region's exit. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b
/-- After the last host stretch: the end. -/
abbrev B5 : Dev nD → Valuation τ sig (Elt F) := fun c => StableHlo.after hostOps2 (B4 m c)

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb

theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (B5 m c) ∗ ∃ r, prngReg c r)

/-! ## The regions as segments -/

set_option backward.isDefEq.respectTransparency.types false in
/-- The gather kernel's region: entered from `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun c t => owed0_eq (E1 m) c t
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => q0_eq (E1 m) c w) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0_eq (E1 m) c 0]
      icases HO with ⟨%W, HO⟩; iexists W; isplitr; · ipureintro; exact fun _ _ => Or.inl (by rw [show (pdats m 0 c).recorded 0 = Set.univ from recorded0_eq (E1 m) c 0]; trivial)
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0_eq (E1 m) c w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed0_eq (E1 m) c _]
    icases HO with ⟨%W, -, HO⟩; iexists W; iexact HO

set_option backward.isDefEq.respectTransparency.types false in
/-- The pairwise kernel's region: entered from `B3`, left at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun c t => owed1_eq (E3 m) c t
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun w => q1_eq (E3 m) c w) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1_eq (E3 m) c 0]
      icases HO with ⟨%W, HO⟩; iexists W; isplitr; · ipureintro; exact fun _ _ => Or.inl (by rw [show (pdats m 1 c).recorded 0 = Set.univ from recorded1_eq (E3 m) c 0]; trivial)
      iexact HO
    isplitl [Hp]; · iexact Hp
    iexact Hrest
  hin c := by
    rw [show (pdats m 1 c).Φ 0 = Pipeline.ΦA spec1 c from Phi1_eq (E3 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1_eq (E3 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q1_eq (E3 m) c w)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed1_eq (E3 m) c _]
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (B5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-! ## Reading the last boundary -/

/-- A buffer that no host operation writes and that is no array of either region holds its launch contents at the end. -/
theorem B5_of (c : Dev nD) (r : Ref sig .tc) (h0 : r ∉ hostOps0_W) (h1 : r ∉ hostOps1_W) (h2 : r ∉ hostOps2_W)
    (hs0 : ∀ w, Pipeline.arrRef spec0 w ≠ r) (hs1 : ∀ w, Pipeline.arrRef spec1 w ≠ r) : B5 m c r = m (c, r) :=
  (StableHlo.after_of_writes_sub hostOps2 _ hostOps2_writes h2).trans <|
    (B4_of_ne m c r hs1).trans <| (StableHlo.after_of_writes_sub hostOps1 _ hostOps1_writes h1).trans <|
      (B2_of_ne m c r hs0).trans <| (StableHlo.after_of_writes_sub hostOps0 _ hostOps0_writes h0).trans rfl

theorem B5_main_arg0 (c : Dev nD) : B5 m c main_arg0 = m ((c : Thread nD τ).loc main_arg0) :=
  B5_of m c main_arg0 (by decide) (by decide) (by decide) (by decide) (by decide)
theorem B5_main_arg1 (c : Dev nD) : B5 m c main_arg1 = m ((c : Thread nD τ).loc main_arg1) :=
  B5_of m c main_arg1 (by decide) (by decide) (by decide) (by decide) (by decide)
theorem B5_main_arg2 (c : Dev nD) : B5 m c main_arg2 = m ((c : Thread nD τ).loc main_arg2) :=
  B5_of m c main_arg2 (by decide) (by decide) (by decide) (by decide) (by decide)
theorem B5_main_arg3 (c : Dev nD) : B5 m c main_arg3 = m ((c : Thread nD τ).loc main_arg3) :=
  B5_of m c main_arg3 (by decide) (by decide) (by decide) (by decide) (by decide)

/-- THE RUN with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v25) = B5 m c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v25 (by decide)),
     (h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c)⟩) (run_all m ρ)

/-- THE FRAME: every weakly fair execution terminates, nothing faulting, the argument arrays unchanged. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Hand

end
-- ==== Proof.KI.R0Body.lean ====
/- Region 0 (the one-hot gather kernel) on the pipeline: the scratch accumulator carried from point to point, the body's triple per control case, the proof data. -/
import proofs.«126018_j80238579023903_1_alg».proof.Proof.Gen.KernelIdeal.Launch
import proofs.«126018_j80238579023903_1_alg».proof.Proof.Gen.KernelIdeal.Skeleton
import proofs.«126018_j80238579023903_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, in closed form over the grid -/

/-- The first conditional of the body (the accumulator's reset): the tile coordinate is 0. -/
abbrev cond0_0 (i : grid0.Coords) : Prop := (Scalar.cmpi .ne (Scalar.extui (Scalar.cmpi .eq (BitVec.ofNat 32 (i 1).val) 0#32)) 0#32) = 1#1
/-- It holds exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional of the body (the output's store): the tile coordinate is 15. -/
abbrev cond0_1 (i : grid0.Coords) : Prop := k0_cond2 i = 1#1
/-- It holds exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two input windows are never idle. -/
theorem liveAt0_0 (i : grid0.Coords) : cfg0.idle 0 i = false := rfl
theorem liveAt0_1 (i : grid0.Coords) : cfg0.idle 1 i = false := rfl
/-- The output window is idle exactly where the second conditional fails, -/
theorem idleAt0_2 (i : grid0.Coords) (h : ¬cond0_1 i) : cfg0.idle 2 i = true := by
  show (!(k0_cond2 i == 1#1)) = true
  rw [Bool.not_eq_true', beq_eq_false_iff_ne]; exact h
/-- live where it holds, -/
theorem liveAt0_2 (i : grid0.Coords) (h : cond0_1 i) : cfg0.idle 2 i = false := by
  show (!(k0_cond2 i == 1#1)) = false
  rw [Bool.not_eq_false', beq_iff_eq]; exact h
/-- and not written back at a point that is not the last tile of its sample. -/
theorem noFlush0_2 (t : Fin cfg0.N) (h : ¬t.val % 16 = 15) : (cfg0.win 2).flush t = false :=
  Bool.eq_false_iff.mpr fun hf => h ((flush0_2 t).mp hf)

/-! ## The staging memrefs and the scratch accumulator -/

/-- Each window's current staging memref at point `t`, as the pipeline passes it to the body, and its wholeness. -/
abbrev ms0_0 (t : Fin cfg0.N) : Memref sig .tc .vmem S1x16x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x512 .f32 := win0_2.stage (cfg0.slots t 2)
abbrev hs0_2 (t : Fin cfg0.N) : (ms0_2 t).IsWhole := hstage0_2 ((cfg0.slots t 2).cast nbuf0_2)
/-- The scratch accumulator: a whole scoped buffer of the kernel's own, passed beside the windows. -/
abbrev scM0 : Memref sig .tc .vmem S16x512 .f32 := Memref.whole cc0_scratch0

/-- The zero offsets of the body's whole-shape loads and stores, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The other scoped buffers of the core that are no staging buffer of this kernel (the twelve staging buffers of
    the second kernel), each whole at some contents: the body never touches them. -/
def rest12 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region, with the scratch accumulator as a memref owned at some contents. -/
theorem PhiA0_eq (c : Dev nD) :
    (Pipeline.ΦA spec0 c : sProp 𝕄)
      = iprop(iprop((∃ d, owns (c : Thread nD τ) scM0 fullShare d) ∗ rest12 (F := F) c) ∗ (∃ r, prngReg c r)) := by
  unfold Pipeline.ΦA rest12; rw [scopedRest0_eq]; simp only [scM0, owns_whole]; try rfl

/-! ## The body's triple, case by case -/

set_option maxHeartbeats 1000000 in
/-- CASE A (the first tile of a sample: the reset taken, the output's store not taken). On whole memrefs — the two
    inputs' at their contents, the output's at contents handed back untouched, the accumulator at anything — the body
    runs to the continuation holding the inputs' and the output's as they were and the accumulator with the pieces
    `LS0` written (last first): the pieces are what the run finds. -/
noncomputable def kernelRun0_A (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : cond0_0 i) (hc1 : ¬cond0_1 i)
    (x0 : Vec F S1x16x4096 .f32) (x1 : Vec F S1x1x512 .i32) :
    { LS0 : List (View.Piece (Elt F) S16x512 .f32) //
      ∀ (xi2 : Vec F S1x16x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (tiles 1 to 14: neither conditional taken). The accumulator is handed in at the contents `xs0` the point
    before left; otherwise as case A. -/
noncomputable def kernelRun0_B (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : ¬cond0_1 i)
    (x0 : Vec F S1x16x4096 .f32) (x1 : Vec F S1x1x512 .i32) (xs0 : Vec F S16x512 .f32) :
    { LS0 : List (View.Piece (Elt F) S16x512 .f32) //
      ∀ (xi2 : Vec F S1x16x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (the last tile of a sample: the reset not taken, the output's store taken). The output's memref is handed in
    at anything and comes back with the pieces `L2` written; the accumulator as in case B. -/
noncomputable def kernelRun0_C (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) :
    Σ' (L2 : List (View.Piece (Elt F) S1x16x512 .f32)), { LS0 : List (View.Piece (Elt F) S16x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-! ## The pieces the runs found cover their buffers -/

theorem scover0_A (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : cond0_0 i) (hc1 : ¬cond0_1 i)
    (x0 : Vec F S1x16x4096 .f32) (x1 : Vec F S1x1x512 .i32) (y : S16x512.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S16x512.size (by sl_kernel_rfl) y

theorem scover0_B (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : ¬cond0_1 i)
    (x0 : Vec F S1x16x4096 .f32) (x1 : Vec F S1x1x512 .i32) (xs0 : Vec F S16x512 .f32) (y : S16x512.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S16x512.size (by sl_kernel_rfl) y

theorem scover0_C (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) (y : S16x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S16x512.size (by sl_kernel_rfl) y

theorem cover0_C_2 (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) (y : S1x16x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x16x512.size (by sl_kernel_rfl) y

/-! ## The pieces read as the body's payloads -/

/-- Case A leaves in the accumulator the tile's product added to the reset value (the load after the reset store
    reads the reset value back). -/
theorem pieceA (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : cond0_0 i) (hc1 : ¬cond0_1 i)
    (x0 : Vec F S1x16x4096 .f32) (x1 : Vec F S1x1x512 .i32) (f : arg5.view.ty.Contents (Elt F)) :
    arg5.view.read (Elt F) (arg5.view.writes (Elt F) f (kernelRun0_A c i arg2 harg2 arg3 harg3 arg4 harg4 arg5 harg5 hc0 hc1 x0 x1).1)
      = k0_pay2 i x1 x0 (k0_pay1 (F := F)) := by
  rw [View.read_writes_eq_canon _ _ _ (scover0_A c i arg2 harg2 arg3 harg3 arg4 harg4 arg5 harg5 hc0 hc1 x0 x1)]
  unfold kernelRun0_A; dsimp only; sl_unfold_words
  rw [View.canon_cons_unit_zero (S := S16x512) hz2, View.readCov_unit_zero (S := S16x512) _ hz2]
  simp only [View.readAt_eq_ld, harg2.read_unread, harg3.read_unread, View.ld_unit_zero (S := S1x1x512) hz3, View.ld_unit_zero (S := S1x16x4096) hz3]

/-- Case B leaves in the accumulator the tile's product added to what the point before left. -/
theorem pieceB (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : ¬cond0_1 i)
    (x0 : Vec F S1x16x4096 .f32) (x1 : Vec F S1x1x512 .i32) (xs0 : Vec F S16x512 .f32) (f : arg5.view.ty.Contents (Elt F)) :
    arg5.view.read (Elt F) (arg5.view.writes (Elt F) f (kernelRun0_B c i arg2 harg2 arg3 harg3 arg4 harg4 arg5 harg5 hc0 hc1 x0 x1 xs0).1)
      = k0_pay2 i x1 x0 xs0 := by
  rw [View.read_writes_eq_canon _ _ _ (scover0_B c i arg2 harg2 arg3 harg3 arg4 harg4 arg5 harg5 hc0 hc1 x0 x1 xs0)]
  unfold kernelRun0_B; dsimp only; sl_unfold_words
  rw [View.canon_unit_zero (S := S16x512) hz2]
  simp only [View.readAt_eq_ld, harg2.read_unread, harg3.read_unread, harg5.read_unread, View.ld_unit_zero (S := S1x1x512) hz3, View.ld_unit_zero (S := S1x16x4096) hz3, View.ld_unit_zero (S := S16x512) hz2]

/-- Case C leaves the same in the accumulator, -/
theorem pieceC (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) (f : arg5.view.ty.Contents (Elt F)) :
    arg5.view.read (Elt F) (arg5.view.writes (Elt F) f (kernelRun0_C c i arg2 harg2 arg3 harg3 arg4 harg4 arg5 harg5 hc0 hc1 x0 x1 xs0).2.1)
      = k0_pay2 i x1 x0 xs0 := by
  rw [View.read_writes_eq_canon _ _ _ (scover0_C c i arg2 harg2 arg3 harg3 arg4 harg4 arg5 harg5 hc0 hc1 x0 x1 xs0)]
  unfold kernelRun0_C; dsimp only; sl_unfold_words
  rw [View.canon_unit_zero (S := S16x512) hz2]
  simp only [View.readAt_eq_ld, harg2.read_unread, harg3.read_unread, harg5.read_unread, View.ld_unit_zero (S := S1x1x512) hz3, View.ld_unit_zero (S := S1x16x4096) hz3, View.ld_unit_zero (S := S16x512) hz2]

/-- and in the output's staging buffer the accumulator just stored, read back and reshaped. -/
theorem pieceC_2 (c : Dev nD) (i : grid0.Coords) (arg2 : Memref sig .tc .vmem S1x16x4096 .f32) (harg2 : arg2.IsWhole) (arg3 : Memref sig .tc .vmem S1x1x512 .i32) (harg3 : arg3.IsWhole) (arg4 : Memref sig .tc .vmem S1x16x512 .f32) (harg4 : arg4.IsWhole) (arg5 : Memref sig .tc .vmem S16x512 .f32) (harg5 : arg5.IsWhole) (hc0 : ¬cond0_0 i) (hc1 : cond0_1 i)
    (x0 : Vec F S1x16x4096 .f32) (x1 : Vec F S1x1x512 .i32) (xs0 : Vec F S16x512 .f32) (f : arg4.view.ty.Contents (Elt F)) :
    arg4.view.read (Elt F) (arg4.view.writes (Elt F) f (kernelRun0_C c i arg2 harg2 arg3 harg3 arg4 harg4 arg5 harg5 hc0 hc1 x0 x1 xs0).1)
      = k0_pay3 (k0_pay2 i x1 x0 xs0) := by
  rw [View.read_writes_eq_canon _ _ _ (cover0_C_2 c i arg2 harg2 arg3 harg3 arg4 harg4 arg5 harg5 hc0 hc1 x0 x1 xs0)]
  unfold kernelRun0_C; dsimp only; sl_unfold_words
  rw [View.canon_unit_zero (S := S1x16x512) hz3]
  simp only [View.readAt_eq_ld, harg2.read_unread, harg3.read_unread, harg5.read_unread, View.readCov_unit_zero (S := S16x512) _ hz2, View.ld_unit_zero (S := S1x1x512) hz3, View.ld_unit_zero (S := S1x16x4096) hz3, View.ld_unit_zero (S := S16x512) hz2]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch accumulator holds after point `n`: at the first tile of a sample the tile's product added to
    the reset value, at every other tile the tile's product added to what the point before left. -/
def acc0 (c : Dev nD) : (n : ℕ) → n < cfg0.N → Vec F S16x512 .f32
  | 0, hn => k0_pay2 (grid0.coords ⟨0, hn⟩) (iblk0 V c 1 ⟨0, hn⟩) (iblk0 V c 0 ⟨0, hn⟩) (k0_pay1 (F := F))
  | n + 1, hn =>
    if (n + 1) % 16 = 0 then
      k0_pay2 (grid0.coords ⟨n + 1, hn⟩) (iblk0 V c 1 ⟨n + 1, hn⟩) (iblk0 V c 0 ⟨n + 1, hn⟩) (k0_pay1 (F := F))
    else
      k0_pay2 (grid0.coords ⟨n + 1, hn⟩) (iblk0 V c 1 ⟨n + 1, hn⟩) (iblk0 V c 0 ⟨n + 1, hn⟩) (acc0 c n (Nat.lt_of_succ_lt hn))

/-- At the first tile of a sample (points ≡ 0 mod 16) the accumulator is reset, then the tile's product added. -/
theorem acc0_reset (c : Dev nD) (t : Fin cfg0.N) (h : t.val % 16 = 0) :
    acc0 V c t.val t.isLt = k0_pay2 (grid0.coords t) (iblk0 V c 1 t) (iblk0 V c 0 t) (k0_pay1 (F := F)) := by
  obtain ⟨n, hn⟩ := t
  cases n with
  | zero => rfl
  | succ n => exact if_pos h
/-- At every other tile the tile's product is added to what the point before left. -/
theorem acc0_step (c : Dev nD) (t : Fin cfg0.N) (h : t.val % 16 ≠ 0) :
    acc0 V c t.val t.isLt = k0_pay2 (grid0.coords t) (iblk0 V c 1 t) (iblk0 V c 0 t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- The region invariant before position `n`: before the first point what the launch hands the region (the scratch
    accumulator and the other scoped buffers at some contents, the generator register at some state); afterwards the
    same with the accumulator owned at what the point before left in it. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ rest12 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc0 V c n hn) ∗ rest12 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (acc0 V c (n - 1) (by omega)) ∗ rest12 (F := F) c) ∗ (∃ r, prngReg c r)) := by
  cases n with
  | zero => exact absurd rfl hz
  | succ n => rfl

/-- The proof data of pipeline 0 on core `c`: the arrays as the region finds them; after the body at point `t` each
    input's buffer at its block and the output's at the accumulator reshaped (consulted only at the last tile of a
    sample, the one place the output is stored); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q0_eq (c : Dev nD) (w : Fin cfg0.W) : (dat0 V c).q w = fullShare := rfl
theorem owed0_eq (c : Dev nD) (t : Fin (cfg0.N + 1)) : (dat0 V c).owed t = 0 := rfl
theorem recorded0_eq (c : Dev nD) (t : Fin (cfg0.N + 1)) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
/-- At the last tile of a sample (points ≡ 15 mod 16), the one place the output window is stored and written back, its
    staging buffer holds the accumulator. -/
theorem after0_2 (c : Dev nD) (t : Fin cfg0.N) (h : t.val % 16 = 15) :
    (dat0 V c).after 2 t = k0_pay3 (acc0 V c t.val t.isLt) := by dsimp only [dat0]

/-- Each input's current staging buffer holds its block at every point, fetched there or not: unfetched, the index map
    has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t` (the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks (`before0_0`, `before0_1`); the closed forms say which
    case the point is in; so that case's run applies. The invariant hands the body the accumulator at what the point
    before left (at anything before the first point) and takes it back at this point's contents, read off the pieces the
    run found; the other scoped buffers and the generator register pass through; the core owes nothing throughout. -/
theorem sound_body0 (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0], after0_0]
  rw [show (dat0 V c).leavesExact 1 t = owns (c : Thread nD τ) (ms0_1 t) fullShare ((dat0 V c).after 1 t) from by
    unfold Dat.leavesExact; rw [liveAt0_1], after0_1]
  have hN : t.val < 512 := lt_of_lt_of_eq t.isLt (show cfg0.N = 512 from N_0)
  by_cases h0 : t.val % 16 = 0
  · -- case A: the first tile of a sample
    have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 _ hc1) (noFlush0_2 t h1)]
    rw [acc0_reset V c t h0]
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) hc0 hc1 (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact pieceA c (grid0.coords t) (ms0_0 t) (hs0_0 t) (ms0_1 t) (hs0_1 t) (ms0_2 t) (hs0_2 t) scM0 (Memref.isWhole_whole _) hc0 hc1 (iblk0 V c 0 t) (iblk0 V c 1 t) es0
          iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hr⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) hc0 hc1 (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact pieceA c (grid0.coords t) (ms0_0 t) (hs0_0 t) (ms0_1 t) (hs0_1 t) (ms0_2 t) (hs0_2 t) scM0 (Memref.isWhole_whole _) hc0 hc1 (iblk0 V c 0 t) (iblk0 V c 1 t) es0
          iexact Hr
        iexact Hg
      isplitl [Ho]; · iexact Ho
      isplitl [H0]; · iexact H0
      isplitl [H1]; · iexact H1
      iexists _; iexact H2
  · have hz : t.val ≠ 0 := fun hz => h0 (by rw [hz])
    have hc0 : ¬cond0_0 (grid0.coords t) := fun h => h0 ((hcond0_0 t).mp h)
    rw [acc0_step V c t h0]
    rw [PhiS_castSucc V c t, PhiS_pos V c _ _ hz]
    by_cases h1 : t.val % 16 = 15
    · -- case C: the last tile of a sample
      have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 _ hc1], after0_2 V c t h1, acc0_step V c t h0]
      iintro ⟨⟨⟨HS0, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact pieceC c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt)) es0
          iexact Hr
        iexact Hg
      isplitl [Ho]; · iexact Ho
      isplitl [H0]; · iexact H0
      isplitl [H1]; · iexact H1
      unfold owns; iexists _; isplitr
      swap; · iexact H2
      ipureintro; exact pieceC_2 c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt)) e2
    · -- case B: the tiles between
      have hc1 : ¬cond0_1 (grid0.coords t) := fun h => h1 ((hcond0_1 t).mp h)
      rw [Dat.leavesExact_idle (dat0 V c) 2 t (idleAt0_2 _ hc1) (noFlush0_2 t h1)]
      iintro ⟨⟨⟨HS0, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt))).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact pieceB c (grid0.coords t) (ms0_0 t) (hs0_0 t) (ms0_1 t) (hs0_1 t) (ms0_2 t) (hs0_2 t) scM0 (Memref.isWhole_whole _) hc0 hc1 (iblk0 V c 0 t) (iblk0 V c 1 t) (acc0 V c (t.val - 1) (Nat.lt_of_le_of_lt (Nat.sub_le _ _) t.isLt)) es0
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- after any point but the first the invariant gives it back, the accumulator's named contents forgotten; -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- so after the last point. -/
theorem hout0 (c : Dev nD) : (dat0 V c).Φ (Fin.last cfg0.N) ⊢ Pipeline.ΦA spec0 c :=
  Phi_out0 V c _ (by rw [Fin.val_last]; have : cfg0.N = 512 := N_0; omega)

end Cert.KernelIdeal.Hand

end
-- ==== Proof.KI.R1Body.lean ====
/- Region 1 (the pairwise-loss kernel) on the pipeline: what its one store leaves, the body's triple, the proof data. -/
import proofs.«126018_j80238579023903_1_alg».proof.Proof.Gen.KernelIdeal.Launch
import proofs.«126018_j80238579023903_1_alg».proof.Proof.Gen.KernelIdeal.Skeleton
import proofs.«126018_j80238579023903_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's buffer holds its block

Every input window of this pipeline is whole (never cut at its array's end) and never idle, and the body leaves
each input buffer as it found it. So at every point the window's current staging buffer holds the window's block
there, whether the point fetched it or found it in place from the point before
(`Dat.before_in_eq_fetched`). Stated for ANY proof data with these arrays and these kept blocks, so that the
lemma comes before the proof data's definition. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
    (fun t => by rw [hafter]; unfold Dat.blockOf iblk1; rw [hA]; try rfl) t d).trans
    (by unfold Dat.fetched Dat.blockOf iblk1; rw [hA]; try rfl)

/-! ## The body's accesses: each buffer as a whole

Every load and the one store of the body go through the rectangle that starts at the origin and has the buffer's
own extents — the whole buffer. Four shapes occur: the sample's 16 × 512 block of gathered rows, a 1 × 512 row
(twice: a real row and an integer row), a 512 × 1 column (twice likewise), and the single cell of the result. -/

/-- The origin of a rank-three buffer, as the constant-zero offset. -/
theorem origin3 : (![0, 0, 0] : Fin 3 → Nat) = fun _ => 0 := funext fun a => by fin_cases a <;> rfl

abbrev whole16x512 : Rect S1x16x512 := Rect.unit (s := S1x16x512) ![0, 0, 0] S1x16x512.size inb_S1x16x512_S1x16x512_0_0_0
abbrev wholeRow : Rect S1x1x512 := Rect.unit (s := S1x1x512) ![0, 0, 0] S1x1x512.size inb_S1x1x512_S1x1x512_0_0_0
abbrev wholeCol : Rect S1x512x1 := Rect.unit (s := S1x512x1) ![0, 0, 0] S1x512x1.size inb_S1x512x1_S1x512x1_0_0_0
abbrev wholeCell : Rect S1x1x1 := Rect.unit (s := S1x1x1) ![0, 0, 0] S1x1x1.size inb_S1x1x1_S1x1x1_0_0_0

/-! ## What the body leaves in the output window's buffer -/

/-- The output buffer after the body, from the five input buffers' contents: its one store, over the whole
    cell, of the loss of the loaded blocks (window 1, the real row, is loaded twice, and both loads
    read the same contents). The arithmetic stays folded in the payload names. -/
def out1_5 (x0 : Vec F S1x16x512 .f32) (x1 : Vec F S1x1x512 .f32) (x2 : Vec F S1x512x1 .f32)
    (x3 : Vec F S1x1x512 .i32) (x4 : Vec F S1x512x1 .i32) : Vec F S1x1x1 .f32 :=
  View.canon [⟨wholeCell, k1_pay1 (k1_pay2 (View.ld x0 whole16x512)) (k1_pay3 (View.ld x4 wholeCol) (View.ld x3 wholeRow))
    (k1_pay4 (View.ld x1 wholeRow)) (k1_pay5 (View.ld x2 wholeCol)) (View.ld x1 wholeRow)⟩]

/-- The one store covers the buffer: every index lies in the whole-buffer rectangle. -/
theorem cover1_5 (p : Vec F S1x1x1 .f32) (y : S1x1x1.Idx) :
    ∃ pc ∈ ([⟨wholeCell, p⟩] : List (View.Piece (Elt F) S1x1x1 .f32)), y ∈ pc.1.set :=
  ⟨_, List.mem_singleton_self _, View.mem_set_unit_zero origin3 inb_S1x1x1_S1x1x1_0_0_0 y⟩

/-- With every rectangle the whole buffer, a load reads the contents and the store leaves its payload:
    the output buffer holds the loss of the input buffers' contents themselves. -/
theorem out1_5_eq (x0 : Vec F S1x16x512 .f32) (x1 : Vec F S1x1x512 .f32) (x2 : Vec F S1x512x1 .f32)
    (x3 : Vec F S1x1x512 .i32) (x4 : Vec F S1x512x1 .i32) :
    out1_5 x0 x1 x2 x3 x4 = k1_pay1 (k1_pay2 x0) (k1_pay3 x4 x3) (k1_pay4 x1) (k1_pay5 x2) x1 := by
  unfold out1_5
  rw [View.canon_unit_zero origin3]
  simp only [View.ld_unit_zero (S := S1x16x512) origin3, View.ld_unit_zero (S := S1x1x512) origin3,
    View.ld_unit_zero (S := S1x512x1) origin3]

/-! ## The body's triple -/

set_option maxHeartbeats 1000000 in
/-- The kernel body on whole staging memrefs, the five inputs' at read contents `x0 … x4` and the output's at
    anything, runs to the continuation holding the inputs' as they were and the output's at `out1_5` of them:
    six loads (five in the first part, then the real row again), a load of the output buffer that nothing
    reads, and the one covering store. -/
theorem sound_kernel1 (c : Dev nD) (E : Set ℕ) (i : grid1.Coords)
    (arg1 : Memref sig .tc .vmem S1x16x512 .f32) (harg1 : arg1.IsWhole)
    (arg2 : Memref sig .tc .vmem S1x1x512 .f32) (harg2 : arg2.IsWhole)
    (arg3 : Memref sig .tc .vmem S1x512x1 .f32) (harg3 : arg3.IsWhole)
    (arg4 : Memref sig .tc .vmem S1x1x512 .i32) (harg4 : arg4.IsWhole)
    (arg5 : Memref sig .tc .vmem S1x512x1 .i32) (harg5 : arg5.IsWhole)
    (arg6 : Memref sig .tc .vmem S1x1x1 .f32) (harg6 : arg6.IsWhole)
    (x0 : Vec F S1x16x512 .f32) (x1 : Vec F S1x1x512 .f32) (x2 : Vec F S1x512x1 .f32)
    (x3 : Vec F S1x1x512 .i32) (x4 : Vec F S1x512x1 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__pairwise_kernel i arg1 harg1 arg2 harg2 arg3 harg3 arg4 harg4 arg5 harg5 arg6 harg6) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi1_eq (c : Dev nD) (t : Fin (cfg1.N + 1)) : (dat1 V c).Φ t = Pipeline.ΦA spec1 c := by
  dsimp only [dat1]
theorem q1_eq (c : Dev nD) (w : Fin cfg1.W) : (dat1 V c).q w = fullShare := by
  dsimp only [dat1]
theorem owed1_eq (c : Dev nD) (t : Fin (cfg1.N + 1)) : (dat1 V c).owed t = 0 := by
  dsimp only [dat1]
theorem recorded1_eq (c : Dev nD) (t : Fin (cfg1.N + 1)) : (dat1 V c).recorded t = Set.univ := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5_out (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- What point `t` leaves in the output window's staging buffer: the kernel's one stored value, of the point's input blocks. -/
theorem after1_5 (c : Dev nD) (t : Fin cfg1.N) :
    (dat1 V c).after 5 t = k1_pay1 (k1_pay2 (iblk1 V c 0 t)) (k1_pay3 (iblk1 V c 4 t) (iblk1 V c 3 t)) (k1_pay4 (iblk1 V c 1 t)) (k1_pay5 (iblk1 V c 2 t)) (iblk1 V c 1 t) := by
  rw [after1_5_out]; exact out1_5_eq _ _ _ _ _

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current
    staging buffer at what the pipeline put or left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5_out]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/- The whole run of @main, generic in the float family: the buffer contents at each boundary between @main's five
   items (host operations, the gather kernel's region, host operations, the pairwise kernel's region, host operations) as a
   fold from the launch memory, each region a segment entered from the contents the item before it left, and the launch:
   every weakly fair execution terminates with every unscoped buffer at the last boundary's contents. -/
import proofs.«126018_j80238579023903_1_alg».proof.Proof.Gen.KernelIdeal.Launch
import proofs.«126018_j80238579023903_1_alg».proof.Proof.Gen.KernelIdeal.Skeleton
import proofs.«126018_j80238579023903_1_alg».proof.Proof.Gen.KernelIdeal.Points
import proofs.«126018_j80238579023903_1_alg».proof.Proof.Gen.KernelIdeal.Regions
import proofs.«126018_j80238579023903_1_alg».proof.Proof.KI.R0Body
import proofs.«126018_j80238579023903_1_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the first host stretch (the gather region's entry). -/
abbrev B1 : Dev nD → Valuation τ sig (Elt F) := fun c => StableHlo.after hostOps0 (B0 m c)
/-- The same at the TensorCore's references. -/
abbrev E1 : (c : Dev nD) → (b : Ref sig .tc) → Buf (Elt F) ((c : Thread nD τ).loc b) := fun c b => B1 m c b
/-- At the gather region's exit: its arrays at what its write-backs leave, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second host stretch (the pairwise region's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At the pairwise region's exit. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b
/-- After the last host stretch: the end. -/
abbrev B5 : Dev nD → Valuation τ sig (Elt F) := fun c => StableHlo.after hostOps2 (B4 m c)

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb

theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (B5 m c) ∗ ∃ r, prngReg c r)

/-! ## The regions as segments -/

set_option backward.isDefEq.respectTransparency.types false in
/-- The gather kernel's region: entered from `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun c t => owed0_eq (E1 m) c t
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => q0_eq (E1 m) c w) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0_eq (E1 m) c 0]
      icases HO with ⟨%W, HO⟩; iexists W; isplitr; · ipureintro; exact fun _ _ => Or.inl (by rw [show (pdats m 0 c).recorded 0 = Set.univ from recorded0_eq (E1 m) c 0]; trivial)
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0_eq (E1 m) c w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed0_eq (E1 m) c _]
    icases HO with ⟨%W, -, HO⟩; iexists W; iexact HO

set_option backward.isDefEq.respectTransparency.types false in
/-- The pairwise kernel's region: entered from `B3`, left at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun c t => owed1_eq (E3 m) c t
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun w => q1_eq (E3 m) c w) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1_eq (E3 m) c 0]
      icases HO with ⟨%W, HO⟩; iexists W; isplitr; · ipureintro; exact fun _ _ => Or.inl (by rw [show (pdats m 1 c).recorded 0 = Set.univ from recorded1_eq (E3 m) c 0]; trivial)
      iexact HO
    isplitl [Hp]; · iexact Hp
    iexact Hrest
  hin c := by
    rw [show (pdats m 1 c).Φ 0 = Pipeline.ΦA spec1 c from Phi1_eq (E3 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1_eq (E3 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q1_eq (E3 m) c w)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed1_eq (E3 m) c _]
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (B5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-! ## Reading the last boundary -/

/-- A buffer that no host operation writes and that is no array of either region holds its launch contents at the end. -/
theorem B5_of (c : Dev nD) (r : Ref sig .tc) (h0 : r ∉ hostOps0_W) (h1 : r ∉ hostOps1_W) (h2 : r ∉ hostOps2_W)
    (hs0 : ∀ w, Pipeline.arrRef spec0 w ≠ r) (hs1 : ∀ w, Pipeline.arrRef spec1 w ≠ r) : B5 m c r = m (c, r) :=
  (StableHlo.after_of_writes_sub hostOps2 _ hostOps2_writes h2).trans <|
    (B4_of_ne m c r hs1).trans <| (StableHlo.after_of_writes_sub hostOps1 _ hostOps1_writes h1).trans <|
      (B2_of_ne m c r hs0).trans <| (StableHlo.after_of_writes_sub hostOps0 _ hostOps0_writes h0).trans rfl

theorem B5_main_arg0 (c : Dev nD) : B5 m c main_arg0 = m ((c : Thread nD τ).loc main_arg0) :=
  B5_of m c main_arg0 (by decide) (by decide) (by decide) (by decide) (by decide)
theorem B5_main_arg1 (c : Dev nD) : B5 m c main_arg1 = m ((c : Thread nD τ).loc main_arg1) :=
  B5_of m c main_arg1 (by decide) (by decide) (by decide) (by decide) (by decide)
theorem B5_main_arg2 (c : Dev nD) : B5 m c main_arg2 = m ((c : Thread nD τ).loc main_arg2) :=
  B5_of m c main_arg2 (by decide) (by decide) (by decide) (by decide) (by decide)
theorem B5_main_arg3 (c : Dev nD) : B5 m c main_arg3 = m ((c : Thread nD τ).loc main_arg3) :=
  B5_of m c main_arg3 (by decide) (by decide) (by decide) (by decide) (by decide)

/-- THE RUN with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v25) = B5 m c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v25 (by decide)),
     (h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c)⟩) (run_all m ρ)

/-- THE FRAME: every weakly fair execution terminates, nothing faulting, the argument arrays unchanged. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Hand

end
-- ==== Proof.Spec.lean ====
/-
  The pairwise tag loss as a plain function on the extended reals.

  For one sample: embeddings `e d n` (16 channels, 512 keypoints), a column mask `μc` and a row mask `μr`
  (the same visibility vector, read once along rows and once along columns of the 512 × 512 pair grid), and
  column / row tags `gc`, `gr`.  With

    sq n      = (Σ_d e d n · e d n) / 16                        (mean square of keypoint n's embedding)
    dotp n k  = Σ_d e d n · e d k
    expo n k  = (sq n + sq k) − 2 · (dotp n k / 16)             (= mean_d (e d n − e d k)²)
    psim n k  = 2 / (1 + exp (expo n k))
    tsim n k  = 1 if gc n = gr k else 0
    wgt n k   = 10 if tsim n k > 0 or psim n k > 0 else 0
    term n k  = (psim n k − tsim n k)² · wgt n k · (μc n · μr k)

  the sample's loss is  (Σ_n Σ_k term n k) / max ((Σ_k μr k)², 1).  Float literals are kept as the f32 words both
  programs print, so neither side ever evaluates one.
-/
import Idealize.ShloMosaic.PureOps.Ideal

noncomputable section

namespace Cert.Spec

open Idealize.ShloMosaic
open scoped BigOperators

/-- The f32 words the two programs share: 16, 2, 1, 10, 0. -/
abbrev c16 : EReal := Ideal.ofBits .f32 0x41800000#32
abbrev c2 : EReal := Ideal.ofBits .f32 0x40000000#32
abbrev c1 : EReal := Ideal.ofBits .f32 0x3F800000#32
abbrev c10 : EReal := Ideal.ofBits .f32 0x41200000#32
abbrev c0 : EReal := Ideal.ofBits .f32 0x00000000#32

variable (e : Fin 16 → Fin 512 → EReal) (μc μr : Fin 512 → EReal) (gc gr : Fin 512 → BitVec 32)

/-- Mean square of keypoint `n`'s embedding. -/
def sq (n : Fin 512) : EReal := Ideal.div (∑ d : Fin 16, e d n * e d n) c16
/-- Inner product of two keypoints' embeddings. -/
def dotp (n k : Fin 512) : EReal := ∑ d : Fin 16, e d n * e d k
/-- The exponent: the mean squared difference of the two embeddings, expanded. -/
def expo (n k : Fin 512) : EReal := (sq e n + sq e k) - c2 * Ideal.div (dotp e n k) c16
/-- Predicted similarity. -/
def psim (n k : Fin 512) : EReal := Ideal.div c2 (c1 + Ideal.exp (expo e n k))
/-- True similarity: equal tags. -/
def tsim (n k : Fin 512) : EReal := if gc n = gr k then 1 else 0
/-- The pair's weight. -/
def wgt (n k : Fin 512) : EReal := if 0 < tsim gc gr n k ∨ 0 < psim e n k then c10 else c0
/-- One pair's weighted, masked squared error. -/
def term (n k : Fin 512) : EReal :=
  (psim e n k - tsim gc gr n k) * (psim e n k - tsim gc gr n k) * wgt e gc gr n k * (μc n * μr k)
/-- The sample's loss. -/
def lossS : EReal :=
  Ideal.div (∑ n : Fin 512, ∑ k : Fin 512, term e μc μr gc gr n k) (max ((∑ k : Fin 512, μr k) * (∑ k : Fin 512, μr k)) c1)

end Cert.Spec

end
-- ==== Proof.KI.KHost.lean ====
/- What the first stretch of host operations of the kernel's program leaves in the buffers the gather region reads, at the
   ideal instance: the re-laid pixel array and the flat index row; and that the second stretch leaves the gathered
   embeddings alone. -/
import proofs.«126018_j80238579023903_1_alg».proof.Proof.KI.Run
import proofs.«126018_j80238579023903_1_alg».proof.Proof.RefRead
import proofs.«126018_j80238579023903_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open scoped BigOperators
open Cert.KernelIdeal Cert.KernelIdeal.Gen Cert.KernelIdeal.Hand
open Idealize.ShloMosaic.TcCoe Idealize.SL.Sem

variable (m : (ℓ : Loc nD τ sig) → Buf (Elt Ideal) ℓ) (c : Dev nD)

/-- The pixel array re-laid as 32 × 16 × 65536: position `hw` is pixel (hw / 256, hw % 256). -/
theorem E1_v12 (b : Fin 32) (d : Fin 16) (hw : Fin 65536) :
    (E1 m c main_v12 : S32x16x65536.Idx → EReal) (ix3 b d hw)
      = (m ((c.tc : Thread nD τ).loc main_arg0) : S32x16x256x256.Idx → EReal)
          (ix4 b d ⟨hw.val / 256, by have := hw.isLt; omega⟩ ⟨hw.val % 256, Nat.mod_lt _ (by decide)⟩) := by
  have e : (E1 m c main_v12 : S32x16x65536.Idx → EReal)
      = shapeCast S32x16x65536 (m ((c.tc : Thread nD τ).loc main_arg0) : S32x16x256x256.Idx → EReal) shapeCasts_S32x16x256x256_S32x16x65536 := by
    show StableHlo.after hostOps0 (B0 m c) (Proc.devRef .tc main_v12) = _
    after_results
    rfl
  rw [e]
  refine shapeCast_apply _ _ _ _ ?_
  show (S32x16x256x256.rowMajor (ix4 b d (⟨hw.val / 256, by have := hw.isLt; omega⟩ : Fin 256) (⟨hw.val % 256, Nat.mod_lt _ (by decide)⟩ : Fin 256))).val
      = (S32x16x65536.rowMajor (ix3 b d hw)).val
  rw [Shape.rowMajor_val_four, Shape.rowMajor_val_three]
  show ((b.val * 16 + d.val) * 256 + hw.val / 256) * 256 + hw.val % 256 = (b.val * 16 + d.val) * 65536 + hw.val
  omega

/-- The second host stretch does not touch the gathered embeddings. -/
theorem E3_v14 : E3 m c main_v14 = E2 m c main_v14 :=
  StableHlo.after_of_writes_sub hostOps1 _ hostOps1_writes (by decide)

section FlatRow
variable (V : S32x512x2.Idx → BitVec 32) (b : Fin 32) (n : Fin 512)

/-- Coordinate `k` of the pair array, sliced out and re-laid 32 × 512 × 1 → 32 × 512, read at (b, n): the array at (b, n, k). -/
private theorem slice0_read :
    shapeCast S32x512 (extractStridedSlice S32x512x1 ![0, 0, 0] V slices_S32x512x2_S32x512x1_0_0_0) shapeCasts_S32x512x1_S32x512 (ix2 b n)
      = V (ix3 b n 0) := by
  rw [shapeCast_apply _ _ (ix2 b n) (ix3 b n (0 : Fin 1)) (by
    rw [Shape.rowMajor_val_three, Shape.rowMajor_val_two]
    show (b.val * 512 + n.val) * 1 + 0 = b.val * 512 + n.val
    omega)]
  exact extractStridedSlice_apply _ _ _ _ (ix3 b n (0 : Fin 2)) fun a => match a with
    | ⟨0, _⟩ => by show b.val = 0 + b.val; omega
    | ⟨1, _⟩ => by show n.val = 0 + n.val; omega
    | ⟨2, _⟩ => by show 0 = 0 + 0; omega
private theorem slice1_read :
    shapeCast S32x512 (extractStridedSlice S32x512x1 ![0, 0, 1] V slices_S32x512x2_S32x512x1_0_0_1) shapeCasts_S32x512x1_S32x512 (ix2 b n)
      = V (ix3 b n 1) := by
  rw [shapeCast_apply _ _ (ix2 b n) (ix3 b n (0 : Fin 1)) (by
    rw [Shape.rowMajor_val_three, Shape.rowMajor_val_two]
    show (b.val * 512 + n.val) * 1 + 0 = b.val * 512 + n.val
    omega)]
  exact extractStridedSlice_apply _ _ _ _ (ix3 b n (1 : Fin 2)) fun a => match a with
    | ⟨0, _⟩ => by show b.val = 0 + b.val; omega
    | ⟨1, _⟩ => by show n.val = 0 + n.val; omega
    | ⟨2, _⟩ => by show 1 = 1 + 0; omega

/-- The flat row y · 256 + x of the two sliced coordinates, re-laid 32 × 512 → 32 × 1 × 512, read at (b, 0, n). -/
private theorem flat_read :
    shapeCast S32x1x512
        (addi (muli (shapeCast S32x512 (extractStridedSlice S32x512x1 ![0, 0, 0] V slices_S32x512x2_S32x512x1_0_0_0) shapeCasts_S32x512x1_S32x512)
                (broadcastInDim S32x512 ![] bcast_S_S32x512 (constantI S_ 32 256#32)))
          (shapeCast S32x512 (extractStridedSlice S32x512x1 ![0, 0, 1] V slices_S32x512x2_S32x512x1_0_0_1) shapeCasts_S32x512x1_S32x512))
        shapeCasts_S32x512_S32x1x512 (ix3 b 0 n)
      = V (ix3 b n 0) * 256#32 + V (ix3 b n 1) := by
  rw [shapeCast_apply _ _ (ix3 b (0 : Fin 1) n) (ix2 b n) (by
    rw [Shape.rowMajor_val_three, Shape.rowMajor_val_two]
    show b.val * 512 + n.val = (b.val * 1 + 0) * 512 + n.val
    omega)]
  show IntOp.addi (IntOp.muli
        (shapeCast S32x512 (extractStridedSlice S32x512x1 ![0, 0, 0] V slices_S32x512x2_S32x512x1_0_0_0) shapeCasts_S32x512x1_S32x512 (ix2 b n)) 256#32)
      (shapeCast S32x512 (extractStridedSlice S32x512x1 ![0, 0, 1] V slices_S32x512x2_S32x512x1_0_0_1) shapeCasts_S32x512x1_S32x512 (ix2 b n)) = _
  rw [slice0_read, slice1_read]
  rfl

end FlatRow

/-- The flat index row: y · 256 + x on 32-bit words, of the two coordinates floor (kpt · 256) converted to i32. -/
theorem E1_v13 (b : Fin 32) (n : Fin 512) :
    (E1 m c main_v13 : S32x1x512.Idx → BitVec 32) (ix3 b 0 n)
      = Cert.ReferenceIdeal.ReadP.val_main_v4 (F := Ideal) (m ((c.tc : Thread nD τ).loc main_arg1)) (ix3 b n 0) * 256#32
        + Cert.ReferenceIdeal.ReadP.val_main_v4 (F := Ideal) (m ((c.tc : Thread nD τ).loc main_arg1)) (ix3 b n 1) := by
  have e : (E1 m c main_v13 : S32x1x512.Idx → BitVec 32)
      = shapeCast S32x1x512
          (addi (muli (shapeCast S32x512 (extractStridedSlice S32x512x1 ![0, 0, 0]
                    (Cert.ReferenceIdeal.ReadP.val_main_v4 (F := Ideal) (m ((c.tc : Thread nD τ).loc main_arg1))) slices_S32x512x2_S32x512x1_0_0_0) shapeCasts_S32x512x1_S32x512)
                  (broadcastInDim S32x512 ![] bcast_S_S32x512 (constantI S_ 32 256#32)))
            (shapeCast S32x512 (extractStridedSlice S32x512x1 ![0, 0, 1]
                    (Cert.ReferenceIdeal.ReadP.val_main_v4 (F := Ideal) (m ((c.tc : Thread nD τ).loc main_arg1))) slices_S32x512x2_S32x512x1_0_0_1) shapeCasts_S32x512x1_S32x512))
          shapeCasts_S32x512_S32x1x512 := by
    show StableHlo.after hostOps0 (B0 m c) (Proc.devRef .tc main_v13) = _
    after_results
    unfold Cert.ReferenceIdeal.ReadP.val_main_v4 Cert.ReferenceIdeal.ReadP.val_main_v3 Cert.ReferenceIdeal.ReadP.val_main_v2
      Cert.ReferenceIdeal.ReadP.val_main_v1 Cert.ReferenceIdeal.ReadP.val_main_v0 Cert.ReferenceIdeal.ReadP.val_main_cst
    rfl
  rw [e]
  exact flat_read _ b n

end Cert.KernelIdeal.Val

end
-- ==== Proof.KI.KHost1.lean ====
/- What the second and third stretches of host operations of the kernel's program leave, at the ideal instance: the mask rows
   and columns, the tag rows and columns, and the mean over the samples. -/
import proofs.«126018_j80238579023903_1_alg».proof.Proof.KI.Run
import proofs.«126018_j80238579023903_1_alg».proof.Proof.RefRead
import proofs.«126018_j80238579023903_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open scoped BigOperators
open Cert.KernelIdeal Cert.KernelIdeal.Gen Cert.KernelIdeal.Hand
open Idealize.ShloMosaic.TcCoe Idealize.SL.Sem

variable (m : (ℓ : Loc nD τ sig) → Buf (Elt Ideal) ℓ) (c : Dev nD)

namespace KHost1

/-- The visibility argument is no array of the gather region and no result of the first host stretch: at that region's exit
    it still holds its launch contents. -/
theorem B2_arg2 : B2 m c (Proc.devRef .tc main_arg2) = m ((c.tc : Thread nD τ).loc main_arg2) :=
  (B2_of_ne m c main_arg2 (by decide)).trans
    ((StableHlo.after_of_writes_sub hostOps0 _ hostOps0_writes (by decide)).trans rfl)

/-- Likewise the tag argument. -/
theorem B2_arg3 : B2 m c (Proc.devRef .tc main_arg3) = m ((c.tc : Thread nD τ).loc main_arg3) :=
  (B2_of_ne m c main_arg3 (by decide)).trans
    ((StableHlo.after_of_writes_sub hostOps0 _ hostOps0_writes (by decide)).trans rfl)

end KHost1

/-- The mask row and the mask column of sample `b`: the visibility test `vis > 0` as a float, re-laid. -/
theorem E3_v18 (b : Fin 32) (n : Fin 512) :
    (E3 m c main_v18 : S32x1x512.Idx → EReal) (ix3 b 0 n)
      = Cert.ReferenceIdeal.ReadP.val_main_v25 (F := Ideal) (m ((c.tc : Thread nD τ).loc main_arg2)) (ix2 b n) := by
  have h : (E3 m c main_v18 : S32x1x512.Idx → EReal)
      = shapeCast S32x1x512 (Cert.ReferenceIdeal.ReadP.val_main_v25 (F := Ideal) (B2 m c (Proc.devRef .tc main_arg2)))
          shapeCasts_S32x512_S32x1x512 := by
    show StableHlo.after hostOps1 (B2 m c) (Proc.devRef .tc main_v18) = _
    after_results
    rfl
  rw [h, KHost1.B2_arg2 m c]
  exact shapeCast_apply _ _ (ix3 b 0 n) (ix2 b n)
    (by rewrite [Shape.rowMajor_val_two, Shape.rowMajor_val_three]
        show b.val * 512 + n.val = (b.val * 1 + 0) * 512 + n.val
        omega)
theorem E3_v19 (b : Fin 32) (n : Fin 512) :
    (E3 m c main_v19 : S32x512x1.Idx → EReal) (ix3 b n 0)
      = Cert.ReferenceIdeal.ReadP.val_main_v25 (F := Ideal) (m ((c.tc : Thread nD τ).loc main_arg2)) (ix2 b n) := by
  have h : (E3 m c main_v19 : S32x512x1.Idx → EReal)
      = shapeCast S32x512x1 (Cert.ReferenceIdeal.ReadP.val_main_v25 (F := Ideal) (B2 m c (Proc.devRef .tc main_arg2)))
          shapeCasts_S32x512_S32x512x1 := by
    show StableHlo.after hostOps1 (B2 m c) (Proc.devRef .tc main_v19) = _
    after_results
    rfl
  rw [h, KHost1.B2_arg2 m c]
  exact shapeCast_apply _ _ (ix3 b n 0) (ix2 b n)
    (by rewrite [Shape.rowMajor_val_two, Shape.rowMajor_val_three]
        show b.val * 512 + n.val = (b.val * 512 + n.val) * 1 + 0
        omega)

/-- The tag row and the tag column of sample `b`: the tags re-laid. -/
theorem E3_v20 (b : Fin 32) (n : Fin 512) :
    (E3 m c main_v20 : S32x1x512.Idx → BitVec 32) (ix3 b 0 n)
      = (m ((c.tc : Thread nD τ).loc main_arg3) : S32x512.Idx → BitVec 32) (ix2 b n) := by
  have h : (E3 m c main_v20 : S32x1x512.Idx → BitVec 32)
      = shapeCast S32x1x512 (B2 m c (Proc.devRef .tc main_arg3) : S32x512.Idx → BitVec 32) shapeCasts_S32x512_S32x1x512 := by
    show StableHlo.after hostOps1 (B2 m c) (Proc.devRef .tc main_v20) = _
    after_results
    rfl
  rw [h, KHost1.B2_arg3 m c]
  exact shapeCast_apply _ _ (ix3 b 0 n) (ix2 b n)
    (by rewrite [Shape.rowMajor_val_two, Shape.rowMajor_val_three]
        show b.val * 512 + n.val = (b.val * 1 + 0) * 512 + n.val
        omega)
theorem E3_v21 (b : Fin 32) (n : Fin 512) :
    (E3 m c main_v21 : S32x512x1.Idx → BitVec 32) (ix3 b n 0)
      = (m ((c.tc : Thread nD τ).loc main_arg3) : S32x512.Idx → BitVec 32) (ix2 b n) := by
  have h : (E3 m c main_v21 : S32x512x1.Idx → BitVec 32)
      = shapeCast S32x512x1 (B2 m c (Proc.devRef .tc main_arg3) : S32x512.Idx → BitVec 32) shapeCasts_S32x512_S32x512x1 := by
    show StableHlo.after hostOps1 (B2 m c) (Proc.devRef .tc main_v21) = _
    after_results
    rfl
  rw [h, KHost1.B2_arg3 m c]
  exact shapeCast_apply _ _ (ix3 b n 0) (ix2 b n)
    (by rewrite [Shape.rowMajor_val_two, Shape.rowMajor_val_three]
        show b.val * 512 + n.val = (b.val * 512 + n.val) * 1 + 0
        omega)

/-- The result: the host's sum of the 32 per-sample losses (from zero), divided by 32. -/
theorem B5_v25 :
    (B5 m c main_v25 : S_.Idx → EReal)
      = Host.divf (Host.reduceAdd (F := Ideal) (fun i : S32.Idx => (E4 m c main_v22 : S32x1x1.Idx → EReal) (ix3 (i 0) 0 0))
          (constant (F := Ideal) S_ .f32 0x00000000#32) reducesTo_S32_S_d0 h_S_) (constant (F := Ideal) S_ .f32 0x42000000#32) := by
  have h : (B5 m c main_v25 : S_.Idx → EReal)
      = Host.divf (Host.reduceAdd (F := Ideal)
          (shapeCast S32 (B4 m c (Proc.devRef .tc main_v22) : S32x1x1.Idx → EReal) shapeCasts_S32x1x1_S32)
          (constant (F := Ideal) S_ .f32 0x00000000#32) reducesTo_S32_S_d0 h_S_) (constant (F := Ideal) S_ .f32 0x42000000#32) := by
    show StableHlo.after hostOps2 (B4 m c) (Proc.devRef .tc main_v25) = _
    after_results
    rfl
  have hs : shapeCast S32 (B4 m c (Proc.devRef .tc main_v22) : S32x1x1.Idx → EReal) shapeCasts_S32x1x1_S32
      = fun i : S32.Idx => (E4 m c main_v22 : S32x1x1.Idx → EReal) (ix3 (i 0) 0 0) :=
    funext fun i => shapeCast_apply _ _ i (ix3 (i 0) 0 0)
      (by rewrite [Shape.rowMajor_val_three, Shape.rowMajor_val_one]
          show ((i 0).val * 1 + 0) * 1 + 0 = (i 0).val
          omega)
  rw [h, hs]

end Cert.KernelIdeal.Val

end
-- ==== Proof.KI.K0Value.lean ====
/- The gather kernel's stored values at the ideal instance: the reset value, one tile's accumulation as a sum against a
   one-hot column, the copy-out; and the sixteen tiles' sums together as one read of the pixel row. -/
import proofs.«126018_j80238579023903_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open scoped BigOperators
open Cert.KernelIdeal Cert.KernelIdeal.Gen

/-! ## Words -/

/-- A natural number below 2^32 is recovered from its 32-bit word: the word equals `w` exactly when the number is `w`'s value. -/
theorem ofNat_eq_iff (p : Nat) (hp : p < 2 ^ 32) (w : BitVec 32) : BitVec.ofNat 32 p = w ↔ p = w.toNat := by
  constructor
  · rintro rfl
    rw [BitVec.toNat_ofNat, Nat.mod_eq_of_lt hp]
  · intro h
    apply BitVec.eq_of_toNat_eq
    rw [BitVec.toNat_ofNat, Nat.mod_eq_of_lt hp, h]

/-- The equality test of two words, widened to 32 bits and read as a signed integer, is 1 or 0. -/
theorem onehot_val (a b : BitVec 32) :
    ((((IntOp.cmpi .eq a b).setWidth 32).toInt : ℝ) : EReal) = if a = b then (1 : EReal) else 0 := by
  by_cases h : a = b
  · subst h
    rw [if_pos rfl]
    have hc : IntOp.cmpi .eq a a = 1#1 := by
      show BitVec.ofBool (a == a) = 1#1
      rw [beq_self_eq_true]; rfl
    rw [hc]
    have h1 : ((1#1 : BitVec 1).setWidth 32).toInt = 1 := by decide
    rw [h1]; norm_num
  · rw [if_neg h]
    have hc : IntOp.cmpi .eq a b = 0#1 := by
      show BitVec.ofBool (a == b) = 0#1
      rw [beq_eq_false_iff_ne.2 h]; rfl
    rw [hc]
    have h0 : ((0#1 : BitVec 1).setWidth 32).toInt = 0 := by decide
    rw [h0]; norm_num

/-- The word of `a * 4096 + j` is the word of `a` times the word 4096 plus the word of `j`: words are a ring image of ℕ. -/
theorem word_tile (a j : Nat) : BitVec.ofNat 32 a * 4096#32 + BitVec.ofNat 32 j = BitVec.ofNat 32 (a * 4096 + j) := by
  rw [BitVec.ofNat_add, BitVec.ofNat_mul]

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot operand at a row and a column -/

/-- Row `j`, column `n` of the tile's comparison matrix: 1 when the word of the pixel's global position (tile · 4096 + j)
    is keypoint `n`'s index word, else 0. -/
theorem onehot_apply (i : grid0.Coords) (iv : Vec Ideal S1x1x512 .i32) (j : Fin 4096) (n : Fin 512) :
    (sitofp (F := Ideal) .f32
      (extui 32
        (cmpi .eq
          (broadcastTo S4096x512 (addi (broadcast S4096x1 (Scalar.muli (BitVec.ofNat 32 (i 1).val) 4096#32)) (iota .tc S4096x1 32 [0] iota_S4096x1_d0_w32)) broadcasts_S4096x1_S4096x512)
          (broadcastTo S4096x512 (shapeCast S1x512 iv shapeCasts_S1x1x512_S1x512) broadcasts_S1x512_S4096x512))
        natLt_1_32) : FVec Ideal S4096x512 .f32) (ix2 j n)
      = if BitVec.ofNat 32 ((i 1).val * 4096 + j.val) = iv (ix3 0 0 n) then (1 : EReal) else 0 := by
  show ((((IntOp.cmpi .eq
      (broadcastTo S4096x512 (addi (broadcast S4096x1 (Scalar.muli (BitVec.ofNat 32 (i 1).val) 4096#32)) (iota .tc S4096x1 32 [0] iota_S4096x1_d0_w32)) broadcasts_S4096x1_S4096x512 (ix2 j n))
      (broadcastTo S4096x512 (shapeCast S1x512 iv shapeCasts_S1x1x512_S1x512) broadcasts_S1x512_S4096x512 (ix2 j n))).setWidth 32).toInt : ℝ) : EReal) = _
  rw [broadcastTo_a1_ab_apply, broadcastTo_1b_ab_apply, shapeCast_1ab_ab_apply, onehot_val]
  have hw : addi (broadcast S4096x1 (Scalar.muli (BitVec.ofNat 32 (i 1).val) 4096#32)) (iota .tc S4096x1 32 [0] iota_S4096x1_d0_w32) (ix2 j (0 : Fin 1))
      = BitVec.ofNat 32 ((i 1).val * 4096 + j.val) := by
    show BitVec.ofNat 32 (i 1).val * 4096#32 + BitVec.ofNat 32 (0 * 4096 + j.val) = _
    rw [Nat.zero_mul, Nat.zero_add, word_tile]
  rw [hw]

/-! ## The matmul's index maps, axis by axis -/

theorem lhs_k0_0 (i : S16x512.Idx) (q : dot_S16x4096_S4096x512_S16x512_1_0_0_1_n_n.contr.Idx) :
    (dot_S16x4096_S4096x512_S16x512_1_0_0_1_n_n.lhsIdx i q 0).val = (i 0).val := by
  unfold DotDims.lhsIdx
  rw [dif_neg (show ¬(0 : Fin S16x4096.rank) ∈ dot_S16x4096_S4096x512_S16x512_1_0_0_1_n_n.lhsBatch by decide), dif_pos (show (0 : Fin S16x4096.rank) ∈ dot_S16x4096_S4096x512_S16x512_1_0_0_1_n_n.lhsNonContracting by decide)]
  rfl
theorem lhs_k0_1 (i : S16x512.Idx) (q : dot_S16x4096_S4096x512_S16x512_1_0_0_1_n_n.contr.Idx) :
    (dot_S16x4096_S4096x512_S16x512_1_0_0_1_n_n.lhsIdx i q 1).val = (q ⟨0, by decide⟩).val :=
  dot_S16x4096_S4096x512_S16x512_1_0_0_1_n_n.lhsIdx_val_of_single rfl i q
theorem rhs_k0_0 (i : S16x512.Idx) (q : dot_S16x4096_S4096x512_S16x512_1_0_0_1_n_n.contr.Idx) :
    (dot_S16x4096_S4096x512_S16x512_1_0_0_1_n_n.rhsIdx i q 0).val = (q ⟨0, by decide⟩).val :=
  dot_S16x4096_S4096x512_S16x512_1_0_0_1_n_n.rhsIdx_val_of_single rfl i q
theorem rhs_k0_1 (i : S16x512.Idx) (q : dot_S16x4096_S4096x512_S16x512_1_0_0_1_n_n.contr.Idx) :
    (dot_S16x4096_S4096x512_S16x512_1_0_0_1_n_n.rhsIdx i q 1).val = (i 1).val := by
  unfold DotDims.rhsIdx
  rw [dif_neg (show ¬(1 : Fin S4096x512.rank) ∈ dot_S16x4096_S4096x512_S16x512_1_0_0_1_n_n.rhsBatch by decide), dif_pos (show (1 : Fin S4096x512.rank) ∈ dot_S16x4096_S4096x512_S16x512_1_0_0_1_n_n.rhsNonContracting by decide)]
  rfl

/-- The reset value is zero everywhere. -/
theorem pay1_zero (j : S16x512.Idx) : k0_pay1 (F := Ideal) j = 0 := by
  unfold k0_pay1
  show shapeCast S16x512 (broadcast S16x512 (Scalar.ofBits (F := Ideal) .f32 0x00000000#32)) shapeCasts_S16x512_S16x512 j = 0
  rw [shapeCast_self]
  exact Ideal.ofBits_zero_f32

/-- The copy-out only re-shapes. -/
theorem pay3_apply (v : Vec Ideal S16x512 .f32) (d : Fin 16) (n : Fin 512) :
    k0_pay3 (F := Ideal) v (ix3 0 d n) = v (ix2 d n) := by
  unfold k0_pay3
  exact shapeCast_ab_1ab_apply v shapeCasts_S16x512_S1x16x512 0 d n

/-- One tile: the accumulator plus, for channel `d` and keypoint `n`, the sum over the tile's 4096 pixels of the pixel's
    value times the one-hot test "this pixel's global position (tile · 4096 + j) is keypoint n's flat index". -/
theorem pay2_apply (i : grid0.Coords) (iv : Vec Ideal S1x1x512 .i32) (x : Vec Ideal S1x16x4096 .f32) (a : Vec Ideal S16x512 .f32)
    (d : Fin 16) (n : Fin 512) :
    k0_pay2 (F := Ideal) i iv x a (ix2 d n)
      = a (ix2 d n) + ∑ j : Fin 4096, x (ix3 0 d j) * (if BitVec.ofNat 32 ((i 1).val * 4096 + j.val) = iv (ix3 0 0 n) then (1 : EReal) else 0) := by
  unfold k0_pay2
  dsimp only
  rw [shapeCast_self, addf_apply]
  simp only [matmul]
  rw [Ideal.matmul_constant_zero_apply, ← Equiv.sum_comp (contrEquiv1 dot_S16x4096_S4096x512_S16x512_1_0_0_1_n_n 4096 rfl rfl).symm]
  refine congrArg (a (ix2 d n) + ·) (Finset.sum_congr rfl fun k _ => ?_)
  have hk := contrEquiv1_symm_val dot_S16x4096_S4096x512_S16x512_1_0_0_1_n_n 4096 rfl rfl k
  have el : dot_S16x4096_S4096x512_S16x512_1_0_0_1_n_n.lhsIdx (ix2 d n) ((contrEquiv1 dot_S16x4096_S4096x512_S16x512_1_0_0_1_n_n 4096 rfl rfl).symm k) = ix2 d k := funext fun ax => Fin.ext (by
    match ax with
    | ⟨0, _⟩ => exact lhs_k0_0 _ _
    | ⟨1, _⟩ => exact (lhs_k0_1 _ _).trans hk)
  have er : dot_S16x4096_S4096x512_S16x512_1_0_0_1_n_n.rhsIdx (ix2 d n) ((contrEquiv1 dot_S16x4096_S4096x512_S16x512_1_0_0_1_n_n 4096 rfl rfl).symm k) = ix2 k n := funext fun ax => Fin.ext (by
    match ax with
    | ⟨0, _⟩ => exact (rhs_k0_0 _ _).trans hk
    | ⟨1, _⟩ => exact rhs_k0_1 _ _)
  rw [el, er]
  exact congrArg₂ (· * ·) (shapeCast_1ab_ab_apply x shapeCasts_S1x16x4096_S16x4096 d k) (onehot_apply i iv k n)

/-- Sixteen tiles of 4096 against a one-hot at a position inside the 65536 pixels: the sum picks that pixel. -/
theorem tiles_sum (P : Fin 65536 → EReal) (w : BitVec 32) (hw : w.toNat < 65536) :
    (∑ k : Fin 16, ∑ j : Fin 4096, P ⟨k.val * 4096 + j.val, by have := k.isLt; have := j.isLt; omega⟩
        * (if BitVec.ofNat 32 (k.val * 4096 + j.val) = w then (1 : EReal) else 0)) = P ⟨w.toNat, hw⟩ := by
  -- the position splits as tile k₀ = w / 4096 and offset j₀ = w % 4096
  have hk0 : w.toNat / 4096 < 16 := by omega
  have hj0 : w.toNat % 4096 < 4096 := by omega
  have hiff : ∀ (k : Fin 16) (j : Fin 4096), BitVec.ofNat 32 (k.val * 4096 + j.val) = w ↔ k.val * 4096 + j.val = w.toNat :=
    fun k j => ofNat_eq_iff _ (by have := k.isLt; have := j.isLt; omega) w
  rw [Finset.sum_eq_single (⟨w.toNat / 4096, hk0⟩ : Fin 16)]
  · rw [Finset.sum_eq_single (⟨w.toNat % 4096, hj0⟩ : Fin 4096)]
    · have he : w.toNat / 4096 * 4096 + w.toNat % 4096 = w.toNat := by omega
      have hpos : BitVec.ofNat 32 (w.toNat / 4096 * 4096 + w.toNat % 4096) = w :=
        (hiff (⟨w.toNat / 4096, hk0⟩ : Fin 16) (⟨w.toNat % 4096, hj0⟩ : Fin 4096)).2 he
      rw [if_pos hpos, mul_one]
      exact congrArg P (Fin.ext he)
    · intro j _ hj
      have hne : ¬ BitVec.ofNat 32 (w.toNat / 4096 * 4096 + j.val) = w := by
        intro h
        have h' : w.toNat / 4096 * 4096 + j.val = w.toNat := (hiff (⟨w.toNat / 4096, hk0⟩ : Fin 16) j).1 h
        apply hj
        apply Fin.ext
        show j.val = w.toNat % 4096
        omega
      rw [if_neg hne, mul_zero]
    · intro h; exact absurd (Finset.mem_univ _) h
  · intro k _ hk
    refine Finset.sum_eq_zero fun j _ => ?_
    have hne : ¬ BitVec.ofNat 32 (k.val * 4096 + j.val) = w := by
      intro h
      have h' : k.val * 4096 + j.val = w.toNat := (hiff k j).1 h
      apply hk
      apply Fin.ext
      show k.val = w.toNat / 4096
      have := j.isLt
      omega
    rw [if_neg hne, mul_zero]
  · intro h; exact absurd (Finset.mem_univ _) h

end Cert.KernelIdeal.Val

end
-- ==== Proof.KI.KArr0.lean ====
/- The gather region's output array at the ideal instance: sample b's block, written back at its sixteenth tile, holds for
   channel d and keypoint n the pixel of the re-laid array at keypoint n's flat index. -/
import proofs.«126018_j80238579023903_1_alg».proof.Proof.KI.Run
import proofs.«126018_j80238579023903_1_alg».proof.Proof.KI.K0Value
import proofs.«126018_j80238579023903_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open scoped BigOperators
open Cert.KernelIdeal Cert.KernelIdeal.Gen Cert.KernelIdeal.Hand
open Idealize.ShloMosaic.TcCoe Idealize.SL.Sem

variable (m : (ℓ : Loc nD τ sig) → Buf (Elt Ideal) ℓ) (c : Dev nD)

/-! ## The grid and the windows' index maps -/

/-- The grid is 32 × 16, row-major: point `t` is tile `t % 16` of sample `t / 16`. Window 0 (the pixels) sits at block
    (sample, 0, tile), windows 1 (the indices) and 2 (the output) at block (sample, 0, 0). Decided once over the 512 points. -/
theorem idx_facts0 : ∀ t : Fin cfg0.N,
    ((grid0.coords t) 1).val = t.val % 16 ∧ ((grid0.coords t) 0).val = t.val / 16
    ∧ win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

theorem N0_eq : cfg0.N = 512 := by decide

/-! ## The blocks the body loads, read off the arrays -/

/-- The pixel block at point `t`: channel `d`, offset `j` is pixel `(t % 16) · 4096 + j` of sample `t / 16`. -/
theorem pix_blk (V : (c : Dev nD) → (b : Ref sig .tc) → Buf (Elt Ideal) ((c : Thread nD τ).loc b))
    (t : Fin cfg0.N) (d : Fin 16) (j : Fin 4096) (hb : t.val / 16 < 32) (hp : t.val % 16 * 4096 + j.val < 65536) :
    (iblk0 V c 0 t : S1x16x4096.Idx → EReal) (ix3 0 d j)
      = (V c main_v12 : S32x16x65536.Idx → EReal) (ix3 (⟨t.val / 16, hb⟩ : Fin 32) d (⟨t.val % 16 * 4096 + j.val, hp⟩ : Fin 65536)) := by
  obtain ⟨-, -, e0, e1, e2, -⟩ := idx_facts0 t
  show V c main_v12 (((cfg0.win 0).blk t).view.emb (ix3 0 d j)) = V c main_v12 _
  refine congrArg _ (funext fun a => Fin.ext ?_)
  match a with
  | ⟨0, _⟩ => show win0_0.index t (0 : Fin 3) * 1 + 1 * 0 = t.val / 16; omega
  | ⟨1, _⟩ => show win0_0.index t (1 : Fin 3) * 16 + 1 * d.val = d.val; omega
  | ⟨2, _⟩ => show win0_0.index t (2 : Fin 3) * 4096 + 1 * j.val = t.val % 16 * 4096 + j.val; omega

/-- The index block at point `t`: keypoint `q`'s word is sample `t / 16`'s. -/
theorem idx_blk (V : (c : Dev nD) → (b : Ref sig .tc) → Buf (Elt Ideal) ((c : Thread nD τ).loc b))
    (t : Fin cfg0.N) (q : Fin 512) (hb : t.val / 16 < 32) :
    (iblk0 V c 1 t : S1x1x512.Idx → BitVec 32) (ix3 0 0 q)
      = (V c main_v13 : S32x1x512.Idx → BitVec 32) (ix3 (⟨t.val / 16, hb⟩ : Fin 32) 0 q) := by
  obtain ⟨-, -, -, -, -, e0, e1, e2, -⟩ := idx_facts0 t
  show V c main_v13 (((cfg0.win 1).blk t).view.emb (ix3 0 0 q)) = V c main_v13 _
  refine congrArg _ (funext fun a => Fin.ext ?_)
  match a with
  | ⟨0, _⟩ => show win0_1.index t (0 : Fin 3) * 1 + 1 * 0 = t.val / 16; omega
  | ⟨1, _⟩ => show win0_1.index t (1 : Fin 3) * 1 + 1 * 0 = 0; omega
  | ⟨2, _⟩ => show win0_1.index t (2 : Fin 3) * 512 + 1 * q.val = q.val; omega

/-! ## The accumulator after each tile -/

/-- Sample `b`'s channel-`d` pixel row as a function on all naturals (0 past the 65536 pixels), so that partial sums over
    tiles carry no bound. -/
def pixRow (V : (c : Dev nD) → (b : Ref sig .tc) → Buf (Elt Ideal) ((c : Thread nD τ).loc b)) (b : Fin 32) (d : Fin 16) (p : ℕ) : EReal :=
  if h : p < 65536 then (V c main_v12 : S32x16x65536.Idx → EReal) (ix3 b d ⟨p, h⟩) else 0

/-- Tile `k`'s contribution for channel `d`, keypoint `q`: its 4096 pixels against the one-hot test. -/
def tileSum (V : (c : Dev nD) → (b : Ref sig .tc) → Buf (Elt Ideal) ((c : Thread nD τ).loc b)) (b : Fin 32) (d : Fin 16) (q : Fin 512) (k : ℕ) : EReal :=
  ∑ j : Fin 4096, pixRow c V b d (k * 4096 + j.val)
    * (if BitVec.ofNat 32 (k * 4096 + j.val) = (V c main_v13 : S32x1x512.Idx → BitVec 32) (ix3 b 0 q) then (1 : EReal) else 0)

/-- The accumulator's value does not depend on how its point number is written. -/
theorem acc0_congr (V : (c : Dev nD) → (b : Ref sig .tc) → Buf (Elt Ideal) ((c : Thread nD τ).loc b)) (n n' : ℕ) (h : n < cfg0.N) (h' : n' < cfg0.N) (e : n = n') :
    acc0 V c n h = acc0 V c n' h' := by subst e; rfl

/-- One point of the grid, tile `k` of sample `b`: the body adds tile `k`'s contribution to what it finds. -/
theorem tile_apply (V : (c : Dev nD) → (b : Ref sig .tc) → Buf (Elt Ideal) ((c : Thread nD τ).loc b)) (t : Fin cfg0.N) (b : Fin 32) (k : ℕ) (hb : t.val / 16 = b.val) (hk : t.val % 16 = k)
    (a : Vec Ideal S16x512 .f32) (d : Fin 16) (q : Fin 512) :
    k0_pay2 (F := Ideal) (grid0.coords t) (iblk0 V c 1 t) (iblk0 V c 0 t) a (ix2 d q) = a (ix2 d q) + tileSum c V b d q k := by
  subst hk
  have hb' : t.val / 16 < 32 := by rw [hb]; exact b.isLt
  obtain rfl : b = ⟨t.val / 16, hb'⟩ := Fin.ext hb.symm
  obtain ⟨ek, -⟩ := idx_facts0 t
  refine (pay2_apply (grid0.coords t) (iblk0 V c 1 t) (iblk0 V c 0 t) a d q).trans ?_
  refine congrArg (a (ix2 d q) + ·) (Finset.sum_congr rfl fun j _ => ?_)
  have hp : t.val % 16 * 4096 + j.val < 65536 := by have := j.isLt; omega
  rw [ek, pix_blk c V t d j hb' hp, idx_blk c V t q hb']
  unfold pixRow
  rw [dif_pos hp]

/-- After tile `k` of sample `b` the accumulator holds the contributions of tiles 0 … k. -/
theorem acc_sum (V : (c : Dev nD) → (b : Ref sig .tc) → Buf (Elt Ideal) ((c : Thread nD τ).loc b)) (b : Fin 32) : ∀ (k : ℕ) (hk : k < 16) (d : Fin 16) (q : Fin 512),
    acc0 V c (16 * b.val + k) (by rw [N0_eq]; have := b.isLt; omega) (ix2 d q)
      = ∑ k' ∈ Finset.range (k + 1), tileSum c V b d q k'
  | 0, hk, d, q => by
    have ht : 16 * b.val + 0 < cfg0.N := by rw [N0_eq]; have := b.isLt; omega
    have h0 := acc0_reset V c ⟨16 * b.val + 0, ht⟩ (by show (16 * b.val + 0) % 16 = 0; omega)
    rw [Finset.sum_range_one]
    refine (congrFun h0 (ix2 d q)).trans ?_
    refine (tile_apply c V ⟨16 * b.val + 0, ht⟩ b 0 (by show (16 * b.val + 0) / 16 = b.val; omega)
      (by show (16 * b.val + 0) % 16 = 0; omega) _ d q).trans ?_
    rw [pay1_zero, zero_add]
  | k + 1, hk, d, q => by
    have ht : 16 * b.val + (k + 1) < cfg0.N := by rw [N0_eq]; have := b.isLt; omega
    have hs := acc0_step V c ⟨16 * b.val + (k + 1), ht⟩ (by show (16 * b.val + (k + 1)) % 16 ≠ 0; omega)
    rw [Finset.sum_range_succ, ← acc_sum V b k (by omega) d q]
    refine (congrFun hs (ix2 d q)).trans ?_
    refine (tile_apply c V ⟨16 * b.val + (k + 1), ht⟩ b (k + 1) (by show (16 * b.val + (k + 1)) / 16 = b.val; omega)
      (by show (16 * b.val + (k + 1)) % 16 = k + 1; omega) _ d q).trans ?_
    refine congrArg (· + tileSum c V b d q (k + 1)) ?_
    exact congrFun (acc0_congr c V _ _ _ _ (by show 16 * b.val + (k + 1) - 1 = 16 * b.val + k; omega)) (ix2 d q)

/-! ## The output array -/

/-- What the output array ends holding: at (b, d, n) the pixel of sample `b`, channel `d` at keypoint `n`'s flat index. -/
def gathered (V : (c : Dev nD) → (b : Ref sig .tc) → Buf (Elt Ideal) ((c : Thread nD τ).loc b)) (hidx : ∀ (b : Fin 32) (n : Fin 512), ((V c main_v13 : S32x1x512.Idx → BitVec 32) (ix3 b 0 n)).toNat < 65536) : S32x16x512.Idx → EReal :=
  fun i => (V c main_v12 : S32x16x65536.Idx → EReal)
    (ix3 (⟨(i 0).val, (i 0).isLt⟩ : Fin 32) (⟨(i 1).val, (i 1).isLt⟩ : Fin 16)
      ⟨((V c main_v13 : S32x1x512.Idx → BitVec 32) (ix3 (⟨(i 0).val, (i 0).isLt⟩ : Fin 32) 0 (⟨(i 2).val, (i 2).isLt⟩ : Fin 512))).toNat, hidx _ _⟩)

/-- After the sixteenth tile the sixteen contributions are one read of the pixel row at the keypoint's flat index. -/
theorem acc_last (V : (c : Dev nD) → (b : Ref sig .tc) → Buf (Elt Ideal) ((c : Thread nD τ).loc b)) (hidx : ∀ (b : Fin 32) (n : Fin 512), ((V c main_v13 : S32x1x512.Idx → BitVec 32) (ix3 b 0 n)).toNat < 65536) (b : Fin 32) (d : Fin 16) (q : Fin 512) :
    acc0 V c (16 * b.val + 15) (by rw [N0_eq]; have := b.isLt; omega) (ix2 d q)
      = (V c main_v12 : S32x16x65536.Idx → EReal) (ix3 b d ⟨((V c main_v13 : S32x1x512.Idx → BitVec 32) (ix3 b 0 q)).toNat, hidx b q⟩) := by
  rw [acc_sum c V b 15 (by omega) d q]
  refine Eq.trans ?_ (tiles_sum (fun p => (V c main_v12 : S32x16x65536.Idx → EReal) (ix3 b d p))
    ((V c main_v13 : S32x1x512.Idx → BitVec 32) (ix3 b 0 q)) (hidx b q))
  show ∑ k' ∈ Finset.range 16, tileSum c V b d q k' = _
  rw [Finset.sum_range]
  refine Finset.sum_congr rfl fun k _ => ?_
  unfold tileSum
  refine Finset.sum_congr rfl fun j _ => ?_
  unfold pixRow
  rw [dif_pos (show k.val * 4096 + j.val < 65536 by have := k.isLt; have := j.isLt; omega)]

/-- The copy-out at any index of its block: the leading coordinate is 0, the other two index the accumulator. -/
theorem out_blk_apply (acc : Vec Ideal S16x512 .f32) (y : S1x16x512.Idx) :
    k0_pay3 (F := Ideal) acc y = acc (ix2 (⟨(y 1).val, (y 1).isLt⟩ : Fin 16) (⟨(y 2).val, (y 2).isLt⟩ : Fin 512)) := by
  have hy0 : (y 0).val < 1 := (y 0).isLt
  have hy : y = ix3 (0 : Fin 1) (⟨(y 1).val, (y 1).isLt⟩ : Fin 16) (⟨(y 2).val, (y 2).isLt⟩ : Fin 512) := by
    funext a
    match a with
    | ⟨0, _⟩ => exact Fin.ext (by show (y 0).val = 0; omega)
    | ⟨1, _⟩ => rfl
    | ⟨2, _⟩ => rfl
  exact (congrArg (k0_pay3 (F := Ideal) acc) hy).trans (pay3_apply acc _ _)

/-- What a sample's last point writes back is its block of `gathered`. -/
theorem flushed_out (V : (c : Dev nD) → (b : Ref sig .tc) → Buf (Elt Ideal) ((c : Thread nD τ).loc b)) (hidx : ∀ (b : Fin 32) (n : Fin 512), ((V c main_v13 : S32x1x512.Idx → BitVec 32) (ix3 b 0 n)).toNat < 65536) (t : Fin cfg0.N) (h : t.val % 16 = 15) :
    (dat0 V c).flushed 2 t = ((cfg0.win 2).blk t).view.read (Elt Ideal) (gathered c V hidx) := by
  show (cfg0.win 2).cut (grid0.coords t) ((dat0 V c).after 2 t) = _
  rw [after0_2 V c t h]
  funext y
  have hN : cfg0.N = 512 := N0_eq
  have htN : t.val < 512 := by have := t.isLt; omega
  have hb : t.val / 16 < 32 := by omega
  have hy0 : (y 0).val < 1 := (y 0).isLt
  have hy1 : (y 1).val < 16 := (y 1).isLt
  have hy2 : (y 2).val < 512 := (y 2).isLt
  obtain ⟨-, -, -, -, -, -, -, -, e0, e1, e2⟩ := idx_facts0 t
  refine (out_blk_apply (acc0 V c t.val t.isLt) ((cfg0.win 2).xinj (grid0.coords t) y)).trans ?_
  -- the accumulator at the last tile of sample t / 16
  have hacc := acc_last c V hidx ⟨t.val / 16, hb⟩ ⟨(y 1).val, hy1⟩ ⟨(y 2).val, hy2⟩
  have hcg := acc0_congr c V t.val (16 * (t.val / 16) + 15) t.isLt (by omega) (by omega)
  refine (congrFun hcg _).trans (hacc.trans ?_)
  -- the block's element in the array
  have hemb : ((cfg0.win 2).blk t).view.emb y
      = ix3 (⟨t.val / 16, hb⟩ : Fin 32) (⟨(y 1).val, hy1⟩ : Fin 16) (⟨(y 2).val, hy2⟩ : Fin 512) := by
    funext a; apply Fin.ext
    match a with
    | ⟨0, _⟩ => show win0_2.index t (0 : Fin 3) * 1 + 1 * (y 0).val = t.val / 16; omega
    | ⟨1, _⟩ => show win0_2.index t (1 : Fin 3) * 16 + 1 * (y 1).val = (y 1).val; omega
    | ⟨2, _⟩ => show win0_2.index t (2 : Fin 3) * 512 + 1 * (y 2).val = (y 2).val; omega
  show _ = gathered c V hidx (((cfg0.win 2).blk t).view.emb y)
  rw [hemb]
  rfl

/-- An index of the output array is in point `t`'s block iff each coordinate is in the block's range on its axis. -/
theorem mem_out_blk (t : Fin cfg0.N) (i : S32x16x512.Idx) :
    i ∈ ((cfg0.win 2).blk t).view.set ↔ ∀ a : Fin 3, win0_2.index t a * S1x16x512.size a ≤ (i a).val
      ∧ (i a).val < win0_2.index t a * S1x16x512.size a + S1x16x512.size a := by
  show i ∈ ((View.whole main_v14).slice (win0_2.rect t)).set ↔ _
  rw [View.set_slice_whole, Rect.mem_set_unit]
  exact Iff.rfl

/-- Every index of the output array lies in the block its sample's last point writes back. -/
theorem out_cover (i : S32x16x512.Idx) :
    ∃ t : Fin cfg0.N, (cfg0.win 2).flush t = true ∧ i ∈ ((cfg0.win 2).blk t).view.set := by
  have hi0 : (i 0).val < 32 := (i 0).isLt
  have hi1 : (i 1).val < 16 := (i 1).isLt
  have hi2 : (i 2).val < 512 := (i 2).isLt
  have ht : 16 * (i 0).val + 15 < cfg0.N := by rw [N0_eq]; omega
  refine ⟨⟨16 * (i 0).val + 15, ht⟩, (flush0_2 _).2 (by show (16 * (i 0).val + 15) % 16 = 15; omega), ?_⟩
  rw [mem_out_blk]
  obtain ⟨-, -, -, -, -, -, -, -, e0, e1, e2⟩ := idx_facts0 ⟨16 * (i 0).val + 15, ht⟩
  have e0' : win0_2.index ⟨16 * (i 0).val + 15, ht⟩ (0 : Fin 3) = (i 0).val := by
    rw [e0]; show (16 * (i 0).val + 15) / 16 = (i 0).val; omega
  intro a
  match a with
  | ⟨0, _⟩ =>
    show win0_2.index ⟨16 * (i 0).val + 15, ht⟩ (0 : Fin 3) * 1 ≤ (i 0).val
      ∧ (i 0).val < win0_2.index ⟨16 * (i 0).val + 15, ht⟩ (0 : Fin 3) * 1 + 1
    omega
  | ⟨1, _⟩ =>
    show win0_2.index ⟨16 * (i 0).val + 15, ht⟩ (1 : Fin 3) * 16 ≤ (i 1).val
      ∧ (i 1).val < win0_2.index ⟨16 * (i 0).val + 15, ht⟩ (1 : Fin 3) * 16 + 16
    omega
  | ⟨2, _⟩ =>
    show win0_2.index ⟨16 * (i 0).val + 15, ht⟩ (2 : Fin 3) * 512 ≤ (i 2).val
      ∧ (i 2).val < win0_2.index ⟨16 * (i 0).val + 15, ht⟩ (2 : Fin 3) * 512 + 512
    omega

/-- The output array after the region: `gathered` everywhere. -/
theorem out_final (V : (c : Dev nD) → (b : Ref sig .tc) → Buf (Elt Ideal) ((c : Thread nD τ).loc b)) (hidx : ∀ (b : Fin 32) (n : Fin 512), ((V c main_v13 : S32x1x512.Idx → BitVec 32) (ix3 b 0 n)).toNat < 65536) : (dat0 V c).arrAt 2 cfg0.N = gathered c V hidx :=
  (dat0 V c).arrAt_eq_of_cover 2 (gathered c V hidx) (fun t hf => flushed_out c V hidx t ((flush0_2 t).1 hf)) out_cover

/-- If every flat index lies inside the 65536 pixels, the gathered array holds the indexed pixels. -/
theorem ebd_eq (hidx : ∀ (b : Fin 32) (n : Fin 512), ((E1 m c main_v13 : S32x1x512.Idx → BitVec 32) (ix3 b 0 n)).toNat < 65536)
    (b : Fin 32) (d : Fin 16) (n : Fin 512) :
    (E2 m c main_v14 : S32x16x512.Idx → EReal) (ix3 b d n)
      = (E1 m c main_v12 : S32x16x65536.Idx → EReal)
          (ix3 b d ⟨((E1 m c main_v13 : S32x1x512.Idx → BitVec 32) (ix3 b 0 n)).toNat, hidx b n⟩) := by
  exact congrFun ((B2_arr m c 2).trans (out_final c (E1 m) hidx)) (ix3 b d n)

end Cert.KernelIdeal.Val

end
-- ==== Proof.KI.K1Value.lean ====
/- The pairwise kernel's stored value at the ideal instance: the sample's loss (Spec.lean) of the blocks it loaded. -/
import proofs.«126018_j80238579023903_1_alg».proof.Proof.Gen.KernelIdeal.Skeleton
import proofs.«126018_j80238579023903_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open scoped BigOperators
open Cert.KernelIdeal Cert.KernelIdeal.Gen

/-! The lemmas this module's theorem is assembled from live in the sub-namespace `K1`. -/
namespace K1

/-! ## Layout operations at coordinates: the column forms -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane sums at coordinates -/

/-- The sum over the 16 channels of a `16 × 512` vector, at keypoint `n`. -/
theorem sum_channels (x : FVec Ideal S16x512 .f32) (h : S16x512.Reduces [0] S512) (hφ : FKind.Formats .f32)
    (hacc : (0x00000000#32 : BitVec 32) = FKind.add.neutral .f32 hφ) (n : Fin 512) :
    multiReduction .add [0] S512 x 0x00000000#32 h hφ hacc (ix1 n) = ∑ d : Fin 16, x (ix2 d n) := by
  refine (Ideal.multiReduction_add_single x 0x00000000#32 h hφ hacc (ix1 n)).trans ?_
  refine Finset.sum_congr rfl fun d _ => congrArg x ?_
  exact funext fun a => Fin.ext (by match a with | ⟨0, _⟩ => rfl | ⟨1, _⟩ => rfl)

/-- The sum along a row of a `512 × 512` vector, at row `n`. -/
theorem sum_row (x : FVec Ideal S512x512 .f32) (h : S512x512.Reduces [1] S512) (hφ : FKind.Formats .f32)
    (hacc : (0x00000000#32 : BitVec 32) = FKind.add.neutral .f32 hφ) (n : Fin 512) :
    multiReduction .add [1] S512 x 0x00000000#32 h hφ hacc (ix1 n) = ∑ k : Fin 512, x (ix2 n k) := by
  refine (Ideal.multiReduction_add_single x 0x00000000#32 h hφ hacc (ix1 n)).trans ?_
  refine Finset.sum_congr rfl fun d _ => congrArg x ?_
  exact funext fun a => Fin.ext (by match a with | ⟨0, _⟩ => rfl | ⟨1, _⟩ => rfl)

/-- The sum down a `512 × 1` column. -/
theorem sum_col (x : FVec Ideal S512x1 .f32) (h : S512x1.Reduces [0] S1) (hφ : FKind.Formats .f32)
    (hacc : (0x00000000#32 : BitVec 32) = FKind.add.neutral .f32 hφ) (u : Fin 1) :
    multiReduction .add [0] S1 x 0x00000000#32 h hφ hacc (ix1 u) = ∑ n : Fin 512, x (ix2 n (0 : Fin 1)) := by
  refine (Ideal.multiReduction_add_single x 0x00000000#32 h hφ hacc (ix1 u)).trans ?_
  refine Finset.sum_congr rfl fun d _ => congrArg x ?_
  exact funext fun a => Fin.ext (by
    match a with
    | ⟨0, _⟩ => rfl
    | ⟨1, _⟩ => show (u : ℕ) = 0; omega)

/-- The sum along a `1 × 512` row. -/
theorem sum_lane (x : FVec Ideal S1x512 .f32) (h : S1x512.Reduces [1] S1) (hφ : FKind.Formats .f32)
    (hacc : (0x00000000#32 : BitVec 32) = FKind.add.neutral .f32 hφ) (u : Fin 1) :
    multiReduction .add [1] S1 x 0x00000000#32 h hφ hacc (ix1 u) = ∑ k : Fin 512, x (ix2 (0 : Fin 1) k) := by
  refine (Ideal.multiReduction_add_single x 0x00000000#32 h hφ hacc (ix1 u)).trans ?_
  refine Finset.sum_congr rfl fun d _ => congrArg x ?_
  exact funext fun a => Fin.ext (by
    match a with
    | ⟨0, _⟩ => show (u : ℕ) = 0; omega
    | ⟨1, _⟩ => rfl)

/-! ## The Gram matmul at coordinates -/

theorem lhs_gram_0 (i : S512x512.Idx) (q : dot_S16x512_S16x512_S512x512_0_0_1_1_n_n.contr.Idx) :
    (dot_S16x512_S16x512_S512x512_0_0_1_1_n_n.lhsIdx i q 0).val = (q ⟨0, by decide⟩).val :=
  dot_S16x512_S16x512_S512x512_0_0_1_1_n_n.lhsIdx_val_of_single rfl i q
theorem lhs_gram_1 (i : S512x512.Idx) (q : dot_S16x512_S16x512_S512x512_0_0_1_1_n_n.contr.Idx) :
    (dot_S16x512_S16x512_S512x512_0_0_1_1_n_n.lhsIdx i q 1).val = (i 0).val := by
  unfold DotDims.lhsIdx
  rw [dif_neg (show ¬(1 : Fin S16x512.rank) ∈ dot_S16x512_S16x512_S512x512_0_0_1_1_n_n.lhsBatch by decide), dif_pos (show (1 : Fin S16x512.rank) ∈ dot_S16x512_S16x512_S512x512_0_0_1_1_n_n.lhsNonContracting by decide)]
  rfl
theorem rhs_gram_0 (i : S512x512.Idx) (q : dot_S16x512_S16x512_S512x512_0_0_1_1_n_n.contr.Idx) :
    (dot_S16x512_S16x512_S512x512_0_0_1_1_n_n.rhsIdx i q 0).val = (q ⟨0, by decide⟩).val :=
  dot_S16x512_S16x512_S512x512_0_0_1_1_n_n.rhsIdx_val_of_single rfl i q
theorem rhs_gram_1 (i : S512x512.Idx) (q : dot_S16x512_S16x512_S512x512_0_0_1_1_n_n.contr.Idx) :
    (dot_S16x512_S16x512_S512x512_0_0_1_1_n_n.rhsIdx i q 1).val = (i 1).val := by
  unfold DotDims.rhsIdx
  rw [dif_neg (show ¬(1 : Fin S16x512.rank) ∈ dot_S16x512_S16x512_S512x512_0_0_1_1_n_n.rhsBatch by decide), dif_pos (show (1 : Fin S16x512.rank) ∈ dot_S16x512_S16x512_S512x512_0_0_1_1_n_n.rhsNonContracting by decide)]
  rfl

/-- The matmul that contracts the channel axis of a `16 × 512` vector with itself, onto a zero accumulator: at
    `(n, k)` the inner product of columns `n` and `k`. -/
theorem gram_apply (x : FVec Ideal S16x512 .bf16) (n k : Fin 512) :
    matmul dot_S16x512_S16x512_S512x512_0_0_1_1_n_n none x x (constant (F := Ideal) S512x512 .f32 0x00000000#32) (ix2 n k)
      = ∑ d : Fin 16, x (ix2 d n) * x (ix2 d k) := by
  simp only [matmul]
  rw [Ideal.matmul_constant_zero_apply, ← Equiv.sum_comp (contrEquiv1 dot_S16x512_S16x512_S512x512_0_0_1_1_n_n 16 rfl rfl).symm]
  refine Finset.sum_congr rfl fun d _ => ?_
  have hk := contrEquiv1_symm_val dot_S16x512_S16x512_S512x512_0_0_1_1_n_n 16 rfl rfl d
  have el : dot_S16x512_S16x512_S512x512_0_0_1_1_n_n.lhsIdx (ix2 n k) ((contrEquiv1 dot_S16x512_S16x512_S512x512_0_0_1_1_n_n 16 rfl rfl).symm d) = ix2 d n := funext fun a => Fin.ext (by
    match a with
    | ⟨0, _⟩ => exact (lhs_gram_0 _ _).trans hk
    | ⟨1, _⟩ => exact lhs_gram_1 _ _)
  have er : dot_S16x512_S16x512_S512x512_0_0_1_1_n_n.rhsIdx (ix2 n k) ((contrEquiv1 dot_S16x512_S16x512_S512x512_0_0_1_1_n_n 16 rfl rfl).symm d) = ix2 d k := funext fun a => Fin.ext (by
    match a with
    | ⟨0, _⟩ => exact (rhs_gram_0 _ _).trans hk
    | ⟨1, _⟩ => exact rhs_gram_1 _ _)
  rw [el, er]

/-! ## The two words that are evaluated: 16 and 1/16 -/

/-- The word `0x41800000` denotes the real 16. -/
theorem ofBits_16 : Ideal.ofBits .f32 0x41800000#32 = ((16 : ℝ) : EReal) := by
  simp [Ideal.ofBits, Ideal.ieee, -EReal.coe_mul]; norm_num
/-- The word `0x3D800000` denotes the real 1/16. -/
theorem ofBits_16th : Ideal.ofBits .f32 0x3D800000#32 = ((1 / 16 : ℝ) : EReal) := by
  simp [Ideal.ofBits, Ideal.ieee, -EReal.coe_mul]; norm_num
/-- Multiplying by the word 1/16 is dividing by the word 16, at the infinities too. -/
theorem mul_16th (x : EReal) :
    x * Ideal.ofBits .f32 0x3D800000#32 = Ideal.div x (Ideal.ofBits .f32 0x41800000#32) := by
  rw [ofBits_16, ofBits_16th]
  exact (Ideal.div_coe (by norm_num) x).symm

/-! ## Words: the tag-equality entry and the weight's condition -/

/-- Equality of two words, zero-extended and converted, is 1 where they are equal and 0 elsewhere. -/
theorem eq_entry (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · have hc : IntOp.cmpi .eq a b = 1#1 := by
      unfold IntOp.cmpi; rw [show (a == b) = true from beq_iff_eq.mpr h]; rfl
    have h1 : ((1#1 : BitVec 1).setWidth 32).toInt = 1 := by decide
    rw [hc, if_pos h, h1, Int.cast_one, EReal.coe_one]
  · have hc : IntOp.cmpi .eq a b = 0#1 := by
      unfold IntOp.cmpi; rw [show (a == b) = false from beq_eq_false_iff_ne.mpr h]; rfl
    have h0 : ((0#1 : BitVec 1).setWidth 32).toInt = 0 := by decide
    rw [hc, if_neg h, h0, Int.cast_zero, EReal.coe_zero]

/-- A select on "either is above zero" is the `if` on that disjunction. -/
theorem select_or_pos {α : Type} (t p : EReal) (A B : α) :
    Scalar.select (IntOp.ori (FloatOps.cmpf (F := Ideal) (φ := .f32) .ogt t (Ideal.ofBits .f32 0x00000000#32))
        (FloatOps.cmpf (F := Ideal) (φ := .f32) .ogt p (Ideal.ofBits .f32 0x00000000#32))) A B
      = if 0 < t ∨ 0 < p then A else B := by
  rw [Ideal.ofBits_zero_f32]
  show Scalar.select (IntOp.ori (Ideal.cmp .ogt t 0) (Ideal.cmp .ogt p 0)) A B = _
  unfold Ideal.cmp IntOp.ori Scalar.select
  by_cases ht : (0 : EReal) < t <;> by_cases hp : (0 : EReal) < p <;> simp [ht, hp]

/-! ## The small payloads at an index -/

/-- An exponential at an index is the exponential of the element. -/
theorem exp_apply {s : Shape} {φ : FTy} (a : FVec Ideal s φ) (i : s.Idx) : exp a i = Ideal.exp (a i) := rfl
/-- An integer comparison at an index compares the elements. -/
theorem cmpi_apply {s : Shape} {w : ℕ} (p : CmpIPredicate) (a b : IVec s w) (i : s.Idx) : cmpi p a b i = IntOp.cmpi p (a i) (b i) := rfl
/-- A bitwise or at an index is the or of the elements. -/
theorem ori_apply {s : Shape} {w : ℕ} (a b : IVec s w) (i : s.Idx) : ori a b i = IntOp.ori (a i) (b i) := rfl

/-- The mask row, viewed `1 × 512`. -/
theorem pay4_apply (mr : Vec Ideal S1x1x512 .f32) (k : Fin 512) :
    k1_pay4 (F := Ideal) mr (ix2 (0 : Fin 1) k) = mr (ix3 (0 : Fin 1) (0 : Fin 1) k) := by
  unfold k1_pay4
  exact shapeCast_1ab_ab_apply mr _ (0 : Fin 1) k

/-- The mask column, spread along the rows. -/
theorem pay5_apply (mc : Vec Ideal S1x512x1 .f32) (n k : Fin 512) :
    k1_pay5 (F := Ideal) mc (ix2 n k) = mc (ix3 (0 : Fin 1) n (0 : Fin 1)) := by
  unfold k1_pay5
  exact (broadcastTo_a1_ab_apply _ _ n k).trans (shapeCast_1ab_ab_apply mc _ n (0 : Fin 1))

/-- The tag-equality matrix: 1 where the column tag of `n` is the row tag of `k`. -/
theorem pay3_apply (tc : Vec Ideal S1x512x1 .i32) (tr : Vec Ideal S1x1x512 .i32) (n k : Fin 512) :
    k1_pay3 (F := Ideal) tc tr (ix2 n k)
      = Cert.Spec.tsim (fun n => tc (ix3 (0 : Fin 1) n (0 : Fin 1))) (fun n => tr (ix3 (0 : Fin 1) (0 : Fin 1) n)) n k := by
  unfold k1_pay3 Cert.Spec.tsim
  have hA : broadcastTo S512x512 (shapeCast S512x1 tc shapeCasts_S1x512x1_S512x1) broadcasts_S512x1_S512x512 (ix2 n k)
      = tc (ix3 (0 : Fin 1) n (0 : Fin 1)) :=
    (broadcastTo_a1_ab_apply _ _ n k).trans (shapeCast_1ab_ab_apply tc _ n (0 : Fin 1))
  have hB : broadcastTo S512x512 (shapeCast S1x512 tr shapeCasts_S1x1x512_S1x512) broadcasts_S1x512_S512x512 (ix2 n k)
      = tr (ix3 (0 : Fin 1) (0 : Fin 1) k) :=
    (broadcastTo_1b_ab_apply _ _ n k).trans (shapeCast_1ab_ab_apply tr _ (0 : Fin 1) k)
  refine (eq_entry _ _).trans ?_
  rw [hA, hB]

/-! ## The predicted similarity at an index -/

/-- The mean-square row: at `(u, n)` the mean over the 16 channels of the squared embedding of keypoint `n`. -/
theorem sq_row (v0 : Vec Ideal S1x16x512 .f32) (hφ : FKind.Formats .f32)
    (hacc : (0x00000000#32 : BitVec 32) = FKind.add.neutral .f32 hφ) (u : Fin 1) (n : Fin 512) :
    divf (shapeCast S1x512
          (multiReduction .add [0] S512
            (mulf (shapeCast S16x512 v0 Gen.shapeCasts_S1x16x512_S16x512) (shapeCast S16x512 v0 Gen.shapeCasts_S1x16x512_S16x512))
            0x00000000#32 Gen.reduces_S16x512_S512 hφ hacc)
          Gen.shapeCasts_S512_S1x512)
        (broadcast S1x512 (FloatOps.ofBits (F := Ideal) .f32 0x41800000#32)) (ix2 u n)
      = Cert.Spec.sq (fun d n => v0 (ix3 (0 : Fin 1) d n)) n := by
  unfold Cert.Spec.sq
  refine congrArg (fun z => Ideal.div z Cert.Spec.c16) ?_
  refine (shapeCast_a_1a_apply _ _ u n).trans ((sum_channels _ _ hφ hacc n).trans ?_)
  refine Finset.sum_congr rfl fun d _ => ?_
  rw [mulf_apply, shapeCast_1ab_ab_apply v0 Gen.shapeCasts_S1x16x512_S16x512 d n]

/-- The predicted similarity of keypoints `n` and `k`. -/
theorem pay2_apply (v0 : Vec Ideal S1x16x512 .f32) (n k : Fin 512) :
    k1_pay2 (F := Ideal) v0 (ix2 n k) = Cert.Spec.psim (fun d n => v0 (ix3 (0 : Fin 1) d n)) n k := by
  unfold k1_pay2 Cert.Spec.psim Cert.Spec.expo
  simp only [divf_apply, addf_apply, subf_apply, mulf_apply, exp_apply, broadcast_apply]
  refine congrArg (fun z => Ideal.div Cert.Spec.c2 (Cert.Spec.c1 + Ideal.exp z)) ?_
  refine congrArg₂ (· - ·) (congrArg₂ (· + ·) ?_ ?_) (congrArg (Cert.Spec.c2 * ·) ?_)
  · exact (broadcastTo_a1_ab_apply _ _ n k).trans
      ((transpose_ix2_apply _ _ n (0 : Fin 1)).trans (sq_row v0 _ _ (0 : Fin 1) n))
  · exact (broadcastTo_1b_ab_apply _ _ n k).trans (sq_row v0 _ _ (0 : Fin 1) k)
  · refine (mul_16th _).trans (congrArg (fun z => Ideal.div z Cert.Spec.c16) ?_)
    refine (gram_apply _ n k).trans ?_
    unfold Cert.Spec.dotp
    refine Finset.sum_congr rfl fun d _ => ?_
    rw [truncf_apply, truncf_apply, shapeCast_1ab_ab_apply v0 Gen.shapeCasts_S1x16x512_S16x512 d n,
      shapeCast_1ab_ab_apply v0 Gen.shapeCasts_S1x16x512_S16x512 d k]

/-! ## The stored value over its five operands -/

/-- The stored value at its only index, over any similarity matrices `p`, `t`, mask row `r`, mask-column matrix `c`
    and mask block `m`: the weighted masked squared error summed over the pairs, over `max (K · K) 1`. -/
theorem pay1_apply (p t : FVec Ideal S512x512 .f32) (r : FVec Ideal S1x512 .f32) (c : FVec Ideal S512x512 .f32)
    (m : Vec Ideal S1x1x512 .f32) :
    k1_pay1 (F := Ideal) p t r c m (ix3 (0 : Fin 1) (0 : Fin 1) (0 : Fin 1))
      = Ideal.div (∑ n : Fin 512, ∑ k : Fin 512,
            (p (ix2 n k) - t (ix2 n k)) * (p (ix2 n k) - t (ix2 n k))
              * (if 0 < t (ix2 n k) ∨ 0 < p (ix2 n k) then Cert.Spec.c10 else Cert.Spec.c0)
              * (c (ix2 n k) * r (ix2 (0 : Fin 1) k)))
          (max ((∑ k : Fin 512, m (ix3 (0 : Fin 1) (0 : Fin 1) k)) * (∑ k : Fin 512, m (ix3 (0 : Fin 1) (0 : Fin 1) k)))
            Cert.Spec.c1) := by
  unfold k1_pay1
  refine (shapeCast_ab_1ab_apply _ _ (0 : Fin 1) (0 : Fin 1) (0 : Fin 1)).trans ?_
  refine congrArg₂ Ideal.div ?_ ?_
  · refine (shapeCast_a_1a_apply _ _ (0 : Fin 1) (0 : Fin 1)).trans ((sum_col _ _ _ _ (0 : Fin 1)).trans ?_)
    refine Finset.sum_congr rfl fun n _ => ?_
    refine (shapeCast_a_a1_apply _ _ n (0 : Fin 1)).trans ((sum_row _ _ _ _ n).trans ?_)
    refine Finset.sum_congr rfl fun k _ => ?_
    simp only [mulf_apply, subf_apply, select_apply, ori_apply, cmpf_apply, broadcast_apply]
    rw [broadcastTo_1b_ab_apply]
    exact congrArg (fun z => (p (ix2 n k) - t (ix2 n k)) * (p (ix2 n k) - t (ix2 n k)) * z * (c (ix2 n k) * r (ix2 (0 : Fin 1) k)))
      (select_or_pos _ _ _ _)
  · refine congrArg (fun z => max (z * z) Cert.Spec.c1) ?_
    refine (shapeCast_a_1a_apply _ _ (0 : Fin 1) (0 : Fin 1)).trans ((sum_lane _ _ _ _ (0 : Fin 1)).trans ?_)
    exact Finset.sum_congr rfl fun k _ => shapeCast_1ab_ab_apply m _ (0 : Fin 1) k

end K1

open K1

/-! ## The stored value is the sample's loss -/

/-- The one value the pairwise kernel stores, read at its only index: the loss of the sample whose embedding block is `v0`,
    row / column masks `mr` / `mc` and row / column tags `tr` / `tc`. -/
theorem pay1_loss (v0 : Vec Ideal S1x16x512 .f32) (mr : Vec Ideal S1x1x512 .f32) (mc : Vec Ideal S1x512x1 .f32)
    (tr : Vec Ideal S1x1x512 .i32) (tc : Vec Ideal S1x512x1 .i32) (j : S1x1x1.Idx) :
    k1_pay1 (F := Ideal) (k1_pay2 v0) (k1_pay3 tc tr) (k1_pay4 mr) (k1_pay5 mc) mr j
      = Cert.Spec.lossS (fun d n => v0 (ix3 0 d n)) (fun n => mc (ix3 0 n 0)) (fun n => mr (ix3 0 0 n))
          (fun n => tc (ix3 0 n 0)) (fun n => tr (ix3 0 0 n)) := by
  -- the stored vector has one element
  obtain ⟨a, b, c, rfl⟩ : ∃ (a b c : Fin 1), j = ix3 a b c := ⟨j 0, j 1, j 2, eq_ix3 j⟩
  obtain rfl : a = 0 := Subsingleton.elim _ _
  obtain rfl : b = 0 := Subsingleton.elim _ _
  obtain rfl : c = 0 := Subsingleton.elim _ _
  refine (pay1_apply _ _ _ _ _).trans ?_
  unfold Cert.Spec.lossS
  refine congrArg₂ Ideal.div ?_ rfl
  -- pair by pair, the four matrices are the specification's similarity, tag equality and masks
  refine Finset.sum_congr rfl fun n _ => Finset.sum_congr rfl fun k _ => ?_
  rw [pay2_apply, pay3_apply, pay4_apply, pay5_apply]
  unfold Cert.Spec.term Cert.Spec.wgt
  rfl

end Cert.KernelIdeal.Val

end
-- ==== Proof.KI.KArr1.lean ====
/- The pairwise region's output array at the ideal instance: sample b's entry is the specification's loss of sample b's
   blocks of the region's five input arrays. -/
import proofs.«126018_j80238579023903_1_alg».proof.Proof.KI.Run
import proofs.«126018_j80238579023903_1_alg».proof.Proof.KI.K1Value
import proofs.«126018_j80238579023903_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open scoped BigOperators
open Cert.KernelIdeal Cert.KernelIdeal.Gen Cert.KernelIdeal.Hand
open Idealize.ShloMosaic.TcCoe Idealize.SL.Sem

variable (m : (ℓ : Loc nD τ sig) → Buf (Elt Ideal) ℓ) (c : Dev nD)

/-! ## Where a block sits in its array

Each of the six windows of the pairwise pipeline moves along the sample axis only: at grid point `t` its block index
is `(t, 0, 0)`, and its block has extent one on that axis. So the block at point `t` is sample `t`'s slab of the
array, and an element of the block at `(0, x, y)` is the array's element at `(t, x, y)`. -/

/-- The six index maps at every grid point, decided over the grid. -/
theorem idx1_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0) :=
  (by decide +kernel : ∀ t : Fin grid1.N, _)

/-- The sample a grid point works on. -/
abbrev smp (t : Fin cfg1.N) : Fin 32 := ⟨t.val, t.isLt⟩

/-! ### The five input blocks at a point, each at its own vector type -/

/-- The embeddings' block: 16 channels by 512 keypoints. -/
abbrev embBlk (t : Fin cfg1.N) : Vec Ideal S1x16x512 .f32 := iblk1 (E3 m) c 0 t
/-- The visibility mask along a row of the pair grid, -/
abbrev rowMaskBlk (t : Fin cfg1.N) : Vec Ideal S1x1x512 .f32 := iblk1 (E3 m) c 1 t
/-- and along a column. -/
abbrev colMaskBlk (t : Fin cfg1.N) : Vec Ideal S1x512x1 .f32 := iblk1 (E3 m) c 2 t
/-- The tags along a row, -/
abbrev rowTagBlk (t : Fin cfg1.N) : Vec Ideal S1x1x512 .i32 := iblk1 (E3 m) c 3 t
/-- and along a column. -/
abbrev colTagBlk (t : Fin cfg1.N) : Vec Ideal S1x512x1 .i32 := iblk1 (E3 m) c 4 t

/-! ### Each read at a block index: the array's entry in sample `t`'s slab -/

theorem embBlk_read (t : Fin cfg1.N) (d : Fin 16) (n : Fin 512) :
    embBlk m c t (ix3 0 d n) = (E3 m c main_v14 : S32x16x512.Idx → EReal) (ix3 (smp t) d n) := by
  show (E3 m c main_v14 : S32x16x512.Idx → EReal) (((cfg1.win 0).blk t).view.emb (ix3 0 d n)) = _
  obtain ⟨⟨e0, e1, e2⟩, -⟩ := idx1_facts t
  refine congrArg _ (funext fun a => Fin.ext ?_)
  match a with
  | ⟨0, _⟩ => show win1_0.index t (0 : Fin 3) * 1 + 1 * 0 = t.val; omega
  | ⟨1, _⟩ => show win1_0.index t (1 : Fin 3) * 16 + 1 * d.val = d.val; omega
  | ⟨2, _⟩ => show win1_0.index t (2 : Fin 3) * 512 + 1 * n.val = n.val; omega

theorem rowMaskBlk_read (t : Fin cfg1.N) (n : Fin 512) :
    rowMaskBlk m c t (ix3 0 0 n) = (E3 m c main_v18 : S32x1x512.Idx → EReal) (ix3 (smp t) 0 n) := by
  show (E3 m c main_v18 : S32x1x512.Idx → EReal) (((cfg1.win 1).blk t).view.emb (ix3 0 0 n)) = _
  obtain ⟨-, ⟨e0, e1, e2⟩, -⟩ := idx1_facts t
  refine congrArg _ (funext fun a => Fin.ext ?_)
  match a with
  | ⟨0, _⟩ => show win1_1.index t (0 : Fin 3) * 1 + 1 * 0 = t.val; omega
  | ⟨1, _⟩ => show win1_1.index t (1 : Fin 3) * 1 + 1 * 0 = 0; omega
  | ⟨2, _⟩ => show win1_1.index t (2 : Fin 3) * 512 + 1 * n.val = n.val; omega

theorem colMaskBlk_read (t : Fin cfg1.N) (n : Fin 512) :
    colMaskBlk m c t (ix3 0 n 0) = (E3 m c main_v19 : S32x512x1.Idx → EReal) (ix3 (smp t) n 0) := by
  show (E3 m c main_v19 : S32x512x1.Idx → EReal) (((cfg1.win 2).blk t).view.emb (ix3 0 n 0)) = _
  obtain ⟨-, -, ⟨e0, e1, e2⟩, -⟩ := idx1_facts t
  refine congrArg _ (funext fun a => Fin.ext ?_)
  match a with
  | ⟨0, _⟩ => show win1_2.index t (0 : Fin 3) * 1 + 1 * 0 = t.val; omega
  | ⟨1, _⟩ => show win1_2.index t (1 : Fin 3) * 512 + 1 * n.val = n.val; omega
  | ⟨2, _⟩ => show win1_2.index t (2 : Fin 3) * 1 + 1 * 0 = 0; omega

theorem rowTagBlk_read (t : Fin cfg1.N) (n : Fin 512) :
    rowTagBlk m c t (ix3 0 0 n) = (E3 m c main_v20 : S32x1x512.Idx → BitVec 32) (ix3 (smp t) 0 n) := by
  show (E3 m c main_v20 : S32x1x512.Idx → BitVec 32) (((cfg1.win 3).blk t).view.emb (ix3 0 0 n)) = _
  obtain ⟨-, -, -, ⟨e0, e1, e2⟩, -⟩ := idx1_facts t
  refine congrArg _ (funext fun a => Fin.ext ?_)
  match a with
  | ⟨0, _⟩ => show win1_3.index t (0 : Fin 3) * 1 + 1 * 0 = t.val; omega
  | ⟨1, _⟩ => show win1_3.index t (1 : Fin 3) * 1 + 1 * 0 = 0; omega
  | ⟨2, _⟩ => show win1_3.index t (2 : Fin 3) * 512 + 1 * n.val = n.val; omega

theorem colTagBlk_read (t : Fin cfg1.N) (n : Fin 512) :
    colTagBlk m c t (ix3 0 n 0) = (E3 m c main_v21 : S32x512x1.Idx → BitVec 32) (ix3 (smp t) n 0) := by
  show (E3 m c main_v21 : S32x512x1.Idx → BitVec 32) (((cfg1.win 4).blk t).view.emb (ix3 0 n 0)) = _
  obtain ⟨-, -, -, -, ⟨e0, e1, e2⟩, -⟩ := idx1_facts t
  refine congrArg _ (funext fun a => Fin.ext ?_)
  match a with
  | ⟨0, _⟩ => show win1_4.index t (0 : Fin 3) * 1 + 1 * 0 = t.val; omega
  | ⟨1, _⟩ => show win1_4.index t (1 : Fin 3) * 512 + 1 * n.val = n.val; omega
  | ⟨2, _⟩ => show win1_4.index t (2 : Fin 3) * 1 + 1 * 0 = 0; omega

/-! ## The output array as one function of the input arrays -/

/-- Sample `b`'s loss, of its slabs of the five input arrays as the region finds them. -/
def sampleLoss (b : Fin 32) : EReal :=
  Cert.Spec.lossS (fun d n => (E3 m c main_v14 : S32x16x512.Idx → EReal) (ix3 b d n))
    (fun n => (E3 m c main_v19 : S32x512x1.Idx → EReal) (ix3 b n 0)) (fun n => (E3 m c main_v18 : S32x1x512.Idx → EReal) (ix3 b 0 n))
    (fun n => (E3 m c main_v21 : S32x512x1.Idx → BitVec 32) (ix3 b n 0)) (fun n => (E3 m c main_v20 : S32x1x512.Idx → BitVec 32) (ix3 b 0 n))

/-- What the output array ends holding: at `(b, ·, ·)` sample `b`'s loss. -/
def lossArr : S32x1x1.Idx → EReal := fun i => sampleLoss m c ⟨(i 0).val, (i 0).isLt⟩

theorem lossArr_at (b : Fin 32) : lossArr m c (ix3 b 0 0) = sampleLoss m c b := rfl

/-- The output block's one cell at point `t` is the array's cell `(t, 0, 0)`. -/
theorem blk5_emb (t : Fin cfg1.N) (j : S1x1x1.Idx) :
    (((cfg1.win 5).blk t).view.emb j : S32x1x1.Idx) = ix3 (smp t) 0 0 := by
  obtain ⟨-, -, -, -, -, ⟨e0, e1, e2⟩⟩ := idx1_facts t
  refine funext fun a => Fin.ext ?_
  match a with
  | ⟨0, _⟩ => show win1_5.index t (0 : Fin 3) * 1 + 1 * (j 0).val = t.val; have h : (j 0).val < 1 := (j 0).isLt; omega
  | ⟨1, _⟩ => show win1_5.index t (1 : Fin 3) * 1 + 1 * (j 1).val = 0; have h : (j 1).val < 1 := (j 1).isLt; omega
  | ⟨2, _⟩ => show win1_5.index t (2 : Fin 3) * 1 + 1 * (j 2).val = 0; have h : (j 2).val < 1 := (j 2).isLt; omega

/-- So the output block of ANY array, read at its one cell, is the array at `(t, 0, 0)`. -/
theorem read_blk5 (t : Fin cfg1.N) (G : S32x1x1.Idx → EReal) (j : S1x1x1.Idx) :
    ((cfg1.win 5).blk t).view.read (Elt Ideal) G j = G (ix3 (smp t) 0 0) := by
  show G (((cfg1.win 5).blk t).view.emb j) = _
  rw [blk5_emb]

/-- What point `t` writes back: the output window is never cut at its array's end, so it is all of what the body
    left, the kernel's one stored value of the point's input blocks. -/
theorem flushed5_pay (t : Fin cfg1.N) :
    (dat1 (E3 m) c).flushed 5 t
      = k1_pay1 (F := Ideal) (k1_pay2 (embBlk m c t)) (k1_pay3 (colTagBlk m c t) (rowTagBlk m c t)) (k1_pay4 (rowMaskBlk m c t))
          (k1_pay5 (colMaskBlk m c t)) (rowMaskBlk m c t) := by
  show (cfg1.win 5).cut (grid1.coords t) ((dat1 (E3 m) c).after 5 t) = _
  rw [after1_5]
  rfl

/-- The kernel's stored value, of blocks `x0 … x4` that are sample `b`'s slabs of the five arrays, is sample `b`'s loss:
    the payload is the loss of its blocks (`pay1_loss`), entry by entry the slabs'. -/
theorem pay1_sampleLoss (b : Fin 32) (x0 : Vec Ideal S1x16x512 .f32) (x1 : Vec Ideal S1x1x512 .f32) (x2 : Vec Ideal S1x512x1 .f32)
    (x3 : Vec Ideal S1x1x512 .i32) (x4 : Vec Ideal S1x512x1 .i32) (j : S1x1x1.Idx)
    (h0 : ∀ d n, x0 (ix3 0 d n) = (E3 m c main_v14 : S32x16x512.Idx → EReal) (ix3 b d n))
    (h1 : ∀ n, x1 (ix3 0 0 n) = (E3 m c main_v18 : S32x1x512.Idx → EReal) (ix3 b 0 n))
    (h2 : ∀ n, x2 (ix3 0 n 0) = (E3 m c main_v19 : S32x512x1.Idx → EReal) (ix3 b n 0))
    (h3 : ∀ n, x3 (ix3 0 0 n) = (E3 m c main_v20 : S32x1x512.Idx → BitVec 32) (ix3 b 0 n))
    (h4 : ∀ n, x4 (ix3 0 n 0) = (E3 m c main_v21 : S32x512x1.Idx → BitVec 32) (ix3 b n 0)) :
    k1_pay1 (F := Ideal) (k1_pay2 x0) (k1_pay3 x4 x3) (k1_pay4 x1) (k1_pay5 x2) x1 j = sampleLoss m c b := by
  refine (pay1_loss x0 x1 x2 x3 x4 j).trans ?_
  unfold sampleLoss
  simp only [h0, h1, h2, h3, h4]

/-- WHAT POINT `t` WRITES BACK is block `t` of `lossArr`: the stored value is the loss of the blocks the kernel
    loaded, and those blocks are sample `t`'s slabs. -/
theorem flushed5_eq (t : Fin cfg1.N) :
    (dat1 (E3 m) c).flushed 5 t = ((cfg1.win 5).blk t).view.read (Elt Ideal) (lossArr m c) := by
  rw [flushed5_pay]
  funext j
  rw [read_blk5 t (lossArr m c) j, lossArr_at]
  exact pay1_sampleLoss m c (smp t) (embBlk m c t) (rowMaskBlk m c t) (colMaskBlk m c t) (rowTagBlk m c t) (colTagBlk m c t) j
    (embBlk_read m c t) (rowMaskBlk_read m c t) (colMaskBlk_read m c t) (rowTagBlk_read m c t) (colTagBlk_read m c t)

/-- Sample `b`'s cell lies in the block of the point that works on sample `b`. -/
theorem mem_blk5 (b : Fin 32) : (ix3 b 0 0 : S32x1x1.Idx) ∈ ((cfg1.win 5).blk (⟨b.val, b.isLt⟩ : Fin cfg1.N)).view.set := by
  have h := ((cfg1.win 5).blk (⟨b.val, b.isLt⟩ : Fin cfg1.N)).view.emb_mem_set (ix3 0 0 0 : S1x1x1.Idx)
  rw [blk5_emb] at h
  exact h

/-- THE OUTPUT ARRAY at the region's exit, read at sample `b`: the specification's loss of sample `b`'s slabs of the
    five input arrays as the region finds them. -/
theorem persample_eq (b : Fin 32) :
    (E4 m c main_v22 : S32x1x1.Idx → EReal) (ix3 b 0 0)
      = Cert.Spec.lossS (fun d n => (E3 m c main_v14 : S32x16x512.Idx → EReal) (ix3 b d n))
          (fun n => (E3 m c main_v19 : S32x512x1.Idx → EReal) (ix3 b n 0)) (fun n => (E3 m c main_v18 : S32x1x512.Idx → EReal) (ix3 b 0 n))
          (fun n => (E3 m c main_v21 : S32x512x1.Idx → BitVec 32) (ix3 b n 0)) (fun n => (E3 m c main_v20 : S32x1x512.Idx → BitVec 32) (ix3 b 0 n)) := by
  have harr : (E4 m c main_v22 : S32x1x1.Idx → EReal) = (dat1 (E3 m) c).arrAt 5 cfg1.N := B4_arr m c 5
  rw [harr]
  exact (dat1 (E3 m) c).arrAt_apply_of_mem 5 (lossArr m c) (fun t _ => flushed5_eq m c t) cfg1.N
    (⟨b.val, b.isLt⟩ : Fin cfg1.N) (ix3 b 0 0) b.isLt (flush1_5 _) (mem_blk5 b)

end Cert.KernelIdeal.Val

end
-- ==== Proof.RefValue.lean ====
/- The reference's per-sample loss, read off its operations one at a time, is the specification's loss (Spec.lean) of the
   gathered embeddings, the visibility mask and the tags. -/
import proofs.«126018_j80238579023903_1_alg».proof.Proof.RefRead
import proofs.«126018_j80238579023903_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Idealize.ShloMosaic Idealize.ShloMosaic.ValueIdx
open scoped BigOperators
open Cert.ReferenceIdeal Cert.ReferenceIdeal.Gen Cert.ReferenceIdeal.ReadP

/-! ## Index equations: the composed index maps of the broadcasts, the contraction and the sums, at an index given by its
    coordinates, are the index with the coordinates in the operand's order. -/

theorem i38 (b : Fin 32) (n : Fin 512) (d : Fin 16) : idx_main_v38 (ix2 b n) d = ix3 b d n :=
  funext fun a => Fin.ext (by match a with | ⟨0, _⟩ => rfl | ⟨1, _⟩ => rfl | ⟨2, _⟩ => rfl)
theorem l41 (b : Fin 32) (n k : Fin 512) (d : Fin 16) : lidx_main_v41 (ix3 b n k) d = ix3 b d n :=
  funext fun a => Fin.ext (by match a with | ⟨0, _⟩ => rfl | ⟨1, _⟩ => rfl | ⟨2, _⟩ => rfl)
theorem r41 (b : Fin 32) (n k : Fin 512) (d : Fin 16) : ridx_main_v41 (ix3 b n k) d = ix3 b d k :=
  funext fun a => Fin.ext (by match a with | ⟨0, _⟩ => rfl | ⟨1, _⟩ => rfl | ⟨2, _⟩ => rfl)
theorem i44 (b : Fin 32) (n k : Fin 512) : idx_main_v44 (idx_main_v46 (ix3 b n k)) = ix2 b n :=
  funext fun a => Fin.ext (by match a with | ⟨0, _⟩ => rfl | ⟨1, _⟩ => rfl)
theorem i45 (b : Fin 32) (n k : Fin 512) : idx_main_v45 (idx_main_v47 (ix3 b n k)) = ix2 b k :=
  funext fun a => Fin.ext (by match a with | ⟨0, _⟩ => rfl | ⟨1, _⟩ => rfl)
theorem i31 (b : Fin 32) (n k : Fin 512) : idx_main_v31 (idx_main_v33 (ix3 b n k)) = ix2 b n :=
  funext fun a => Fin.ext (by match a with | ⟨0, _⟩ => rfl | ⟨1, _⟩ => rfl)
theorem i32 (b : Fin 32) (n k : Fin 512) : idx_main_v32 (idx_main_v34 (ix3 b n k)) = ix2 b k :=
  funext fun a => Fin.ext (by match a with | ⟨0, _⟩ => rfl | ⟨1, _⟩ => rfl)
theorem i26 (b : Fin 32) (n k : Fin 512) : idx_main_v26 (idx_main_v28 (ix3 b n k)) = ix2 b n :=
  funext fun a => Fin.ext (by match a with | ⟨0, _⟩ => rfl | ⟨1, _⟩ => rfl)
theorem i27 (b : Fin 32) (n k : Fin 512) : idx_main_v27 (idx_main_v29 (ix3 b n k)) = ix2 b k :=
  funext fun a => Fin.ext (by match a with | ⟨0, _⟩ => rfl | ⟨1, _⟩ => rfl)
theorem i65 (b : Fin 32) (k : Fin 512) : idx_main_v65 (ix1 b) k = ix2 b k :=
  funext fun a => Fin.ext (by match a with | ⟨0, _⟩ => rfl | ⟨1, _⟩ => rfl)

/-! ## Words: the one-bit results of the comparisons -/

/-- An equality test's bit, read as an unsigned integer, is 1 where the words agree and 0 elsewhere. -/
theorem uitofp_cmpi_eq (a c : BitVec 32) :
    FloatOps.uitofp (F := Ideal) .f32 (IntOp.cmpi .eq a c) = if a = c then (1 : EReal) else 0 := by
  show (((IntOp.cmpi .eq a c).toNat : ℝ) : EReal) = _
  unfold IntOp.cmpi
  by_cases h : a = c
  · simp [h]
  · simp [h]

/-- "Greater than the zero word" is the order's `0 < x`. -/
theorem cmp_ogt_zero (x : EReal) :
    Ideal.cmp .ogt x (Ideal.ofBits .f32 0x00000000#32) = BitVec.ofBool (decide (0 < x)) := by
  rw [Ideal.ofBits_zero_f32]; rfl

/-- A select on the disjunction of two decided bits is the `if` on the disjunction. -/
theorem select_or (p q : Prop) [Decidable p] [Decidable q] [Decidable (p ∨ q)] {α : Type} (A B : α) :
    Scalar.select (IntOp.ori (BitVec.ofBool (decide p)) (BitVec.ofBool (decide q))) A B = if p ∨ q then A else B := by
  unfold Scalar.select IntOp.ori
  by_cases hp : p <;> by_cases hq : q <;> simp [hp, hq]

/-! ## The sum over both keypoint axes -/

/-- The host's sum of a 32 × 512 × 512 array over its last two axes, at sample `b`: the initial value plus the double sum
    over the two coordinates. The indices that drop to `b` are exactly the `(b, n, k)`. -/
theorem reduce12 (y : S32x512x512.Idx → EReal) (init : EReal) (b : Fin 32) :
    Ideal.hostReduceAdd reducesTo_S32x512x512_S32_d1_2 y init (ix1 b)
      = init + ∑ n : Fin 512, ∑ k : Fin 512, y (ix3 b n k) := by
  unfold Ideal.hostReduceAdd
  refine congrArg (init + ·) ?_
  rw [← Fintype.sum_prod_type' (f := fun (n k : Fin 512) => y (ix3 b n k))]
  have hd : ∀ i : S32x512x512.Idx, (reducesTo_S32x512x512_S32_d1_2.drop i (0 : Fin S32.rank) : Nat) = i 0 := fun i =>
    reducesTo_S32x512x512_S32_d1_2.drop_apply_val_of_eq i 0 0
  refine Finset.sum_nbij' (fun i => ((i 1 : Fin 512), (i 2 : Fin 512))) (fun p => ix3 b p.1 p.2) ?_ ?_ ?_ ?_ ?_
  · exact fun _ _ => Finset.mem_univ _
  · intro p _
    refine Finset.mem_filter.mpr ⟨Finset.mem_univ _, funext fun a => Fin.ext ?_⟩
    match a with
    | ⟨0, _⟩ => exact hd _
  · intro i hi
    have h0 : (i 0 : Nat) = b := by
      have := congrArg (fun j : S32.Idx => (j 0 : Nat)) (Finset.mem_filter.mp hi).2
      exact (hd i).symm.trans this
    funext a
    refine Fin.ext ?_
    match a with
    | ⟨0, _⟩ => exact h0.symm
    | ⟨1, _⟩ => rfl
    | ⟨2, _⟩ => rfl
  · exact fun p _ => rfl
  · intro i hi
    have h0 : (i 0 : Nat) = b := by
      have := congrArg (fun j : S32.Idx => (j 0 : Nat)) (Finset.mem_filter.mp hi).2
      exact (hd i).symm.trans this
    refine congrArg y (funext fun a => Fin.ext ?_)
    match a with
    | ⟨0, _⟩ => exact h0
    | ⟨1, _⟩ => rfl
    | ⟨2, _⟩ => rfl

/-! ## The stages -/

/-- The mean square of keypoint `n`'s embedding. -/
theorem sq_eq (x0 : (⟨S32x16x256x256, .f32⟩ : BufTy).Contents (Elt Ideal)) (x1 : (⟨S32x512x2, .f32⟩ : BufTy).Contents (Elt Ideal))
    (b : Fin 32) (n : Fin 512) :
    val_main_v40 (F := Ideal) x0 x1 (ix2 b n)
      = Cert.Spec.sq (fun d n => val_main_v22 (F := Ideal) x0 x1 (ix3 b d n)) n := by
  unfold Cert.Spec.sq
  rw [val_main_v40_apply, val_main_v38_apply, val_main_v39_apply, val_main_cst_5_apply, val_main_cst_4_apply]
  simp only [val_main_v37_apply, i38, Ideal.mulf_def, Ideal.hostDivf_def, Ideal.ofBits_def, Ideal.ofBits_zero_f32, zero_add]

/-- The inner product of two keypoints' embeddings, over sixteen. -/
theorem dot_eq (x0 : (⟨S32x16x256x256, .f32⟩ : BufTy).Contents (Elt Ideal)) (x1 : (⟨S32x512x2, .f32⟩ : BufTy).Contents (Elt Ideal))
    (b : Fin 32) (n k : Fin 512) :
    val_main_v43 (F := Ideal) x0 x1 (ix3 b n k)
      = Ideal.div (Cert.Spec.dotp (fun d n => val_main_v22 (F := Ideal) x0 x1 (ix3 b d n)) n k) Cert.Spec.c16 := by
  unfold Cert.Spec.dotp
  rw [val_main_v43_apply, val_main_v41_apply, val_main_v42_apply, val_main_cst_6_apply]
  simp only [l41, r41, Ideal.hostDivf_def, Ideal.ofBits_def]

/-- The exponent: the two mean squares' sum less twice the scaled inner product. -/
theorem expo_eq (x0 : (⟨S32x16x256x256, .f32⟩ : BufTy).Contents (Elt Ideal)) (x1 : (⟨S32x512x2, .f32⟩ : BufTy).Contents (Elt Ideal))
    (b : Fin 32) (n k : Fin 512) :
    val_main_v51 (F := Ideal) x0 x1 (ix3 b n k) = Cert.Spec.expo (fun d n => val_main_v22 (F := Ideal) x0 x1 (ix3 b d n)) n k := by
  unfold Cert.Spec.expo
  rw [val_main_v51_apply, val_main_v48_apply, val_main_v46_apply, val_main_v44_apply, val_main_v47_apply, val_main_v45_apply,
    val_main_v50_apply, val_main_v49_apply, val_main_cst_7_apply, i44, i45, sq_eq, sq_eq, dot_eq]
  simp only [Ideal.subf_def, Ideal.addf_def, Ideal.mulf_def, Ideal.ofBits_def]

/-- The predicted similarity. -/
theorem psim_eq (x0 : (⟨S32x16x256x256, .f32⟩ : BufTy).Contents (Elt Ideal)) (x1 : (⟨S32x512x2, .f32⟩ : BufTy).Contents (Elt Ideal))
    (b : Fin 32) (n k : Fin 512) :
    val_main_v56 (F := Ideal) x0 x1 (ix3 b n k) = Cert.Spec.psim (fun d n => val_main_v22 (F := Ideal) x0 x1 (ix3 b d n)) n k := by
  unfold Cert.Spec.psim
  rw [val_main_v56_apply, val_main_v55_apply, val_main_cst_9_apply, val_main_v54_apply, val_main_v53_apply, val_main_cst_8_apply,
    val_main_v52_apply, expo_eq]
  simp only [Ideal.hostDivf_def, Ideal.addf_def, Ideal.hostUnary_exp_def, Ideal.ofBits_def]

/-- The true similarity: 1 where the two keypoints' tags agree. -/
theorem tsim_eq (x3 : (⟨S32x512, .i32⟩ : BufTy).Contents (Elt Ideal)) (b : Fin 32) (n k : Fin 512) :
    val_main_v36 (F := Ideal) x3 (ix3 b n k) = Cert.Spec.tsim (fun n => x3 (ix2 b n)) (fun n => x3 (ix2 b n)) n k := by
  unfold Cert.Spec.tsim
  rw [val_main_v36_apply, val_main_v35_apply, val_main_v33_apply, val_main_v31_apply, val_main_v34_apply, val_main_v32_apply,
    i31, i32, uitofp_cmpi_eq]

/-- The pair's weight: ten where either similarity is positive. -/
theorem wgt_eq (x0 : (⟨S32x16x256x256, .f32⟩ : BufTy).Contents (Elt Ideal)) (x1 : (⟨S32x512x2, .f32⟩ : BufTy).Contents (Elt Ideal))
    (x3 : (⟨S32x512, .i32⟩ : BufTy).Contents (Elt Ideal)) (b : Fin 32) (n k : Fin 512) :
    val_main_v62 (F := Ideal) x0 x1 x3 (ix3 b n k) = Cert.Spec.wgt (fun d n => val_main_v22 (F := Ideal) x0 x1 (ix3 b d n)) (fun n => x3 (ix2 b n)) (fun n => x3 (ix2 b n)) n k := by
  unfold Cert.Spec.wgt
  rw [val_main_v62_apply, val_main_v61_apply, val_main_v58_apply, val_main_v57_apply, val_main_cst_10_apply, val_main_v60_apply,
    val_main_v59_apply, val_main_cst_11_apply, val_main_call0_v0_apply, val_main_cst_12_apply, val_main_call0_v1_apply,
    val_main_cst_13_apply, tsim_eq, psim_eq]
  simp only [Ideal.cmpf_def, Ideal.ofBits_def, cmp_ogt_zero]
  exact select_or _ _ _ _

/-- One pair's weighted, masked squared error. -/
theorem term_eq (x0 : (⟨S32x16x256x256, .f32⟩ : BufTy).Contents (Elt Ideal)) (x1 : (⟨S32x512x2, .f32⟩ : BufTy).Contents (Elt Ideal))
    (x2 x3 : (⟨S32x512, .i32⟩ : BufTy).Contents (Elt Ideal)) (b : Fin 32) (n k : Fin 512) :
    val_main_v70 (F := Ideal) x0 x1 x2 x3 (ix3 b n k) = Cert.Spec.term (fun d n => val_main_v22 (F := Ideal) x0 x1 (ix3 b d n)) (fun n => val_main_v25 (F := Ideal) x2 (ix2 b n)) (fun n => val_main_v25 (F := Ideal) x2 (ix2 b n)) (fun n => x3 (ix2 b n)) (fun n => x3 (ix2 b n)) n k := by
  unfold Cert.Spec.term
  rw [val_main_v70_apply, val_main_v69_apply, val_main_v64_apply, val_main_v63_apply, val_main_v30_apply, val_main_v28_apply,
    val_main_v26_apply, val_main_v29_apply, val_main_v27_apply, i26, i27, wgt_eq, psim_eq, tsim_eq]
  simp only [Ideal.mulf_def, Ideal.subf_def]

/-- The numerator: the double sum of the pairs' terms over both keypoint axes. -/
theorem num_eq (x0 : (⟨S32x16x256x256, .f32⟩ : BufTy).Contents (Elt Ideal)) (x1 : (⟨S32x512x2, .f32⟩ : BufTy).Contents (Elt Ideal))
    (x2 x3 : (⟨S32x512, .i32⟩ : BufTy).Contents (Elt Ideal)) (b : Fin 32) :
    val_main_v71 (F := Ideal) x0 x1 x2 x3 (ix1 b)
      = ∑ n : Fin 512, ∑ k : Fin 512, val_main_v70 (F := Ideal) x0 x1 x2 x3 (ix3 b n k) := by
  unfold val_main_v71
  generalize val_main_v70 (F := Ideal) x0 x1 x2 x3 = y
  simp only [Host.reduceAdd, Ideal.hostReduceAdd_def]
  rw [reduce12, val_main_cst_16_apply, Ideal.ofBits_def, Ideal.ofBits_zero_f32, zero_add]

/-- The denominator: the larger of the squared count of visible keypoints and one. -/
theorem den_eq (x2 : (⟨S32x512, .i32⟩ : BufTy).Contents (Elt Ideal)) (b : Fin 32) :
    val_main_v68 (F := Ideal) x2 (ix1 b)
      = max ((∑ k : Fin 512, val_main_v25 (F := Ideal) x2 (ix2 b k)) * (∑ k : Fin 512, val_main_v25 (F := Ideal) x2 (ix2 b k)))
          Cert.Spec.c1 := by
  rw [val_main_v68_apply, val_main_v66_apply, val_main_v65_apply, val_main_v67_apply, val_main_cst_15_apply, val_main_cst_14_apply]
  simp only [i65, Ideal.maximumf_def, Ideal.mulf_def, Ideal.ofBits_def, Ideal.ofBits_zero_f32, zero_add]

/-- Sample `b`'s entry of the reference's per-sample vector (the quotient of the masked weighted squared errors' sum over both
    keypoint axes by max(K², 1)) is the specification's loss of: the gathered embeddings of sample `b`, the visibility mask of
    sample `b` (read along rows and along columns: the same vector), and the tags of sample `b` (likewise). -/
theorem ref_persample (x0 : (⟨S32x16x256x256, .f32⟩ : BufTy).Contents (Elt Ideal)) (x1 : (⟨S32x512x2, .f32⟩ : BufTy).Contents (Elt Ideal))
    (x2 x3 : (⟨S32x512, .i32⟩ : BufTy).Contents (Elt Ideal)) (b : Fin 32) :
    val_main_v72 (F := Ideal) x0 x1 x2 x3 (ix1 b)
      = Cert.Spec.lossS (fun d n => val_main_v22 (F := Ideal) x0 x1 (ix3 b d n))
          (fun n => val_main_v25 (F := Ideal) x2 (ix2 b n)) (fun n => val_main_v25 (F := Ideal) x2 (ix2 b n))
          (fun n => x3 (ix2 b n)) (fun n => x3 (ix2 b n)) := by
  unfold Cert.Spec.lossS
  rw [val_main_v72_apply, num_eq, den_eq, Ideal.hostDivf_def]
  simp only [term_eq]

end Cert.ReferenceIdeal.RefVal

end
-- ==== Proof.Gather.lean ====
/- The pixel indices: the precondition bounds them, the reference's gather then reads the pixel they name, and the kernel's
   flat index y · 256 + x neither wraps nor leaves the 65536 pixels. -/
import proofs.«126018_j80238579023903_1_alg».proof.Proof.RefRead
import proofs.«126018_j80238579023903_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Idealize.ShloMosaic Idealize.ShloMosaic.ValueIdx
open scoped BigOperators
open Cert.ReferenceIdeal Cert.ReferenceIdeal.Gen Cert.ReferenceIdeal.ReadP

/-- The index vector both programs compute: floor (kpt · 256), converted to i32 (the reference's `%4`). -/
abbrev idxv (x1 : (⟨S32x512x2, .f32⟩ : BufTy).Contents (Elt Ideal)) : (⟨S32x512x2, .i32⟩ : BufTy).Contents (Elt Ideal) :=
  val_main_v4 (F := Ideal) x1

/-- Every pixel index lies in [0, 256). -/
def InRange (x1 : (⟨S32x512x2, .f32⟩ : BufTy).Contents (Elt Ideal)) : Prop :=
  ∀ i : S32x512x2.Idx, 0 ≤ (idxv x1 i).toInt ∧ (idxv x1 i).toInt < 256

namespace Gather

/-! ## Words: a signed 32-bit word in [0, 256) -/

/-- A word whose signed value lies in [0, 256) has that value unsigned as well. -/
theorem word_toInt_eq (x : BitVec 32) (h : 0 ≤ x.toInt ∧ x.toInt < 256) : x.toInt = (x.toNat : Int) := by
  have hlt := x.isLt
  have e := BitVec.toInt_eq_toNat_cond x
  split at e <;> omega

theorem word_toNat_lt (x : BitVec 32) (h : 0 ≤ x.toInt ∧ x.toInt < 256) : x.toNat < 256 := by
  have e := word_toInt_eq x h
  omega

theorem word_toInt_toNat (x : BitVec 32) (h : 0 ≤ x.toInt ∧ x.toInt < 256) : x.toInt.toNat = x.toNat := by
  have e := word_toInt_eq x h
  omega

/-- The signed comparison "x ≥ 0" on words says the signed value is non-negative. -/
theorem cmpi_sge_zero (x : BitVec 32) : IntOp.cmpi .sge x 0#32 = 1#1 ↔ 0 ≤ x.toInt := by
  show BitVec.ofBool ((0#32 : BitVec 32).sle x) = 1#1 ↔ _
  rw [StableHlo.Predicate.ofBool_eq_one_iff, BitVec.sle, decide_eq_true_eq, show (0#32 : BitVec 32).toInt = 0 from by decide]

/-- The signed comparison "x < 256" on words says the signed value is below 256. -/
theorem cmpi_slt_256 (x : BitVec 32) : IntOp.cmpi .slt x 256#32 = 1#1 ↔ x.toInt < 256 := by
  show BitVec.ofBool (x.slt 256#32) = 1#1 ↔ _
  rw [StableHlo.Predicate.ofBool_eq_one_iff, BitVec.slt, decide_eq_true_eq, show (256#32 : BitVec 32).toInt = 256 from by decide]

/-- A non-negative word is not below zero: the comparison bit "x < 0" is 0. -/
theorem cmpi_slt_zero_of_nonneg (x : BitVec 32) (h : 0 ≤ x.toInt) : IntOp.cmpi .slt x 0#32 = 0#1 := by
  apply eq_zero_of_ne_one
  intro e
  have e' : BitVec.ofBool (x.slt 0#32) = 1#1 := e
  rw [StableHlo.Predicate.ofBool_eq_one_iff, BitVec.slt, decide_eq_true_eq, show (0#32 : BitVec 32).toInt = 0 from by decide] at e'
  omega

end Gather

/-- The precondition (its last two conjuncts: every index ≥ 0, every index < 256) bounds every pixel index. -/
theorem inRange_of_pre (x0 : (⟨S32x16x256x256, .f32⟩ : BufTy).Contents (Elt Ideal)) (x1 : (⟨S32x512x2, .f32⟩ : BufTy).Contents (Elt Ideal))
    (x2 x3 : (⟨S32x512, .i32⟩ : BufTy).Contents (Elt Ideal))
    (h : Cert.Pre_finite_inputs.fn (F := Ideal) x0 x1 x2 x3 = fun _ => 1#1) : InRange x1 := by
  intro i
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h123, h4⟩ := IntOp.andi_eq_one.1 h0
  obtain ⟨_, h3⟩ := IntOp.andi_eq_one.1 h123
  have e3 := Host.reduce_andi_all _ _ _ _ _ h3 i
  have e4 := Host.reduce_andi_all _ _ _ _ _ h4 i
  have e3' : IntOp.cmpi .sge (idxv x1 i) 0#32 = 1#1 := e3
  have e4' : IntOp.cmpi .slt (idxv x1 i) 256#32 = 1#1 := e4
  exact ⟨(Gather.cmpi_sge_zero _).1 e3', (Gather.cmpi_slt_256 _).1 e4'⟩

theorem toNat_lt {x1 : (⟨S32x512x2, .f32⟩ : BufTy).Contents (Elt Ideal)} (hr : InRange x1) (i : S32x512x2.Idx) :
    (idxv x1 i).toNat < 256 := Gather.word_toNat_lt _ (hr i)

namespace Gather

/-! ## The reference's gather, read at one index -/

/-- The gather's dimension numbers: offset axis 1, collapsed axes 2 and 3, batching axis 0 on both sides, the start index's
    two components naming operand axes 2 and 3, slices 1 × 16 × 1 × 1. -/
abbrev G : GatherDims S32x16x256x256 S32x512x2 S32x16x512 := gather_S32x16x256x256_S32x512x2_S32x16x512_1_23_0_0_23_2_11611

/-- Result index (b, d, n) reads component 0 of its start index at (b, n, 0) … -/
theorem G_siIdx0 (b : Fin 32) (d : Fin 16) (n : Fin 512) (h : 0 < G.startIndexMap.length) :
    G.siIdx (ix3 b d n) ⟨0, h⟩ = ix3 b n 0 := by
  funext a
  refine Fin.ext ?_
  match a with
  | ⟨0, _⟩ => rfl
  | ⟨1, _⟩ => rfl
  | ⟨2, _⟩ => rfl

/-- … and component 1 at (b, n, 1). -/
theorem G_siIdx1 (b : Fin 32) (d : Fin 16) (n : Fin 512) (h : 1 < G.startIndexMap.length) :
    G.siIdx (ix3 b d n) ⟨1, h⟩ = ix3 b n 1 := by
  funext a
  refine Fin.ext ?_
  match a with
  | ⟨0, _⟩ => rfl
  | ⟨1, _⟩ => rfl
  | ⟨2, _⟩ => rfl

/-- THE GATHER AT (b, d, n): when the two components of the start index at (b, n, ·), read signed, are the in-range
    coordinates Y and X, the clamp is the identity and the operand is read at (b, d, Y, X). -/
theorem gather_read {α : Type} (x : S32x16x256x256.Idx → α) (idx : IVec S32x512x2 32) (b : Fin 32) (d : Fin 16) (n : Fin 512)
    (Y X : Fin 256) (hy : (idx (ix3 b n 0)).toInt.toNat = Y.val) (hx : (idx (ix3 b n 1)).toInt.toNat = X.val) :
    Host.gather G x idx (ix3 b d n) = x (ix4 b d Y X) := by
  unfold Host.gather
  congr 1
  funext a
  refine Fin.ext ?_
  have hY := Y.isLt
  have hX := X.isLt
  match a with
  | ⟨0, _⟩ =>
    show G.start (ix3 b d n) idx 0 + G.batchCoord (ix3 b d n) 0 + G.offCoord (ix3 b d n) 0 = b.val
    have e1 : G.start (ix3 b d n) idx 0 = 0 := rfl
    have e2 : G.batchCoord (ix3 b d n) 0 = b.val := rfl
    have e3 : G.offCoord (ix3 b d n) 0 = 0 := rfl
    rw [e1, e2, e3]; omega
  | ⟨1, _⟩ =>
    show G.start (ix3 b d n) idx 1 + G.batchCoord (ix3 b d n) 1 + G.offCoord (ix3 b d n) 1 = d.val
    have e1 : G.start (ix3 b d n) idx 1 = 0 := rfl
    have e2 : G.batchCoord (ix3 b d n) 1 = 0 := rfl
    have e3 : G.offCoord (ix3 b d n) 1 = d.val := rfl
    rw [e1, e2, e3]; omega
  | ⟨2, _⟩ =>
    show G.start (ix3 b d n) idx 2 + G.batchCoord (ix3 b d n) 2 + G.offCoord (ix3 b d n) 2 = Y.val
    have e1 : G.start (ix3 b d n) idx 2 = min (idx (G.siIdx (ix3 b d n) ⟨0, by decide⟩)).toInt.toNat (256 - 1) := rfl
    have e2 : G.batchCoord (ix3 b d n) 2 = 0 := rfl
    have e3 : G.offCoord (ix3 b d n) 2 = 0 := rfl
    rw [e1, e2, e3, G_siIdx0, hy]; omega
  | ⟨3, _⟩ =>
    show G.start (ix3 b d n) idx 3 + G.batchCoord (ix3 b d n) 3 + G.offCoord (ix3 b d n) 3 = X.val
    have e1 : G.start (ix3 b d n) idx 3 = min (idx (G.siIdx (ix3 b d n) ⟨1, by decide⟩)).toInt.toNat (256 - 1) := rfl
    have e2 : G.batchCoord (ix3 b d n) 3 = 0 := rfl
    have e3 : G.offCoord (ix3 b d n) 3 = 0 := rfl
    rw [e1, e2, e3, G_siIdx1, hx]; omega

/-! ## The start indices: the two normalised coordinates, joined along a trailing axis -/

/-- Column (b, n) of the first coordinate plane, traced back through the reshape and the slice, is element (b, n, 0). -/
theorem idx_y (b : Fin 32) (n : Fin 512) :
    idx_main_v5 (idx_main_v6 (idx_main_v19 (ix3 b n (0 : Fin 1)))) = ix3 b n (0 : Fin 2) := by
  have hb := b.isLt
  have hn := n.isLt
  funext a
  refine Fin.ext ?_
  match a with
  | ⟨0, _⟩ => show (b.val * 512 + n.val) / 512 = b.val; omega
  | ⟨1, _⟩ => show (b.val * 512 + n.val) / 1 % 512 = n.val; omega
  | ⟨2, _⟩ => rfl

/-- Column (b, n) of the second coordinate plane is element (b, n, 1). -/
theorem idx_x (b : Fin 32) (n : Fin 512) :
    idx_main_v7 (idx_main_v8 (idx_main_v20 (ix3 b n (0 : Fin 1)))) = ix3 b n (1 : Fin 2) := by
  have hb := b.isLt
  have hn := n.isLt
  funext a
  refine Fin.ext ?_
  match a with
  | ⟨0, _⟩ => show (b.val * 512 + n.val) / 512 = b.val; omega
  | ⟨1, _⟩ => show (b.val * 512 + n.val) / 1 % 512 = n.val; omega
  | ⟨2, _⟩ => rfl

/-- In range, the wrap "add 256 when negative" keeps the first coordinate: the start index at (b, n, 0) is the index
    vector's element (b, n, 0). -/
theorem v21_y (x1 : (⟨S32x512x2, .f32⟩ : BufTy).Contents (Elt Ideal)) (hr : InRange x1) (b : Fin 32) (n : Fin 512) :
    val_main_v21 (F := Ideal) x1 (ix3 b n 0) = idxv x1 (ix3 b n 0) := by
  unfold val_main_v21
  refine (concatenate_pair_apply_left (t := S32x512x2) (s₁ := S32x512x1) (s₂ := S32x512x1) 2 (val_main_v19 (F := Ideal) x1)
    (val_main_v20 (F := Ideal) x1) concatenates_S32x512x1_S32x512x1_S32x512x2_d2 (ix3 b n (0 : Fin 2)) rfl (ix3 b n (0 : Fin 1))
    (fun a => match a with | ⟨0, _⟩ => rfl | ⟨1, _⟩ => rfl | ⟨2, _⟩ => rfl)).trans ?_
  rw [val_main_v19_apply, val_main_v13_apply, val_main_v10_apply, val_main_v9_apply, val_main_c_apply, val_main_v6_apply,
    val_main_v5_apply, idx_y]
  rw [cmpi_slt_zero_of_nonneg _ (hr _).1, select_zero]

/-- Likewise the second coordinate: the start index at (b, n, 1) is the index vector's element (b, n, 1). -/
theorem v21_x (x1 : (⟨S32x512x2, .f32⟩ : BufTy).Contents (Elt Ideal)) (hr : InRange x1) (b : Fin 32) (n : Fin 512) :
    val_main_v21 (F := Ideal) x1 (ix3 b n 1) = idxv x1 (ix3 b n 1) := by
  unfold val_main_v21
  refine (concatenate_pair_apply_right (t := S32x512x2) (s₁ := S32x512x1) (s₂ := S32x512x1) 2 (val_main_v19 (F := Ideal) x1)
    (val_main_v20 (F := Ideal) x1) concatenates_S32x512x1_S32x512x1_S32x512x2_d2 (ix3 b n (1 : Fin 2)) rfl rfl (ix3 b n (0 : Fin 1))
    (fun a => match a with | ⟨0, _⟩ => fun _ => rfl | ⟨1, _⟩ => fun _ => rfl | ⟨2, _⟩ => fun h => absurd rfl h) rfl).trans ?_
  rw [val_main_v20_apply, val_main_v18_apply, val_main_v15_apply, val_main_v14_apply, val_main_c_1_apply, val_main_v8_apply,
    val_main_v7_apply, idx_x]
  rw [cmpi_slt_zero_of_nonneg _ (hr _).1, select_zero]

end Gather

/-- In range, the reference's gather (whose start indices are first wrapped when negative, then clamped) reads the pixel
    (y, x) of sample `b`, channel `d`. -/
theorem ref_gather (x0 : (⟨S32x16x256x256, .f32⟩ : BufTy).Contents (Elt Ideal)) (x1 : (⟨S32x512x2, .f32⟩ : BufTy).Contents (Elt Ideal))
    (hr : InRange x1) (b : Fin 32) (d : Fin 16) (n : Fin 512) :
    val_main_v22 (F := Ideal) x0 x1 (ix3 b d n)
      = x0 (ix4 b d ⟨(idxv x1 (ix3 b n 0)).toNat, toNat_lt hr _⟩ ⟨(idxv x1 (ix3 b n 1)).toNat, toNat_lt hr _⟩) := by
  unfold val_main_v22
  refine Gather.gather_read x0 _ b d n _ _ ?_ ?_
  · rw [Gather.v21_y x1 hr b n]; exact Gather.word_toInt_toNat _ (hr _)
  · rw [Gather.v21_x x1 hr b n]; exact Gather.word_toInt_toNat _ (hr _)

/-- The flat index y · 256 + x of two in-range coordinates, computed on 32-bit words, is the number y · 256 + x. -/
theorem flat_toNat (Y X : BitVec 32) (hy : 0 ≤ Y.toInt ∧ Y.toInt < 256) (hx : 0 ≤ X.toInt ∧ X.toInt < 256) :
    (Y * 256#32 + X).toNat = Y.toNat * 256 + X.toNat := by
  have hY := Gather.word_toNat_lt Y hy
  have hX := Gather.word_toNat_lt X hx
  have h256 : (256#32 : BitVec 32).toNat = 256 := rfl
  rw [BitVec.toNat_add, BitVec.toNat_mul, h256]
  omega

end Cert.ReferenceIdeal.RefVal

end
-- ==== Proof.KI.KValue.lean ====
/- The kernel program's result at the ideal instance is the reference's, under the precondition: per sample both are the
   specification's loss of the gathered embeddings — the kernel's one-hot accumulation over sixteen tiles picks the pixel at
   the flat index y · 256 + x, which in range is the pixel (y, x) the reference's gather reads —, the same mask and the same
   tags; and both programs end with the same mean over the 32 samples. -/
import proofs.«126018_j80238579023903_1_alg».proof.Proof.KI.KHost
import proofs.«126018_j80238579023903_1_alg».proof.Proof.KI.KHost1
import proofs.«126018_j80238579023903_1_alg».proof.Proof.KI.KArr0
import proofs.«126018_j80238579023903_1_alg».proof.Proof.KI.KArr1
import proofs.«126018_j80238579023903_1_alg».proof.Proof.RefValue
import proofs.«126018_j80238579023903_1_alg».proof.Proof.Gather
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open scoped BigOperators
open Cert.KernelIdeal Cert.KernelIdeal.Gen Cert.KernelIdeal.Hand
open Idealize.ShloMosaic.TcCoe Idealize.SL.Sem
open Cert.ReferenceIdeal.RefVal

variable (m : (ℓ : Loc nD τ sig) → Buf (Elt Ideal) ℓ) (c : Dev nD)

/-- The four argument arrays as the launch memory holds them. -/
abbrev a0 : (⟨Cert.ReferenceIdeal.S32x16x256x256, .f32⟩ : BufTy).Contents (Elt Ideal) := m ((c.tc : Thread nD τ).loc main_arg0)
abbrev a1 : (⟨Cert.ReferenceIdeal.S32x512x2, .f32⟩ : BufTy).Contents (Elt Ideal) := m ((c.tc : Thread nD τ).loc main_arg1)
abbrev a2 : (⟨Cert.ReferenceIdeal.S32x512, .i32⟩ : BufTy).Contents (Elt Ideal) := m ((c.tc : Thread nD τ).loc main_arg2)
abbrev a3 : (⟨Cert.ReferenceIdeal.S32x512, .i32⟩ : BufTy).Contents (Elt Ideal) := m ((c.tc : Thread nD τ).loc main_arg3)

/-- In range, keypoint n's flat index is the number y · 256 + x, below 65536. -/
theorem flat_lt (hr : InRange (a1 m c)) (b : Fin 32) (n : Fin 512) :
    ((E1 m c main_v13 : S32x1x512.Idx → BitVec 32) (ix3 b 0 n)).toNat
      = (idxv (a1 m c) (ix3 b n 0)).toNat * 256 + (idxv (a1 m c) (ix3 b n 1)).toNat := by
  rw [E1_v13]
  exact flat_toNat _ _ (hr _) (hr _)

/-- The gathered embeddings: the kernel's array holds what the reference's gather reads. -/
theorem ebd_ref (hr : InRange (a1 m c)) (b : Fin 32) (d : Fin 16) (n : Fin 512) :
    (E3 m c main_v14 : S32x16x512.Idx → EReal) (ix3 b d n)
      = Cert.ReferenceIdeal.ReadP.val_main_v22 (F := Ideal) (a0 m c) (a1 m c) (ix3 b d n) := by
  have hy := toNat_lt hr (ix3 b n 0)
  have hx := toNat_lt hr (ix3 b n 1)
  have hidx : ∀ (b : Fin 32) (n : Fin 512), ((E1 m c main_v13 : S32x1x512.Idx → BitVec 32) (ix3 b 0 n)).toNat < 65536 := fun b n => by
    rw [flat_lt m c hr b n]
    have := toNat_lt hr (ix3 b n 0); have := toNat_lt hr (ix3 b n 1); omega
  rw [E3_v14, ebd_eq m c hidx b d n, E1_v12, ref_gather (a0 m c) (a1 m c) hr b d n]
  have hf := flat_lt m c hr b n
  refine congrArg _ ?_
  refine congrArg₂ (ix4 b d) (Fin.ext ?_) (Fin.ext ?_)
  · show BitVec.toNat _ / 256 = BitVec.toNat _
    omega
  · show BitVec.toNat _ % 256 = BitVec.toNat _
    omega

/-- THE RESULT: under the precondition the kernel program's result buffer ends holding the reference's result term. -/
theorem kernel_result
    (hpre : Cert.Pre_finite_inputs.fn (F := Ideal) (a0 m c) (a1 m c) (a2 m c) (a3 m c) = fun _ => 1#1) :
    (B5 m c main_v25 : S_.Idx → EReal)
      = Cert.ReferenceIdeal.ReadP.val_main_v74 (F := Ideal) (a0 m c) (a1 m c) (a2 m c) (a3 m c) := by
  have hr : InRange (a1 m c) := inRange_of_pre _ _ _ _ hpre
  rw [B5_v25]
  unfold Cert.ReferenceIdeal.ReadP.val_main_v74 Cert.ReferenceIdeal.ReadP.val_main_v73
  have hv : (fun i : S32.Idx => (E4 m c main_v22 : S32x1x1.Idx → EReal) (ix3 (i 0) 0 0))
      = Cert.ReferenceIdeal.ReadP.val_main_v72 (F := Ideal) (a0 m c) (a1 m c) (a2 m c) (a3 m c) := by
    funext i
    obtain ⟨b, rfl⟩ : ∃ b : Fin 32, i = ix1 b := ⟨i 0, eq_ix1 i⟩
    show (E4 m c main_v22 : S32x1x1.Idx → EReal) (ix3 b 0 0) = _
    rw [persample_eq m c b, ref_persample (a0 m c) (a1 m c) (a2 m c) (a3 m c) b]
    have e1 : (fun d n => (E3 m c main_v14 : S32x16x512.Idx → EReal) (ix3 b d n))
        = fun d n => Cert.ReferenceIdeal.ReadP.val_main_v22 (F := Ideal) (a0 m c) (a1 m c) (ix3 b d n) :=
      funext fun d => funext fun n => ebd_ref m c hr b d n
    have e2 : (fun n => (E3 m c main_v19 : S32x512x1.Idx → EReal) (ix3 b n 0))
        = fun n => Cert.ReferenceIdeal.ReadP.val_main_v25 (F := Ideal) (a2 m c) (ix2 b n) := funext fun n => E3_v19 m c b n
    have e3 : (fun n => (E3 m c main_v18 : S32x1x512.Idx → EReal) (ix3 b 0 n))
        = fun n => Cert.ReferenceIdeal.ReadP.val_main_v25 (F := Ideal) (a2 m c) (ix2 b n) := funext fun n => E3_v18 m c b n
    have e4 : (fun n => (E3 m c main_v21 : S32x512x1.Idx → BitVec 32) (ix3 b n 0))
        = fun n => (a3 m c) (ix2 b n) := funext fun n => E3_v21 m c b n
    have e5 : (fun n => (E3 m c main_v20 : S32x1x512.Idx → BitVec 32) (ix3 b 0 n))
        = fun n => (a3 m c) (ix2 b n) := funext fun n => E3_v20 m c b n
    rw [e1, e2, e3, e4, e5]
  rw [hv]
  rfl

end Cert.KernelIdeal.Val

end
-- ==== Proof.lean ====
/-
  The certificate's five claims.

  The kernel gathers, per sample, the pixel embeddings at 512 keypoints by a one-hot matrix product accumulated over sixteen
  tiles of 4096 pixels, then computes a pairwise tag loss per sample and the mean over the samples; the reference gathers
  with an indexed read and computes the same loss.  On the extended reals the sixteen one-hot products sum to the pixel at
  the flat index y · 256 + x; under the precondition (every pixel index floor (kpt · 256) in [0, 256)) that is the pixel
  (y, x) the reference reads, the flat index neither wrapping nor leaving the 65536 pixels.  The loss is then one function
  (Spec.lean) of the gathered embeddings, the visibility mask and the tags on both sides: the kernel's 1/16 as a product
  against the reference's quotient by 16, its row-then-column sums against the reference's sum over both axes.

  The three frames: each program runs to the end from any memory, nothing faulting, the argument arrays unchanged — for the
  two kernel programs from the run of @main's five items (KI/Run.lean and its word-level twin), for the reference from
  its run read back.  The idealization rewrote nothing, so `preserves` is trivial.
-/
import proofs.«126018_j80238579023903_1_alg».proof.Defs
import proofs.«126018_j80238579023903_1_alg».proof.Proof.Gen.Kernel
import proofs.«126018_j80238579023903_1_alg».proof.Proof.Gen.KernelIdeal
import proofs.«126018_j80238579023903_1_alg».proof.Proof.Gen.ReferenceIdeal
import proofs.«126018_j80238579023903_1_alg».proof.Proof.Gen.Pre_finite_inputs
import proofs.«126018_j80238579023903_1_alg».proof.Proof.K.Run
import proofs.«126018_j80238579023903_1_alg».proof.Proof.KI.Run
import proofs.«126018_j80238579023903_1_alg».proof.Proof.KI.KValue
import proofs.«126018_j80238579023903_1_alg».proof.Proof.RefRun
import proofs.«126018_j80238579023903_1_alg».proof.Proof.RefRead

noncomputable section

namespace Cert.Proof

open Idealize.ShloMosaic Idealize.ShloMosaic.TcCoe Idealize.SL.Sem

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs run to the end with the same result: the kernel
    program's result buffer holds, by its run and the value of its last boundary, the reference's result term of the
    arguments; the reference's holds that term by its run read back. -/
theorem algebraic : Cert.algebraic_KernelIdeal_ReferenceIdeal := by
  intro m ρ m' ρ' hpre hagree
  refine ⟨fun c => Cert.KernelIdeal.Hand.B5 m c Cert.KernelIdeal.main_v25, Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v74_eq, (hagree c).1, (hagree c).2.1, (hagree c).2.2.1, (hagree c).2.2.2]
  exact (Cert.KernelIdeal.Val.kernel_result m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
